-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x69 : Shape := ⟨2, ![50000, 69]⟩
abbrev S100000x69 : Shape := ⟨2, ![100000, 69]⟩
abbrev S2x600000 : Shape := ⟨2, ![2, 600000]⟩
abbrev S69 : Shape := ⟨1, ![69]⟩
abbrev S69x128 : Shape := ⟨2, ![69, 128]⟩
abbrev S128 : Shape := ⟨1, ![128]⟩
abbrev S128x128 : Shape := ⟨2, ![128, 128]⟩
abbrev S1 : Shape := ⟨1, ![1]⟩
abbrev S256x128 : Shape := ⟨2, ![256, 128]⟩
abbrev S128x2 : Shape := ⟨2, ![128, 2]⟩
abbrev S2 : Shape := ⟨1, ![2]⟩
abbrev S_ : Shape := ⟨0, ![]⟩
abbrev S1x600000 : Shape := ⟨2, ![1, 600000]⟩
abbrev S600000 : Shape := ⟨1, ![600000]⟩

class Facts : Prop where
  bcast_S_S50000x69 : S_.BroadcastsInDim S50000x69 (![] : Fin 0 → Fin S50000x69.rank)
  reducesTo_S50000x69_S_d0_1 : S50000x69.ReducesTo [0, 1] S_
  h_S_ : 0 < S_.numel
  bcast_S_S100000x69 : S_.BroadcastsInDim S100000x69 (![] : Fin 0 → Fin S100000x69.rank)
  reducesTo_S100000x69_S_d0_1 : S100000x69.ReducesTo [0, 1] S_
  bcast_S_S69 : S_.BroadcastsInDim S69 (![] : Fin 0 → Fin S69.rank)
  reducesTo_S69_S_d0 : S69.ReducesTo [0] S_
  bcast_S_S69x128 : S_.BroadcastsInDim S69x128 (![] : Fin 0 → Fin S69x128.rank)
  reducesTo_S69x128_S_d0_1 : S69x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_
  slices_S2x600000_S1x600000_1_0 : S2x600000.Slices ![1, 0] S1x600000

variable [Facts]

def fn_part12 {F : FTy → Type} [FloatOps F] (main_arg2 : IVec S2x600000 32) (main_v198 : IVec S_ 1) (main_v202 : IVec S600000 1) (main_v204 : IVec S600000 32) (main_v205 : IVec S600000 32) : IVec S_ 1 :=
  let main_v206 : IVec S600000 1 := cmpi .slt main_v204 main_v205
  let main_v207 : IVec S600000 1 := andi main_v202 main_v206
  let main_c_80 : IVec S_ 1 := constantI S_ 1 1#1
  let main_v208 : IVec S_ 1 := (fun x v => Host.reduce IntOp.andi x v reducesTo_S600000_S_d0 h_S_) main_v207 main_c_80
  let main_v209 : IVec S_ 1 := andi main_v198 main_v208
  let main_v210 : IVec S1x600000 32 := (extractStridedSlice S1x600000 ![1, 0] · slices_S2x600000_S1x600000_1_0) main_arg2
  let main_v211 : IVec S600000 32 := shapeCast S600000 main_v210 shapeCasts_S1x600000_S600000
  let main_c_81 : IVec S_ 32 := constantI S_ 32 0#32
  let main_v212 : IVec S600000 32 := broadcastInDim S600000 ![] bcast_S_S600000 main_c_81
  let main_v213 : IVec S600000 1 := cmpi .sge main_v211 main_v212
  let main_v214 : IVec S1x600000 32 := (extractStridedSlice S1x600000 ![1, 0] · slices_S2x600000_S1x600000_1_0) main_arg2
  let main_v215 : IVec S600000 32 := shapeCast S600000 main_v214 shapeCasts_S1x600000_S600000
  let main_c_82 : IVec S_ 32 := constantI S_ 32 100000#32
  let main_v216 : IVec S600000 32 := broadcastInDim S600000 ![] bcast_S_S600000 main_c_82
  let main_v217 : IVec S600000 1 := cmpi .slt main_v215 main_v216
  let main_v218 : IVec S600000 1 := andi main_v213 main_v217
  let main_c_83 : IVec S_ 1 := constantI S_ 1 1#1
  let main_v219 : IVec S_ 1 := (fun x v => Host.reduce IntOp.andi x v reducesTo_S600000_S_d0 h_S_) main_v218 main_c_83
  let main_v220 : IVec S_ 1 := andi main_v209 main_v219
  main_v220

def fn_part11 {F : FTy → Type} [FloatOps F] (main_arg2 : IVec S2x600000 32) (main_arg39 : FVec F S128x2 .f32) (main_arg40 : FVec F S2 .f32) (main_v183 : IVec S_ 1) (main_v187 : IVec S_ 1) : IVec S_ 1 :=
  let main_v188 : IVec S_ 1 := andi main_v183 main_v187
  let main_v189 : FVec F S128x2 .f32 := Host.absf main_arg39
  let main_cst_74 : FVec F S_ .f32 := constant S_ .f32 0x7F800000#32
  let main_v190 : FVec F S128x2 .f32 := broadcastInDim S128x2 ![] bcast_S_S128x2 main_cst_74
  let main_v191 : IVec S128x2 1 := cmpf .olt main_v189 main_v190
  let main_c_75 : IVec S_ 1 := constantI S_ 1 1#1
  let main_v192 : IVec S_ 1 := (fun x v => Host.reduce IntOp.andi x v reducesTo_S128x2_S_d0_1 h_S_) main_v191 main_c_75
  let main_v193 : IVec S_ 1 := andi main_v188 main_v192
  let main_v194 : FVec F S2 .f32 := Host.absf main_arg40
  let main_cst_76 : FVec F S_ .f32 := constant S_ .f32 0x7F800000#32
  let main_v195 : FVec F S2 .f32 := broadcastInDim S2 ![] bcast_S_S2 main_cst_76
  let main_v196 : IVec S2 1 := cmpf .olt main_v194 main_v195
  let main_c_77 : IVec S_ 1 := constantI S_ 1 1#1
  let main_v197 : IVec S_ 1 := (fun x v => Host.reduce IntOp.andi x v reducesTo_S2_S_d0 h_S_) main_v196 main_c_77
  let main_v198 : IVec S_ 1 := andi main_v193 main_v197
  let main_v199 : IVec S1x600000 32 := (extractStridedSlice S1x600000 ![0, 0] · slices_S2x600000_S1x600000_0_0) main_arg2
  let main_v200 : IVec S600000 32 := shapeCast S600000 main_v199 shapeCasts_S1x600000_S600000
  let main_c_78 : IVec S_ 32 := constantI S_ 32 0#32
  let main_v201 : IVec S600000 32 := broadcastInDim S600000 ![] bcast_S_S600000 main_c_78
  let main_v202 : IVec S600000 1 := cmpi .sge main_v200 main_v201
  let main_v203 : IVec S1x600000 32 := (extractStridedSlice S1x600000 ![0, 0] · slices_S2x600000_S1x600000_0_0) main_arg2
  let main_v204 : IVec S600000 32 := shapeCast S600000 main_v203 shapeCasts_S1x600000_S600000
  let main_c_79 : IVec S_ 32 := constantI S_ 32 50000#32
  let main_v205 : IVec S600000 32 := broadcastInDim S600000 ![] bcast_S_S600000 main_c_79
  fn_part12 (F := F) main_arg2 main_v198 main_v202 main_v204 main_v205

def fn_part10 {F : FTy → Type} [FloatOps F] (main_arg2 : IVec S2x600000 32) (main_arg36 : FVec F S128 .f32) (main_arg37 : FVec F S128x128 .f32) (main_arg38 : FVec F S128 .f32) (main_arg39 : FVec F S128x2 .f32) (main_arg40 : FVec F S2 .f32) (main_v168 : IVec S_ 1) (main_v169 : FVec F S128x128 .f32) (main_v170 : FVec F S128x128 .f32) : IVec S_ 1 :=
  let main_v171 : IVec S128x128 1 := cmpf .olt main_v169 main_v170
  let main_c_67 : IVec S_ 1 := constantI S_ 1 1#1
  let main_v172 : IVec S_ 1 := (fun x v => Host.reduce IntOp.andi x v reducesTo_S128x128_S_d0_1 h_S_) main_v171 main_c_67
  let main_v173 : IVec S_ 1 := andi main_v168 main_v172
  let main_v174 : FVec F S128 .f32 := Host.absf main_arg36
  let main_cst_68 : FVec F S_ .f32 := constant S_ .f32 0x7F800000#32
  let main_v175 : FVec F S128 .f32 := broadcastInDim S128 ![] bcast_S_S128 main_cst_68
  let main_v176 : IVec S128 1 := cmpf .olt main_v174 main_v175
  let main_c_69 : IVec S_ 1 := constantI S_ 1 1#1
  let main_v177 : IVec S_ 1 := (fun x v => Host.reduce IntOp.andi x v reducesTo_S128_S_d0 h_S_) main_v176 main_c_69
  let main_v178 : IVec S_ 1 := andi main_v173 main_v177
  let main_v179 : FVec F S128x128 .f32 := Host.absf main_arg37
  let main_cst_70 : FVec F S_ .f32 := constant S_ .f32 0x7F800000#32
  let main_v180 : FVec F S128x128 .f32 := broadcastInDim S128x128 ![] bcast_S_S128x128 main_cst_70
  let main_v181 : IVec S128x128 1 := cmpf .olt main_v179 main_v180
  let main_c_71 : IVec S_ 1 := constantI S_ 1 1#1
  let main_v182 : IVec S_ 1 := (fun x v => Host.reduce IntOp.andi x v reducesTo_S128x128_S_d0_1 h_S_) main_v181 main_c_71
  let main_v183 : IVec S_ 1 := andi main_v178 main_v182
  let main_v184 : FVec F S128 .f32 := Host.absf main_arg38
  let main_cst_72 : FVec F S_ .f32 := constant S_ .f32 0x7F800000#32
  let main_v185 : FVec F S128 .f32 := broadcastInDim S128 ![] bcast_S_S128 main_cst_72
  let main_v186 : IVec S128 1 := cmpf .olt main_v184 main_v185
  let main_c_73 : IVec S_ 1 := constantI S_ 1 1#1
  let main_v187 : IVec S_ 1 := (fun x v => Host.reduce IntOp.andi x v reducesTo_S128_S_d0 h_S_) main_v186 main_c_73
  fn_part11 (F := F) main_arg2 main_arg39 main_arg40 main_v183 main_v187

def fn_part9 {F : FTy → Type} [FloatOps F] (main_arg2 : IVec S2x600000 32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v153 : IVec S_ 1) : IVec S_ 1 :=
  let main_v154 : FVec F S1 .f32 := Host.absf main_arg32
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  let main_v159 : FVec F S256x128 .f32 := Host.absf main_arg33
  let main_cst_62 : FVec F S_ .f32 := constant S_ .f32 0x7F800000#32
  let main_v160 : FVec F S256x128 .f32 := broadcastInDim S256x128 ![] bcast_S_S256x128 main_cst_62
  let main_v161 : IVec S256x128 1 := cmpf .olt main_v159 main_v160
  let main_c_63 : IVec S_ 1 := constantI S_ 1 1#1
  let main_v162 : IVec S_ 1 := (fun x v => Host.reduce IntOp.andi x v reducesTo_S256x128_S_d0_1 h_S_) main_v161 main_c_63
  let main_v163 : IVec S_ 1 := andi main_v158 main_v162
  let main_v164 : FVec F S128 .f32 := Host.absf main_arg34
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S128x128 .f32 := Host.absf main_arg35
  let main_cst_66 : FVec F S_ .f32 := constant S_ .f32 0x7F800000#32
  let main_v170 : FVec F S128x128 .f32 := broadcastInDim S128x128 ![] bcast_S_S128x128 main_cst_66
  fn_part10 (F := F) main_arg2 main_arg36 main_arg37 main_arg38 main_arg39 main_arg40 main_v168 main_v169 main_v170

def fn_part8 {F : FTy → Type} [FloatOps F] (main_arg2 : IVec S2x600000 32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S1 .f32 := Host.absf main_arg29
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  let main_v144 : FVec F S128x128 .f32 := Host.absf main_arg30
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg31
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg2 main_arg32 main_arg33 main_arg34 main_arg35 main_arg36 main_arg37 main_arg38 main_arg39 main_arg40 main_v153

def fn_part7 {F : FTy → Type} [FloatOps F] (main_arg2 : IVec S2x600000 32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg27
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg28
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg2 main_arg29 main_arg30 main_arg31 main_arg32 main_arg33 main_arg34 main_arg35 main_arg36 main_arg37 main_arg38 main_arg39 main_arg40 main_v133 main_v136

def fn_part6 {F : FTy → Type} [FloatOps F] (main_arg2 : IVec S2x600000 32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S256x128 .f32 := Host.absf main_arg22
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg25
  fn_part7 (F := F) main_arg2 main_arg26 main_arg27 main_arg28 main_arg29 main_arg30 main_arg31 main_arg32 main_arg33 main_arg34 main_arg35 main_arg36 main_arg37 main_arg38 main_arg39 main_arg40 main_v118 main_v119

def fn_part5 {F : FTy → Type} [FloatOps F] (main_arg2 : IVec S2x600000 32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg2 main_arg22 main_arg23 main_arg24 main_arg25 main_arg26 main_arg27 main_arg28 main_arg29 main_arg30 main_arg31 main_arg32 main_arg33 main_arg34 main_arg35 main_arg36 main_arg37 main_arg38 main_arg39 main_arg40 main_v98 main_v101 main_c_39

def fn_part4 {F : FTy → Type} [FloatOps F] (main_arg2 : IVec S2x600000 32) (main_arg15 : FVec F S128x128 .f32) (main_arg16 : FVec F S128 .f32) (main_arg17 : FVec F S128x128 .f32) (main_arg18 : FVec F S1 .f32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v83 main_v84 main_cst_32

def fn_part3 {F : FTy → Type} [FloatOps F] (main_arg2 : IVec S2x600000 32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S1 .f32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v48 : IVec S_ 1) (main_v49 : FVec F S69x128 .f32) (main_v50 : FVec F S69x128 .f32) : IVec S_ 1 :=
  let main_v51 : IVec S69x128 1 := cmpf .olt main_v49 main_v50
  let main_c_19 : IVec S_ 1 := constantI S_ 1 1#1
  let main_v52 : IVec S_ 1 := (fun x v => Host.reduce IntOp.andi x v reducesTo_S69x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v63 main_v67

def fn_part2 {F : FTy → Type} [FloatOps F] (main_arg2 : IVec S2x600000 32) (main_arg8 : FVec F S128 .f32) (main_arg9 : FVec F S69 .f32) (main_arg10 : FVec F S69 .f32) (main_arg11 : FVec F S69x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S1 .f32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S69 .f32 := Host.absf main_arg9
  let main_cst_14 : FVec F S_ .f32 := constant S_ .f32 0x7F800000#32
  let main_v40 : FVec F S69 .f32 := broadcastInDim S69 ![] bcast_S_S69 main_cst_14
  let main_v41 : IVec S69 1 := cmpf .olt main_v39 main_v40
  let main_c_15 : IVec S_ 1 := constantI S_ 1 1#1
  let main_v42 : IVec S_ 1 := (fun x v => Host.reduce IntOp.andi x v reducesTo_S69_S_d0 h_S_) main_v41 main_c_15
  let main_v43 : IVec S_ 1 := andi main_v38 main_v42
  let main_v44 : FVec F S69 .f32 := Host.absf main_arg10
  let main_cst_16 : FVec F S_ .f32 := constant S_ .f32 0x7F800000#32
  let main_v45 : FVec F S69 .f32 := broadcastInDim S69 ![] bcast_S_S69 main_cst_16
  let main_v46 : IVec S69 1 := cmpf .olt main_v44 main_v45
  let main_c_17 : IVec S_ 1 := constantI S_ 1 1#1
  let main_v47 : IVec S_ 1 := (fun x v => Host.reduce IntOp.andi x v reducesTo_S69_S_d0 h_S_) main_v46 main_c_17
  let main_v48 : IVec S_ 1 := andi main_v43 main_v47
  let main_v49 : FVec F S69x128 .f32 := Host.absf main_arg11
  let main_cst_18 : FVec F S_ .f32 := constant S_ .f32 0x7F800000#32
  let main_v50 : FVec F S69x128 .f32 := broadcastInDim S69x128 ![] bcast_S_S69x128 main_cst_18
  fn_part3 (F := F) main_arg2 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v48 main_v49 main_v50

def fn_part1 {F : FTy → Type} [FloatOps F] (main_arg2 : IVec S2x600000 32) (main_arg5 : FVec F S69x128 .f32) (main_arg6 : FVec F S128 .f32) (main_arg7 : FVec F S128x128 .f32) (main_arg8 : FVec F S128 .f32) (main_arg9 : FVec F S69 .f32) (main_arg10 : FVec F S69 .f32) (main_arg11 : FVec F S69x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S1 .f32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) (main_v13 : IVec S_ 1) (main_v16 : IVec S69 1) : IVec S_ 1 :=
  let main_c_5 : IVec S_ 1 := constantI S_ 1 1#1
  let main_v17 : IVec S_ 1 := (fun x v => Host.reduce IntOp.andi x v reducesTo_S69_S_d0 h_S_) main_v16 main_c_5
  let main_v18 : IVec S_ 1 := andi main_v13 main_v17
  let main_v19 : FVec F S69x128 .f32 := Host.absf main_arg5
  let main_cst_6 : FVec F S_ .f32 := constant S_ .f32 0x7F800000#32
  let main_v20 : FVec F S69x128 .f32 := broadcastInDim S69x128 ![] bcast_S_S69x128 main_cst_6
  let main_v21 : IVec S69x128 1 := cmpf .olt main_v19 main_v20
  let main_c_7 : IVec S_ 1 := constantI S_ 1 1#1
  let main_v22 : IVec S_ 1 := (fun x v => Host.reduce IntOp.andi x v reducesTo_S69x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v33

def fn {F : FTy → Type} [FloatOps F] (main_arg0 : FVec F S50000x69 .f32) (main_arg1 : FVec F S100000x69 .f32) (main_arg2 : IVec S2x600000 32) (main_arg3 : FVec F S69 .f32) (main_arg4 : FVec F S69 .f32) (main_arg5 : FVec F S69x128 .f32) (main_arg6 : FVec F S128 .f32) (main_arg7 : FVec F S128x128 .f32) (main_arg8 : FVec F S128 .f32) (main_arg9 : FVec F S69 .f32) (main_arg10 : FVec F S69 .f32) (main_arg11 : FVec F S69x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S1 .f32) (main_arg19 : FVec F S128x128 .f32) (main_arg20 : FVec F S128 .f32) (main_arg21 : FVec F S1 .f32) (main_arg22 : FVec F S256x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S1 .f32) (main_arg30 : FVec F S128x128 .f32) (main_arg31 : FVec F S128 .f32) (main_arg32 : FVec F S1 .f32) (main_arg33 : FVec F S256x128 .f32) (main_arg34 : FVec F S128 .f32) (main_arg35 : FVec F S128x128 .f32) (main_arg36 : FVec F S128 .f32) (main_arg37 : FVec F S128x128 .f32) (main_arg38 : FVec F S128 .f32) (main_arg39 : FVec F S128x2 .f32) (main_arg40 : FVec F S2 .f32) : IVec S_ 1 :=
  let main_v0 : FVec F S50000x69 .f32 := Host.absf main_arg0
  let main_cst : FVec F S_ .f32 := constant S_ .f32 0x7F800000#32
  let main_v1 : FVec F S50000x69 .f32 := broadcastInDim S50000x69 ![] bcast_S_S50000x69 main_cst
  let main_v2 : IVec S50000x69 1 := cmpf .olt main_v0 main_v1
  let main_c : IVec S_ 1 := constantI S_ 1 1#1
  let main_v3 : IVec S_ 1 := (fun x v => Host.reduce IntOp.andi x v reducesTo_S50000x69_S_d0_1 h_S_) main_v2 main_c
  let main_v4 : FVec F S100000x69 .f32 := Host.absf main_arg1
  let main_cst_0 : FVec F S_ .f32 := constant S_ .f32 0x7F800000#32
  let main_v5 : FVec F S100000x69 .f32 := broadcastInDim S100000x69 ![] bcast_S_S100000x69 main_cst_0
  let main_v6 : IVec S100000x69 1 := cmpf .olt main_v4 main_v5
  let main_c_1 : IVec S_ 1 := constantI S_ 1 1#1
  let main_v7 : IVec S_ 1 := (fun x v => Host.reduce IntOp.andi x v reducesTo_S100000x69_S_d0_1 h_S_) main_v6 main_c_1
  let main_v8 : IVec S_ 1 := andi main_v3 main_v7
  let main_v9 : FVec F S69 .f32 := Host.absf main_arg3
  let main_cst_2 : FVec F S_ .f32 := constant S_ .f32 0x7F800000#32
  let main_v10 : FVec F S69 .f32 := broadcastInDim S69 ![] bcast_S_S69 main_cst_2
  let main_v11 : IVec S69 1 := cmpf .olt main_v9 main_v10
  let main_c_3 : IVec S_ 1 := constantI S_ 1 1#1
  let main_v12 : IVec S_ 1 := (fun x v => Host.reduce IntOp.andi x v reducesTo_S69_S_d0 h_S_) main_v11 main_c_3
  let main_v13 : IVec S_ 1 := andi main_v8 main_v12
  let main_v14 : FVec F S69 .f32 := Host.absf main_arg4
  let main_cst_4 : FVec F S_ .f32 := constant S_ .f32 0x7F800000#32
  let main_v15 : FVec F S69 .f32 := broadcastInDim S69 ![] bcast_S_S69 main_cst_4
  let main_v16 : IVec S69 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_arg40 main_v13 main_v16
-- ==== Kernel.lean ====
abbrev S50000x69 : Shape := ⟨2, ![50000, 69]⟩
abbrev S100000x69 : Shape := ⟨2, ![100000, 69]⟩
abbrev S2x600000 : Shape := ⟨2, ![2, 600000]⟩
abbrev S69 : Shape := ⟨1, ![69]⟩
abbrev S69x128 : Shape := ⟨2, ![69, 128]⟩
abbrev S128 : Shape := ⟨1, ![128]⟩
abbrev S128x128 : Shape := ⟨2, ![128, 128]⟩
abbrev S1 : Shape := ⟨1, ![1]⟩
abbrev S256x128 : Shape := ⟨2, ![256, 128]⟩
abbrev S128x2 : Shape := ⟨2, ![128, 2]⟩
abbrev S2 : Shape := ⟨1, ![2]⟩
abbrev S1x69 : Shape := ⟨2, ![1, 69]⟩
abbrev S1x128 : Shape := ⟨2, ![1, 128]⟩
abbrev S50000x128 : Shape := ⟨2, ![50000, 128]⟩
abbrev S5000x69 : Shape := ⟨2, ![5000, 69]⟩
abbrev S5000x128 : Shape := ⟨2, ![5000, 128]⟩
abbrev S100000x128 : Shape := ⟨2, ![100000, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x1 : Shape := ⟨2, ![1, 1]⟩
abbrev S600000x128 : Shape := ⟨2, ![600000, 128]⟩
abbrev S100000x1 : Shape := ⟨2, ![100000, 1]⟩
abbrev S5000x256 : Shape := ⟨2, ![5000, 256]⟩
abbrev S50000x1 : Shape := ⟨2, ![50000, 1]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 196
  | .vmem => 74
  | .smem => 0
  | _ => 0

abbrev hbmTy0_0 (i : Nat) : BufTy := match i % 128 with
  | 0 => ⟨S50000x69, .f32⟩
  | 1 => ⟨S100000x69, .f32⟩
  | 2 => ⟨S2x600000, .i32⟩
  | 3 => ⟨S69, .f32⟩
  | 4 => ⟨S69, .f32⟩
  | 5 => ⟨S69x128, .f32⟩
  | 6 => ⟨S128, .f32⟩
  | 7 => ⟨S128x128, .f32⟩
  | 8 => ⟨S128, .f32⟩
  | 9 => ⟨S69, .f32⟩
  | 10 => ⟨S69, .f32⟩
  | 11 => ⟨S69x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S1, .f32⟩
  | 19 => ⟨S128x128, .f32⟩
  | 20 => ⟨S128, .f32⟩
  | 21 => ⟨S1, .f32⟩
  | 22 => ⟨S256x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S1, .f32⟩
  | 30 => ⟨S128x128, .f32⟩
  | 31 => ⟨S128, .f32⟩
  | 32 => ⟨S1, .f32⟩
  | 33 => ⟨S256x128, .f32⟩
  | 34 => ⟨S128, .f32⟩
  | 35 => ⟨S128x128, .f32⟩
  | 36 => ⟨S128, .f32⟩
  | 37 => ⟨S128x128, .f32⟩
  | 38 => ⟨S128, .f32⟩
  | 39 => ⟨S128x2, .f32⟩
  | 40 => ⟨S2, .f32⟩
  | 41 => ⟨S1x69, .f32⟩
  | 42 => ⟨S1x69, .f32⟩
  | 43 => ⟨S1x128, .f32⟩
  | 44 => ⟨S1x128, .f32⟩
  | 45 => ⟨S50000x128, .f32⟩
  | 46 => ⟨S1x69, .f32⟩
  | 47 => ⟨S1x69, .f32⟩
  | 48 => ⟨S1x128, .f32⟩
  | 49 => ⟨S1x128, .f32⟩
  | 50 => ⟨S100000x128, .f32⟩
  | 51 => ⟨S1x600000, .i32⟩
  | 52 => ⟨S600000, .i32⟩
  | 53 => ⟨S1x600000, .i32⟩
  | 54 => ⟨S600000, .i32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S1, .i32⟩
  | 64 => ⟨S_, .i32⟩
  | 65 => ⟨S600000x1, .i32⟩
  | 66 => ⟨S600000x1, .i1⟩
  | 67 => ⟨S1x1, .i32⟩
  | 68 => ⟨S600000x1, .i32⟩
  | 69 => ⟨S600000x1, .i1⟩
  | 70 => ⟨S600000x1, .i1⟩
  | 71 => ⟨S_, .i1⟩
  | 72 => ⟨S600000, .i1⟩
  | 73 => ⟨S600000x128, .f32⟩
  | 74 => ⟨S600000x128, .i1⟩
  | 75 => ⟨S_, .f32⟩
  | 76 => ⟨S600000x128, .f32⟩
  | 77 => ⟨S600000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S1, .i32⟩
  | 87 => ⟨S_, .i32⟩
  | 88 => ⟨S600000x1, .i32⟩
  | 89 => ⟨S600000x1, .i1⟩
  | 90 => ⟨S1x1, .i32⟩
  | 91 => ⟨S600000x1, .i32⟩
  | 92 => ⟨S600000x1, .i1⟩
  | 93 => ⟨S600000x1, .i1⟩
  | 94 => ⟨S_, .i1⟩
  | 95 => ⟨S600000, .i1⟩
  | 96 => ⟨S600000x128, .f32⟩
  | 97 => ⟨S600000x128, .i1⟩
  | 98 => ⟨S_, .f32⟩
  | 99 => ⟨S600000x128, .f32⟩
  | 100 => ⟨S600000x128, .f32⟩
  | 101 => ⟨S1x128, .f32⟩
  | 102 => ⟨S1x128, .f32⟩
  | 103 => ⟨S1x1, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S_, .f32⟩
  | 110 => ⟨S600000x1, .f32⟩
  | 111 => ⟨S_, .f32⟩
  | 112 => ⟨S100000x1, .f32⟩
  | 113 => ⟨S600000x1, .i32⟩
  | 114 => ⟨S100000x1, .f32⟩
  | 115 => ⟨S_, .f32⟩
  | 116 => ⟨S100000x1, .f32⟩
  | 117 => ⟨S100000x1, .f32⟩
  | 118 => ⟨S100000x128, .f32⟩
  | 119 => ⟨S100000x128, .f32⟩
  | 120 => ⟨S1x1, .f32⟩
  | 121 => ⟨S1x128, .f32⟩
  | 122 => ⟨S1x128, .f32⟩
  | 123 => ⟨S100000x128, .f32⟩
  | 124 => ⟨S_, .i32⟩
  | 125 => ⟨S600000, .i32⟩
  | 126 => ⟨S600000, .i1⟩
  | 127 => ⟨S_, .i32⟩
  | _ => ⟨S50000x69, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S1, .i32⟩
  | 5 => ⟨S_, .i32⟩
  | 6 => ⟨S600000x1, .i32⟩
  | 7 => ⟨S600000x1, .i1⟩
  | 8 => ⟨S1x1, .i32⟩
  | 9 => ⟨S600000x1, .i32⟩
  | 10 => ⟨S600000x1, .i1⟩
  | 11 => ⟨S600000x1, .i1⟩
  | 12 => ⟨S_, .i1⟩
  | 13 => ⟨S600000, .i1⟩
  | 14 => ⟨S600000x128, .f32⟩
  | 15 => ⟨S600000x128, .i1⟩
  | 16 => ⟨S_, .f32⟩
  | 17 => ⟨S600000x128, .f32⟩
  | 18 => ⟨S600000x128, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S1, .i32⟩
  | 28 => ⟨S_, .i32⟩
  | 29 => ⟨S600000x1, .i32⟩
  | 30 => ⟨S600000x1, .i1⟩
  | 31 => ⟨S1x1, .i32⟩
  | 32 => ⟨S600000x1, .i32⟩
  | 33 => ⟨S600000x1, .i1⟩
  | 34 => ⟨S600000x1, .i1⟩
  | 35 => ⟨S_, .i1⟩
  | 36 => ⟨S600000, .i1⟩
  | 37 => ⟨S600000x128, .f32⟩
  | 38 => ⟨S600000x128, .i1⟩
  | 39 => ⟨S_, .f32⟩
  | 40 => ⟨S600000x128, .f32⟩
  | 41 => ⟨S600000x128, .f32⟩
  | 42 => ⟨S1x128, .f32⟩
  | 43 => ⟨S1x128, .f32⟩
  | 44 => ⟨S1x1, .f32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S_, .f32⟩
  | 51 => ⟨S600000x1, .f32⟩
  | 52 => ⟨S_, .f32⟩
  | 53 => ⟨S50000x1, .f32⟩
  | 54 => ⟨S600000x1, .i32⟩
  | 55 => ⟨S50000x1, .f32⟩
  | 56 => ⟨S_, .f32⟩
  | 57 => ⟨S50000x1, .f32⟩
  | 58 => ⟨S50000x1, .f32⟩
  | 59 => ⟨S50000x128, .f32⟩
  | 60 => ⟨S50000x128, .f32⟩
  | 61 => ⟨S1x1, .f32⟩
  | 62 => ⟨S1x128, .f32⟩
  | 63 => ⟨S1x128, .f32⟩
  | 64 => ⟨S50000x128, .f32⟩
  | 65 => ⟨S1x128, .f32⟩
  | 66 => ⟨S1x2, .f32⟩
  | 67 => ⟨S50000x2, .f32⟩
  | _ => ⟨S50000x69, .f32⟩

abbrev hbmTy (i : Nat) : BufTy := match i / 128 with
  | 0 => hbmTy0_0 i
  | 1 => hbmTy0_1 i
  | _ => ⟨S50000x69, .f32⟩

abbrev bufTy : (tb : Table) → Fin (tcTables nBuf tb) → BufTy
  | .hbm, ⟨i, _⟩ => hbmTy i
  | .local _ .vmem, ⟨0, _⟩ => ⟨S5000x69, .f32⟩
  | .local _ .vmem, ⟨1, _⟩ => ⟨S5000x69, .f32⟩
  | .local _ .vmem, ⟨2, _⟩ => ⟨S1x69, .f32⟩
  | .local _ .vmem, ⟨3, _⟩ => ⟨S1x69, .f32⟩
  | .local _ .vmem, ⟨4, _⟩ => ⟨S69x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x69, .f32⟩
  | .local _ .vmem, ⟨11, _⟩ => ⟨S5000x69, .f32⟩
  | .local _ .vmem, ⟨12, _⟩ => ⟨S1x69, .f32⟩
  | .local _ .vmem, ⟨13, _⟩ => ⟨S1x69, .f32⟩
  | .local _ .vmem, ⟨14, _⟩ => ⟨S69x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x1, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x1, .f32⟩
  | .local _ .vmem, ⟨37, _⟩ => ⟨S256x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S1x128, .f32⟩
  | .local _ .vmem, ⟨49, _⟩ => ⟨S128x128, .f32⟩
  | .local _ .vmem, ⟨50, _⟩ => ⟨S1x1, .f32⟩
  | .local _ .vmem, ⟨51, _⟩ => ⟨S128x128, .f32⟩
  | .local _ .vmem, ⟨52, _⟩ => ⟨S1x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S1x1, .f32⟩
  | .local _ .vmem, ⟨60, _⟩ => ⟨S256x128, .f32⟩
  | .local _ .vmem, ⟨61, _⟩ => ⟨S1x128, .f32⟩
  | .local _ .vmem, ⟨62, _⟩ => ⟨S128x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S1x128, .f32⟩
  | .local _ .vmem, ⟨70, _⟩ => ⟨S128x2, .f32⟩
  | .local _ .vmem, ⟨71, _⟩ => ⟨S1x2, .f32⟩
  | .local _ .vmem, ⟨72, _⟩ => ⟨S5000x2, .f32⟩
  | .local _ .vmem, ⟨73, _⟩ => ⟨S5000x2, .f32⟩
  | _, _ => ⟨S50000x69, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_v14 : Ref sig .tc := ⟨.hbm, 74, rfl⟩
abbrev main_call0_cst : Ref sig .tc := ⟨.hbm, 75, rfl⟩
abbrev main_call0_v15 : Ref sig .tc := ⟨.hbm, 76, rfl⟩
abbrev main_v14 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_cst : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_cst_0 : Ref sig .tc := ⟨.hbm, 109, rfl⟩
abbrev main_v23 : Ref sig .tc := ⟨.hbm, 110, rfl⟩
abbrev main_cst_1 : Ref sig .tc := ⟨.hbm, 111, rfl⟩
abbrev main_v24 : Ref sig .tc := ⟨.hbm, 112, rfl⟩
abbrev main_v25 : Ref sig .tc := ⟨.hbm, 113, rfl⟩
abbrev main_v26 : Ref sig .tc := ⟨.hbm, 114, rfl⟩
abbrev main_cst_2 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v35 : Ref sig .tc := ⟨.hbm, 146, rfl⟩
abbrev main_call3_c : Ref sig .tc := ⟨.hbm, 147, rfl⟩
abbrev main_call3_v0 : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_c_1 : Ref sig .tc := ⟨.hbm, 155, rfl⟩
abbrev main_call3_c_2 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_c_3 : Ref sig .tc := ⟨.hbm, 163, rfl⟩
abbrev main_call3_v12 : Ref sig .tc := ⟨.hbm, 164, rfl⟩
abbrev main_call3_v13 : Ref sig .tc := ⟨.hbm, 165, rfl⟩
abbrev main_call3_v14 : Ref sig .tc := ⟨.hbm, 166, rfl⟩
abbrev main_call3_cst : Ref sig .tc := ⟨.hbm, 167, rfl⟩
abbrev main_call3_v15 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_v40 : Ref sig .tc := ⟨.hbm, 173, rfl⟩
abbrev main_cst_3 : Ref sig .tc := ⟨.hbm, 174, rfl⟩
abbrev main_v41 : Ref sig .tc := ⟨.hbm, 175, rfl⟩
abbrev main_v42 : Ref sig .tc := ⟨.hbm, 176, rfl⟩
abbrev main_v43 : Ref sig .tc := ⟨.hbm, 177, rfl⟩
abbrev main_cst_4 : Ref sig .tc := ⟨.hbm, 178, rfl⟩
abbrev main_v44 : Ref sig .tc := ⟨.hbm, 179, rfl⟩
abbrev main_cst_5 : Ref sig .tc := ⟨.hbm, 180, rfl⟩
abbrev main_v45 : Ref sig .tc := ⟨.hbm, 181, rfl⟩
abbrev main_v46 : Ref sig .tc := ⟨.hbm, 182, rfl⟩
abbrev main_v47 : Ref sig .tc := ⟨.hbm, 183, rfl⟩
abbrev main_cst_6 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_v54 : Ref sig .tc := ⟨.hbm, 191, rfl⟩
abbrev main_v55 : Ref sig .tc := ⟨.hbm, 192, rfl⟩
abbrev main_v56 : Ref sig .tc := ⟨.hbm, 193, rfl⟩
abbrev main_v57 : Ref sig .tc := ⟨.hbm, 194, rfl⟩
abbrev main_v58 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg7_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg8_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg5_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem7_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem8_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem5_1 : DmaSem sig := 73

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x69 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x69 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x69 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S69x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x69 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x69 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x69 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S69x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![120], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![120], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x2 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  shapeCasts_S69_S1x69 : S69.ShapeCasts S1x69
  shapeCasts_S128_S1x128 : S128.ShapeCasts S1x128
  inb_S5000x69_S5000x69_0_0 : ∀ a, (![0, 0] : Fin 2 → Nat) a + S5000x69.size a ≤ S5000x69.size a
  h_S5000x69 : 0 < S5000x69.numel
  inb_S1x69_S1x69_0_0 : ∀ a, (![0, 0] : Fin 2 → Nat) a + S1x69.size a ≤ S1x69.size a
  h_S1x69 : 0 < S1x69.numel
  shapeCasts_S1x69_S1x69 : S1x69.ShapeCasts S1x69
  broadcasts_S1x69_S5000x69 : S1x69.Broadcasts S5000x69
  bitsLt_bf16_f32 : FTy.bits .bf16 < FTy.bits .f32
  inb_S69x128_S69x128_0_0 : ∀ a, (![0, 0] : Fin 2 → Nat) a + S69x128.size a ≤ S69x128.size a
  h_S69x128 : 0 < S69x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  shapeCasts_S1_S1x1 : S1.ShapeCasts S1x1
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x69_S69x128_S5000x128_1_0_0_1_n_n_wf : DotDims.WF S5000x69 S69x128 S5000x128 [1] [0] [0] [1] [] []
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S5000x256_S256x128_S5000x128_1_0_0_1_n_n_wf : DotDims.WF S5000x256 S256x128 S5000x128 [1] [0] [0] [1] [] []
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x69.size a ≤ S50000x69.size a
  hwx0_0 : ∀ i : grid0.Coords, EltTy.bits .f32 = 32 ∨ (Rect.block (s := S50000x69) S5000x69.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x69.size a ≤ S1x69.size a
  hwx0_1 : ∀ i : grid0.Coords, EltTy.bits .f32 = 32 ∨ (Rect.block (s := S1x69) S1x69.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x69.size a ≤ S1x69.size a
  hwx0_2 : ∀ i : grid0.Coords, EltTy.bits .f32 = 32 ∨ (Rect.block (s := S1x69) S1x69.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S69x128.size a ≤ S69x128.size a
  hwx0_3 : ∀ i : grid0.Coords, EltTy.bits .f32 = 32 ∨ (Rect.block (s := S69x128) S69x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x69.size a ≤ S100000x69.size a
  hwx1_0 : ∀ i : grid1.Coords, EltTy.bits .f32 = 32 ∨ (Rect.block (s := S100000x69) S5000x69.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x69.size a ≤ S1x69.size a
  hwx1_1 : ∀ i : grid1.Coords, EltTy.bits .f32 = 32 ∨ (Rect.block (s := S1x69) S1x69.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x69.size a ≤ S1x69.size a
  hwx1_2 : ∀ i : grid1.Coords, EltTy.bits .f32 = 32 ∨ (Rect.block (s := S1x69) S1x69.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S69x128.size a ≤ S69x128.size a
  hwx1_3 : ∀ i : grid1.Coords, EltTy.bits .f32 = 32 ∨ (Rect.block (s := S69x128) S69x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S600000x128.size a
  hwx2_0 : ∀ i : grid2.Coords, EltTy.bits .f32 = 32 ∨ (Rect.block (s := S600000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S600000x128.size a
  hwx2_1 : ∀ i : grid2.Coords, EltTy.bits .f32 = 32 ∨ (Rect.block (s := S600000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S600000x128.size a
  hwx2_8 : ∀ i : grid2.Coords, EltTy.bits .f32 = 32 ∨ (Rect.block (s := S600000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .f32 = 32 ∨ (Rect.block (s := S256x128) S256x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S600000x128.size a
  hwx4_0 : ∀ i : grid4.Coords, EltTy.bits .f32 = 32 ∨ (Rect.block (s := S600000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S600000x128.size a
  hwx4_1 : ∀ i : grid4.Coords, EltTy.bits .f32 = 32 ∨ (Rect.block (s := S600000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S600000x128.size a
  hwx4_8 : ∀ i : grid4.Coords, EltTy.bits .f32 = 32 ∨ (Rect.block (s := S600000x128) S5000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .f32 = 32 ∨ (Rect.block (s := S256x128) S256x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x2.size a ≤ S128x2.size a
  hwx6_3 : ∀ i : grid6.Coords, EltTy.bits .f32 = 32 ∨ (Rect.block (s := S128x2) S128x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x2.size a ≤ S50000x2.size a
  hwx6_5 : ∀ i : grid6.Coords, EltTy.bits .f32 = 32 ∨ (Rect.block (s := S50000x2) S5000x2.size (cc6_transform_5 i) (hinb6_5 i)).WholeWords (EltTy.packing .f32)

variable [Facts₀]

def dot_S5000x69_S69x128_S5000x128_1_0_0_1_n_n : DotDims S5000x69 S69x128 S5000x128 where
  lhsContracting := [1]
  rhsContracting := [0]
  lhsNonContracting := [0]
  rhsNonContracting := [1]
  lhsBatch := []
  rhsBatch := []
  wf := dot_S5000x69_S69x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x69.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x69.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x69.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S69x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S5000x69.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x69.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x69.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S69x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v17) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v19) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v30) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg24) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v34) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v35) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg26) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg28) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v39) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg30) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v38) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v40) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v51) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg33) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v53) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg35) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v54) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v55) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v55) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg37) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v56) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg39) S128x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v57) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v58) S5000x2.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x69 : Shape := ⟨2, ![50000, 69]⟩
abbrev S100000x69 : Shape := ⟨2, ![100000, 69]⟩
abbrev S2x600000 : Shape := ⟨2, ![2, 600000]⟩
abbrev S69 : Shape := ⟨1, ![69]⟩
abbrev S69x128 : Shape := ⟨2, ![69, 128]⟩
abbrev S128 : Shape := ⟨1, ![128]⟩
abbrev S128x128 : Shape := ⟨2, ![128, 128]⟩
abbrev S1 : Shape := ⟨1, ![1]⟩
abbrev S256x128 : Shape := ⟨2, ![256, 128]⟩
abbrev S128x2 : Shape := ⟨2, ![128, 2]⟩
abbrev S2 : Shape := ⟨1, ![2]⟩
abbrev S1x69 : Shape := ⟨2, ![1, 69]⟩
abbrev S50000x128 : Shape := ⟨2, ![50000, 128]⟩
abbrev S1x128 : Shape := ⟨2, ![1, 128]⟩
abbrev S_ : Shape := ⟨0, ![]⟩
abbrev S100000x128 : Shape := ⟨2, ![100000, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x1 : Shape := ⟨2, ![1, 1]⟩
abbrev S100000x1 : Shape := ⟨2, ![100000, 1]⟩
abbrev S100000x256 : Shape := ⟨2, ![100000, 256]⟩
abbrev S50000x1 : Shape := ⟨2, ![50000, 1]⟩
abbrev S50000x256 : Shape := ⟨2, ![50000, 256]⟩
abbrev S50000x2 : Shape := ⟨2, ![50000, 2]⟩
abbrev S1x2 : Shape := ⟨2, ![1, 2]⟩

abbrev nBuf : Space → Nat
  | .hbm => 232
  | .vmem => 0
  | .smem => 0
  | _ => 0

abbrev hbmTy0_0 (i : Nat) : BufTy := match i % 128 with
  | 0 => ⟨S50000x69, .f32⟩
  | 1 => ⟨S100000x69, .f32⟩
  | 2 => ⟨S2x600000, .i32⟩
  | 3 => ⟨S69, .f32⟩
  | 4 => ⟨S69, .f32⟩
  | 5 => ⟨S69x128, .f32⟩
  | 6 => ⟨S128, .f32⟩
  | 7 => ⟨S128x128, .f32⟩
  | 8 => ⟨S128, .f32⟩
  | 9 => ⟨S69, .f32⟩
  | 10 => ⟨S69, .f32⟩
  | 11 => ⟨S69x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S1, .f32⟩
  | 19 => ⟨S128x128, .f32⟩
  | 20 => ⟨S128, .f32⟩
  | 21 => ⟨S1, .f32⟩
  | 22 => ⟨S256x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S1, .f32⟩
  | 30 => ⟨S128x128, .f32⟩
  | 31 => ⟨S128, .f32⟩
  | 32 => ⟨S1, .f32⟩
  | 33 => ⟨S256x128, .f32⟩
  | 34 => ⟨S128, .f32⟩
  | 35 => ⟨S128x128, .f32⟩
  | 36 => ⟨S128, .f32⟩
  | 37 => ⟨S128x128, .f32⟩
  | 38 => ⟨S128, .f32⟩
  | 39 => ⟨S128x2, .f32⟩
  | 40 => ⟨S2, .f32⟩
  | 41 => ⟨S1x69, .f32⟩
  | 42 => ⟨S50000x69, .f32⟩
  | 43 => ⟨S50000x69, .f32⟩
  | 44 => ⟨S1x69, .f32⟩
  | 45 => ⟨S50000x69, .f32⟩
  | 46 => ⟨S50000x69, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x69, .f32⟩
  | 62 => ⟨S100000x69, .f32⟩
  | 63 => ⟨S100000x69, .f32⟩
  | 64 => ⟨S1x69, .f32⟩
  | 65 => ⟨S100000x69, .f32⟩
  | 66 => ⟨S100000x69, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S1x600000, .i32⟩
  | 82 => ⟨S600000, .i32⟩
  | 83 => ⟨S1x600000, .i32⟩
  | 84 => ⟨S600000, .i32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S600000x128, .f32⟩
  | 95 => ⟨S1x128, .f32⟩
  | 96 => ⟨S600000x128, .f32⟩
  | 97 => ⟨S600000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x128, .f32⟩
  | 108 => ⟨S600000x128, .f32⟩
  | 109 => ⟨S1x1, .f32⟩
  | 110 => ⟨S600000x128, .f32⟩
  | 111 => ⟨S600000x128, .f32⟩
  | 112 => ⟨S_, .f32⟩
  | 113 => ⟨S600000x128, .f32⟩
  | 114 => ⟨S600000x128, .f32⟩
  | 115 => ⟨S600000x128, .f32⟩
  | 116 => ⟨S1x128, .f32⟩
  | 117 => ⟨S600000x128, .f32⟩
  | 118 => ⟨S600000x128, .f32⟩
  | 119 => ⟨S_, .f32⟩
  | 120 => ⟨S100000x128, .f32⟩
  | 121 => ⟨S600000x1, .i32⟩
  | 122 => ⟨S100000x128, .f32⟩
  | 123 => ⟨S_, .f32⟩
  | 124 => ⟨S600000x1, .f32⟩
  | 125 => ⟨S_, .f32⟩
  | 126 => ⟨S100000x1, .f32⟩
  | 127 => ⟨S600000x1, .i32⟩
  | _ => ⟨S50000x69, .f32⟩

abbrev hbmTy0_1 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x128, .f32⟩
  | 5 => ⟨S100000x128, .f32⟩
  | 6 => ⟨S1x1, .f32⟩
  | 7 => ⟨S100000x128, .f32⟩
  | 8 => ⟨S100000x128, .f32⟩
  | 9 => ⟨S100000x256, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S600000x128, .f32⟩
  | 31 => ⟨S1x128, .f32⟩
  | 32 => ⟨S600000x128, .f32⟩
  | 33 => ⟨S600000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S600000x128, .f32⟩
  | 44 => ⟨S600000x128, .f32⟩
  | 45 => ⟨S1x1, .f32⟩
  | 46 => ⟨S600000x128, .f32⟩
  | 47 => ⟨S600000x128, .f32⟩
  | 48 => ⟨S_, .f32⟩
  | 49 => ⟨S600000x128, .f32⟩
  | 50 => ⟨S600000x128, .f32⟩
  | 51 => ⟨S600000x128, .f32⟩
  | 52 => ⟨S1x128, .f32⟩
  | 53 => ⟨S600000x128, .f32⟩
  | 54 => ⟨S600000x128, .f32⟩
  | 55 => ⟨S_, .f32⟩
  | 56 => ⟨S50000x128, .f32⟩
  | 57 => ⟨S600000x1, .i32⟩
  | 58 => ⟨S50000x128, .f32⟩
  | 59 => ⟨S_, .f32⟩
  | 60 => ⟨S600000x1, .f32⟩
  | 61 => ⟨S_, .f32⟩
  | 62 => ⟨S50000x1, .f32⟩
  | 63 => ⟨S600000x1, .i32⟩
  | 64 => ⟨S50000x1, .f32⟩
  | 65 => ⟨S_, .f32⟩
  | 66 => ⟨S50000x1, .f32⟩
  | 67 => ⟨S50000x1, .f32⟩
  | 68 => ⟨S50000x128, .f32⟩
  | 69 => ⟨S50000x128, .f32⟩
  | 70 => ⟨S1x1, .f32⟩
  | 71 => ⟨S50000x128, .f32⟩
  | 72 => ⟨S50000x128, .f32⟩
  | 73 => ⟨S50000x256, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x2, .f32⟩
  | 93 => ⟨S1x2, .f32⟩
  | 94 => ⟨S50000x2, .f32⟩
  | 95 => ⟨S50000x2, .f32⟩
  | 96 => ⟨S50000x2, .f32⟩
  | 97 => ⟨S50000x2, .f32⟩
  | 98 => ⟨S_, .f32⟩
  | 99 => ⟨S50000x2, .f32⟩
  | 100 => ⟨S50000x2, .f32⟩
  | 101 => ⟨S_, .f32⟩
  | 102 => ⟨S50000x2, .f32⟩
  | 103 => ⟨S50000x2, .f32⟩
  | _ => ⟨S50000x69, .f32⟩

abbrev hbmTy (i : Nat) : BufTy := match i / 128 with
  | 0 => hbmTy0_0 i
  | 1 => hbmTy0_1 i
  | _ => ⟨S50000x69, .f32⟩

abbrev bufTy : (tb : Table) → Fin (tcTables nBuf tb) → BufTy
  | .hbm, ⟨i, _⟩ => hbmTy i
  | _, _ => ⟨S50000x69, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_call0_cst : Ref sig .tc := ⟨.hbm, 51, rfl⟩
abbrev main_call0_v0 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_call1_cst : Ref sig .tc := ⟨.hbm, 58, rfl⟩
abbrev main_call1_v0 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_call2_cst : Ref sig .tc := ⟨.hbm, 71, rfl⟩
abbrev main_call2_v0 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_call3_cst : Ref sig .tc := ⟨.hbm, 78, rfl⟩
abbrev main_call3_v0 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_c : Ref sig .tc := ⟨.hbm, 85, rfl⟩
abbrev main_v36 : Ref sig .tc := ⟨.hbm, 86, rfl⟩
abbrev main_v37 : Ref sig .tc := ⟨.hbm, 87, rfl⟩
abbrev main_c_0 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_c_1 : Ref sig .tc := ⟨.hbm, 98, rfl⟩
abbrev main_v47 : Ref sig .tc := ⟨.hbm, 99, rfl⟩
abbrev main_v48 : Ref sig .tc := ⟨.hbm, 100, rfl⟩
abbrev main_c_2 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_call4_cst : Ref sig .tc := ⟨.hbm, 112, rfl⟩
abbrev main_call4_v0 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_cst : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_cst_3 : Ref sig .tc := ⟨.hbm, 123, rfl⟩
abbrev main_v67 : Ref sig .tc := ⟨.hbm, 124, rfl⟩
abbrev main_cst_4 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_cst_5 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_call5_cst : Ref sig .tc := ⟨.hbm, 142, rfl⟩
abbrev main_call5_v0 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_c_6 : Ref sig .tc := ⟨.hbm, 149, rfl⟩
abbrev main_v88 : Ref sig .tc := ⟨.hbm, 150, rfl⟩
abbrev main_v89 : Ref sig .tc := ⟨.hbm, 151, rfl⟩
abbrev main_c_7 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_c_8 : Ref sig .tc := ⟨.hbm, 162, rfl⟩
abbrev main_v99 : Ref sig .tc := ⟨.hbm, 163, rfl⟩
abbrev main_v100 : Ref sig .tc := ⟨.hbm, 164, rfl⟩
abbrev main_c_9 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_call6_cst : Ref sig .tc := ⟨.hbm, 176, rfl⟩
abbrev main_call6_v0 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_cst_10 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_11 : Ref sig .tc := ⟨.hbm, 187, rfl⟩
abbrev main_v119 : Ref sig .tc := ⟨.hbm, 188, rfl⟩
abbrev main_cst_12 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_cst_13 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_call7_cst : Ref sig .tc := ⟨.hbm, 206, rfl⟩
abbrev main_call7_v0 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_call8_cst : Ref sig .tc := ⟨.hbm, 217, rfl⟩
abbrev main_call8_v0 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_cst_14 : Ref sig .tc := ⟨.hbm, 226, rfl⟩
abbrev main_v151 : Ref sig .tc := ⟨.hbm, 227, rfl⟩
abbrev main_v152 : Ref sig .tc := ⟨.hbm, 228, rfl⟩
abbrev main_cst_15 : Ref sig .tc := ⟨.hbm, 229, rfl⟩
abbrev main_v153 : Ref sig .tc := ⟨.hbm, 230, rfl⟩
abbrev main_v154 : Ref sig .tc := ⟨.hbm, 231, rfl⟩

abbrev nD : Nat := 1
abbrev τ : Topo := Topo.v7x

variable {F : FTy → Type} [FloatOps F]

class Facts₀ : Prop where
  bcast_S69_S1x69_1 : S69.BroadcastsInDim S1x69 (![1] : Fin 1 → Fin S1x69.rank)
  bcast_S1x69_S50000x69_0_1 : S1x69.BroadcastsInDim S50000x69 (![0, 1] : Fin 2 → Fin S50000x69.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x69_S100000x69_0_1 : S1x69.BroadcastsInDim S100000x69 (![0, 1] : Fin 2 → Fin S100000x69.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S1_S1x1_1 : S1.BroadcastsInDim S1x1 (![1] : Fin 1 → Fin S1x1.rank)
  bcast_S1x1_S600000x128_0_1 : S1x1.BroadcastsInDim S600000x128 (![0, 1] : Fin 2 → Fin S600000x128.rank)
  bcast_S_S600000x128 : S_.BroadcastsInDim S600000x128 (![] : Fin 0 → Fin S600000x128.rank)
  bcast_S_S600000x1 : S_.BroadcastsInDim S600000x1 (![] : Fin 0 → Fin S600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S1x1_S100000x128_0_1 : S1x1.BroadcastsInDim S100000x128 (![0, 1] : Fin 2 → Fin S100000x128.rank)
  concatenates_S100000x128_S100000x128_S100000x256_d1 : Shape.Concatenates [S100000x128, S100000x128] S100000x256 1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x1_S50000x128_0_1 : S1x1.BroadcastsInDim S50000x128 (![0, 1] : Fin 2 → Fin S50000x128.rank)
  concatenates_S50000x128_S50000x128_S50000x256_d1 : Shape.Concatenates [S50000x128, S50000x128] S50000x256 1
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S50000x2 : S_.BroadcastsInDim S50000x2 (![] : Fin 0 → Fin S50000x2.rank)
  dot_S50000x69_S69x128_S50000x128_1_0_0_1_n_n_wf : DotDims.WF S50000x69 S69x128 S50000x128 [1] [0] [0] [1] [] []
  dot_S50000x128_S128x128_S50000x128_1_0_0_1_n_n_wf : DotDims.WF S50000x128 S128x128 S50000x128 [1] [0] [0] [1] [] []
  dot_S100000x69_S69x128_S100000x128_1_0_0_1_n_n_wf : DotDims.WF S100000x69 S69x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x256_S256x128_S100000x128_1_0_0_1_n_n_wf : DotDims.WF S100000x256 S256x128 S100000x128 [1] [0] [0] [1] [] []
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x256_S256x128_S50000x128_1_0_0_1_n_n_wf : DotDims.WF S50000x256 S256x128 S50000x128 [1] [0] [0] [1] [] []
  dot_S50000x128_S128x2_S50000x2_1_0_0_1_n_n_wf : DotDims.WF S50000x128 S128x2 S50000x2 [1] [0] [0] [1] [] []

variable [Facts₀]

def dot_S50000x69_S69x128_S50000x128_1_0_0_1_n_n : DotDims S50000x69 S69x128 S50000x128 where
  lhsContracting := [1]
  rhsContracting := [0]
  lhsNonContracting := [0]
  rhsNonContracting := [1]
  lhsBatch := []
  rhsBatch := []
  wf := dot_S50000x69_S69x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S100000x69_S69x128_S100000x128_1_0_0_1_n_n : DotDims S100000x69 S69x128 S100000x128 where
  lhsContracting := [1]
  rhsContracting := [0]
  lhsNonContracting := [0]
  rhsNonContracting := [1]
  lhsBatch := []
  rhsBatch := []
  wf := dot_S100000x69_S69x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# One output row of each layer of the network, over the extended reals

Every layer of the bipartite graph network acts on its big operand ROW BY ROW: an output row is a function of the
matching input row(s) and of the layer's weights. This file states those row functions once, with plain finite index
types, so that a kernel's block of rows and the reference's whole array can both be read against the same formula.

* `lin x w b` : the affine map `c ↦ (∑ k, x k * w k c) + b c` of a row `x`.
* `embedRow`  : shift, scale, affine, clamp at zero, affine, clamp at zero (the two embedding layers).
* `msgRow`    : the message of one edge from its two gathered rows: two affine maps added (one bias), a scalar
                  scale, clamp at zero, affine.
* `postRow`   : the update of one node: the scaled aggregate and the node's own row laid side by side (256 entries),
                  affine, clamp at zero, affine.
* `outRow`    : affine, clamp at zero, affine to two entries, logistic.
-/

noncomputable section

namespace Cert.Spec

open Idealize.ShloMosaic

/-- The affine map of a row: entry `c` is the row's inner product with column `c` of `w`, plus `b c`. -/
def lin {K C : Nat} (x : Fin K → EReal) (w : Fin K → Fin C → EReal) (b : Fin C → EReal) (c : Fin C) : EReal :=
  (∑ k : Fin K, x k * w k c) + b c

/-- An embedding layer on one feature row `x` of 69 entries: `max (lin (max (lin ((x + sh) * sc) w1 b1) 0) w2 b2) 0`. -/
def embedRow (x sh sc : Fin 69 → EReal) (w1 : Fin 69 → Fin 128 → EReal) (b1 : Fin 128 → EReal)
    (w2 : Fin 128 → Fin 128 → EReal) (b2 : Fin 128 → EReal) : Fin 128 → EReal :=
  fun c => max (lin (fun k => max (lin (fun f => (x f + sh f) * sc f) w1 b1 k) 0) w2 b2 c) 0

/-- One edge's message from the row `l` gathered on the sending side and the row `r` gathered on the receiving side:
    `lin (max (((r·wl + bl) + l·wr) * sf) 0) wf bf`. -/
def msgRow (l r : Fin 128 → EReal) (wl : Fin 128 → Fin 128 → EReal) (bl : Fin 128 → EReal)
    (wr : Fin 128 → Fin 128 → EReal) (sf : EReal) (wf : Fin 128 → Fin 128 → EReal) (bf : Fin 128 → EReal) :
    Fin 128 → EReal :=
  fun c => lin (fun k => max ((lin r wl bl k + ∑ j : Fin 128, l j * wr j k) * sf) 0) wf bf c

/-- The 256 entries the node update multiplies: the aggregate scaled by `sp`, then the node's own row. -/
def sideBySide (agg own : Fin 128 → EReal) (sp : EReal) : Fin 256 → EReal :=
  fun k => if h : k.val < 128 then agg ⟨k.val, h⟩ * sp else own ⟨k.val - 128, by have := k.isLt; omega⟩

/-- One node's update from its aggregated messages `agg` and its own row `own`:
    `lin (max (lin (agg * sp ‖ own) wo1 bo1) 0) wo2 bo2`. -/
def postRow (agg own : Fin 128 → EReal) (sp : EReal) (wo1 : Fin 256 → Fin 128 → EReal) (bo1 : Fin 128 → EReal)
    (wo2 : Fin 128 → Fin 128 → EReal) (bo2 : Fin 128 → EReal) : Fin 128 → EReal :=
  fun c => lin (fun k => max (lin (sideBySide agg own sp) wo1 bo1 k) 0) wo2 bo2 c

/-- The output head on one row: `logistic (lin (max (lin x w1 b1) 0) w2 b2)`, two entries. -/
def outRow (x : Fin 128 → EReal) (w1 : Fin 128 → Fin 128 → EReal) (b1 : Fin 128 → EReal)
    (w2 : Fin 128 → Fin 2 → EReal) (b2 : Fin 2 → EReal) : Fin 2 → EReal :=
  fun c => Ideal.logistic (lin (fun k => max (lin x w1 b1 k) 0) w2 b2 c)

end Cert.Spec

end
-- ==== Proof.Chain.lean ====
import proofs.«412352_j55765855371830_1_alg».proof.KernelIdeal
import proofs.«412352_j55765855371830_1_alg».proof.Proof.Gen.KernelIdeal
import proofs.«412352_j55765855371830_1_alg».proof.Proof.Spec
import Idealize.ShloMosaic.Lib.ValueIdx

/-!
# The whole network as one function of its 41 argument arrays

Both programs compute the same chain of arrays from the argument arrays `a0 … a40`:

* `pv0`, `ch0`  : the embedded node rows of the two sides (one `embedRow` per row);
* `src`, `dst`  : the two rows of the edge list; `wrap n idx` adds `n` to a negative index and lays the result as a
                    column of start indices, which is what a row gather reads (clamped into the table);
* `lg1`, `rg1`  : per edge, the sender's row of `pv0` and the receiver's row of `ch0`;
* `msg1`        : one `msgRow` per edge; `agg1` : the messages summed per receiver and divided by `max count 1`;
* `ch1`         : one `postRow` per receiving node, from its aggregate and its own row of `ch0`;
* the second round is the mirror image (`lg2` rows of `ch1` by `dst`, `rg2` rows of `pv0` by `src`, summed per `src`):
  `msg2`, `agg2`, `pv1`; and `out` is one `outRow` per row of `pv1`.

The gathers and the scatter-sums are kept as the host operations both programs apply (they are never opened); the layers
are the row functions of the specification. `IdxOk` says every edge names a row of each table.
-/

noncomputable section

namespace Cert.Chain

open Idealize.ShloMosaic Idealize.ShloMosaic.ValueIdx Cert.KernelIdeal Cert.KernelIdeal.Facts₀ Cert.KernelIdeal.Facts Cert.Spec

/-- The 41 argument arrays, by position. -/
structure Args where
  a0 : FVec Ideal S50000x69 .f32
  a1 : FVec Ideal S100000x69 .f32
  a2 : IVec S2x600000 32
  a3 : FVec Ideal S69 .f32
  a4 : FVec Ideal S69 .f32
  a5 : FVec Ideal S69x128 .f32
  a6 : FVec Ideal S128 .f32
  a7 : FVec Ideal S128x128 .f32
  a8 : FVec Ideal S128 .f32
  a9 : FVec Ideal S69 .f32
  a10 : FVec Ideal S69 .f32
  a11 : FVec Ideal S69x128 .f32
  a12 : FVec Ideal S128 .f32
  a13 : FVec Ideal S128x128 .f32
  a14 : FVec Ideal S128 .f32
  a15 : FVec Ideal S128x128 .f32
  a16 : FVec Ideal S128 .f32
  a17 : FVec Ideal S128x128 .f32
  a18 : FVec Ideal S1 .f32
  a19 : FVec Ideal S128x128 .f32
  a20 : FVec Ideal S128 .f32
  a21 : FVec Ideal S1 .f32
  a22 : FVec Ideal S256x128 .f32
  a23 : FVec Ideal S128 .f32
  a24 : FVec Ideal S128x128 .f32
  a25 : FVec Ideal S128 .f32
  a26 : FVec Ideal S128x128 .f32
  a27 : FVec Ideal S128 .f32
  a28 : FVec Ideal S128x128 .f32
  a29 : FVec Ideal S1 .f32
  a30 : FVec Ideal S128x128 .f32
  a31 : FVec Ideal S128 .f32
  a32 : FVec Ideal S1 .f32
  a33 : FVec Ideal S256x128 .f32
  a34 : FVec Ideal S128 .f32
  a35 : FVec Ideal S128x128 .f32
  a36 : FVec Ideal S128 .f32
  a37 : FVec Ideal S128x128 .f32
  a38 : FVec Ideal S128 .f32
  a39 : FVec Ideal S128x2 .f32
  a40 : FVec Ideal S2 .f32

/-- Row `i` of a two-axis array. -/
def row2 {n k : Nat} (x : (⟨2, ![n, k]⟩ : Shape).Idx → EReal) (i : Fin n) : Fin k → EReal := fun f => x (ix2 i f)
/-- A two-axis array as a function of its two coordinates. -/
def mat {n k : Nat} (x : (⟨2, ![n, k]⟩ : Shape).Idx → EReal) : Fin n → Fin k → EReal := fun p q => x (ix2 p q)
/-- A one-axis array as a function of its coordinate. -/
def vec1 {n : Nat} (x : (⟨1, ![n]⟩ : Shape).Idx → EReal) : Fin n → EReal := fun p => x (ix1 p)

variable (a : Args)

def pv0 : FVec Ideal S50000x128 .f32 := fun j =>
  embedRow (row2 a.a0 (j 0)) (vec1 a.a3) (vec1 a.a4) (mat a.a5) (vec1 a.a6) (mat a.a7) (vec1 a.a8) (j 1)
def ch0 : FVec Ideal S100000x128 .f32 := fun j =>
  embedRow (row2 a.a1 (j 0)) (vec1 a.a9) (vec1 a.a10) (mat a.a11) (vec1 a.a12) (mat a.a13) (vec1 a.a14) (j 1)

/-- The senders' row of the edge list, and the receivers'. -/
def src : IVec S600000 32 := shapeCast _ (extractStridedSlice S1x600000 ![0, 0] a.a2 slices_S2x600000_S1x600000_0_0) shapeCasts_S1x600000_S600000
def dst : IVec S600000 32 := shapeCast _ (extractStridedSlice S1x600000 ![1, 0] a.a2 slices_S2x600000_S1x600000_1_0) shapeCasts_S1x600000_S600000

/-- A negative index counted from the end (`idx + n`), every other index as it is; laid as a column. -/
def wrap (n : BitVec 32) (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 n))) idx)

def lg1 : FVec Ideal S600000x128 .f32 := Host.gather gather_S50000x128_S600000x1_S600000x128_1_0_n_n_0_1_1128 (pv0 a) (wrap 50000#32 (src a))
def rg1 : FVec Ideal S600000x128 .f32 := Host.gather gather_S100000x128_S600000x1_S600000x128_1_0_n_n_0_1_1128 (ch0 a) (wrap 100000#32 (dst a))
def msg1 : FVec Ideal S600000x128 .f32 := fun j =>
  msgRow (row2 (lg1 a) (j 0)) (row2 (rg1 a) (j 0)) (mat a.a15) (vec1 a.a16) (mat a.a17) (a.a18 (ix1 0)) (mat a.a19) (vec1 a.a20) (j 1)
def agg1 : FVec Ideal S100000x128 .f32 :=
  Host.divf
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 (dst a)) (msg1 a))
    (broadcastInDim S100000x128 ![0, 1] bcast_S100000x1_S100000x128_0_1
      (maximumf
        (Host.scatterAdd scatter_S100000x1_S600000x1_S600000x1_1_0_0_1
          (broadcastInDim S100000x1 ![] bcast_S_S100000x1 (constant S_ .f32 0x00000000#32))
          (broadcastInDim S600000x1 ![0] bcast_S600000_S600000x1_0 (dst a))
          (broadcastInDim S600000x1 ![] bcast_S_S600000x1 (constant S_ .f32 0x3F800000#32)))
        (broadcastInDim S100000x1 ![] bcast_S_S100000x1 (constant S_ .f32 0x3F800000#32))))
def ch1 : FVec Ideal S100000x128 .f32 := fun j =>
  postRow (row2 (agg1 a) (j 0)) (row2 (ch0 a) (j 0)) (a.a21 (ix1 0)) (mat a.a22) (vec1 a.a23) (mat a.a24) (vec1 a.a25) (j 1)

def lg2 : FVec Ideal S600000x128 .f32 := Host.gather gather_S100000x128_S600000x1_S600000x128_1_0_n_n_0_1_1128 (ch1 a) (wrap 100000#32 (dst a))
def rg2 : FVec Ideal S600000x128 .f32 := Host.gather gather_S50000x128_S600000x1_S600000x128_1_0_n_n_0_1_1128 (pv0 a) (wrap 50000#32 (src a))
def msg2 : FVec Ideal S600000x128 .f32 := fun j =>
  msgRow (row2 (lg2 a) (j 0)) (row2 (rg2 a) (j 0)) (mat a.a26) (vec1 a.a27) (mat a.a28) (a.a29 (ix1 0)) (mat a.a30) (vec1 a.a31) (j 1)
def agg2 : FVec Ideal S50000x128 .f32 :=
  Host.divf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 (src a)) (msg2 a))
    (broadcastInDim S50000x128 ![0, 1] bcast_S50000x1_S50000x128_0_1
      (maximumf
        (Host.scatterAdd scatter_S50000x1_S600000x1_S600000x1_1_0_0_1
          (broadcastInDim S50000x1 ![] bcast_S_S50000x1 (constant S_ .f32 0x00000000#32))
          (broadcastInDim S600000x1 ![0] bcast_S600000_S600000x1_0 (src a))
          (broadcastInDim S600000x1 ![] bcast_S_S600000x1 (constant S_ .f32 0x3F800000#32)))
        (broadcastInDim S50000x1 ![] bcast_S_S50000x1 (constant S_ .f32 0x3F800000#32))))
def pv1 : FVec Ideal S50000x128 .f32 := fun j =>
  postRow (row2 (agg2 a) (j 0)) (row2 (pv0 a) (j 0)) (a.a32 (ix1 0)) (mat a.a33) (vec1 a.a34) (mat a.a35) (vec1 a.a36) (j 1)
def out : FVec Ideal S50000x2 .f32 := fun j =>
  outRow (row2 (pv1 a) (j 0)) (mat a.a37) (vec1 a.a38) (mat a.a39) (vec1 a.a40) (j 1)

/-- Every edge's sender names a row of the 50000-row table and its receiver a row of the 100000-row table. -/
def IdxOk : Prop := ∀ e : S600000.Idx,
  (IntOp.cmpi .sge (src a e) 0#32 = 1#1 ∧ IntOp.cmpi .slt (src a e) 50000#32 = 1#1)
  ∧ (IntOp.cmpi .sge (dst a e) 0#32 = 1#1 ∧ IntOp.cmpi .slt (dst a e) 100000#32 = 1#1)

end Cert.Chain

end
-- ==== Proof.KArgs.lean ====
import proofs.«412352_j55765855371830_1_alg».proof.Proof.Chain

/-! The kernel program's 41 argument arrays as launched on core `c`, gathered into the record the chain of arrays is a
function of. -/

noncomputable section

namespace Cert.KernelIdeal

open Idealize.ShloMosaic Idealize.ShloMosaic.TcCoe Idealize.SL.Sem

/-- The argument arrays of core `c` in the launch memory `m`. -/
def argsK (m : (ℓ : Loc nD τ sig) → Buf (Elt Ideal) ℓ) (c : Dev nD) : Cert.Chain.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)
  a24 := m ((c.tc : Thread nD τ).loc main_arg24)
  a25 := m ((c.tc : Thread nD τ).loc main_arg25)
  a26 := m ((c.tc : Thread nD τ).loc main_arg26)
  a27 := m ((c.tc : Thread nD τ).loc main_arg27)
  a28 := m ((c.tc : Thread nD τ).loc main_arg28)
  a29 := m ((c.tc : Thread nD τ).loc main_arg29)
  a30 := m ((c.tc : Thread nD τ).loc main_arg30)
  a31 := m ((c.tc : Thread nD τ).loc main_arg31)
  a32 := m ((c.tc : Thread nD τ).loc main_arg32)
  a33 := m ((c.tc : Thread nD τ).loc main_arg33)
  a34 := m ((c.tc : Thread nD τ).loc main_arg34)
  a35 := m ((c.tc : Thread nD τ).loc main_arg35)
  a36 := m ((c.tc : Thread nD τ).loc main_arg36)
  a37 := m ((c.tc : Thread nD τ).loc main_arg37)
  a38 := m ((c.tc : Thread nD τ).loc main_arg38)
  a39 := m ((c.tc : Thread nD τ).loc main_arg39)
  a40 := m ((c.tc : Thread nD τ).loc main_arg40)

end Cert.KernelIdeal

end
-- ==== Proof.Back.lean ====
import proofs.«412352_j55765855371830_1_alg».proof.Proof.Gen.KernelIdeal.Frame

/-! No host operation and no launch of the kernel program writes an argument array, so at every boundary of @main an
argument still holds its launch contents. Stated here for each argument at the boundary where it is read: by the host
stretch that reshapes it, or by the launch that takes it as a window. -/

noncomputable section

namespace Cert.KernelIdeal.Back

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The two kinds of step

Between two consecutive boundaries of @main lies either a host stretch (a list of host operations, each writing one
result buffer) or a launch (which changes only its own arrays). An argument array is the result of no host operation
and, below the boundary where it is first read, an array of no launch; so each step down leaves it as it was. -/

/-- A host stretch leaves a buffer none of its operations writes as it was: the goal's left side, the contents after
the stretch, is replaced by the contents before it. The side goal, one inequality of references for each operation's
result, is decided. -/
local macro "host_keeps " ops:ident : tactic => `(tactic|
  refine Eq.trans (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))) ?_)

/-- A launch leaves a buffer that is none of its arrays as it was (the launch's `_of_ne` fact; that the buffer is
none of the arrays is decided). -/
local macro "launch_keeps " h:ident : tactic => `(tactic| refine Eq.trans ($h:ident _ _ _ _ (by decide)) ?_)

/-! ## The walk from boundary `J` down to the launch memory

`walkJ` proves `WJ m ρ c b = m (c, b)` for a buffer `b` that nothing between the launch and boundary `J` writes: one
step for each of the `J` segments, in the order @main runs them backwards, and at the bottom `W0` is the launch memory
by definition. The segments: host stretch 0, launch 0, host stretch 1, launch 1, the four host stretches 2, 2_1, 2_2,
2_3, launch 2, host stretch 3, launch 3, the three host stretches 4, 4_1, 4_2, launch 4, host stretch 5, launch 5,
host stretch 6. -/
local macro "walk1" : tactic => `(tactic| (host_keeps hostOps0; rfl))
local macro "walk2" : tactic => `(tactic| (launch_keeps W2_of_ne; walk1))
local macro "walk3" : tactic => `(tactic| (host_keeps hostOps1; walk2))
local macro "walk4" : tactic => `(tactic| (launch_keeps W4_of_ne; walk3))
local macro "walk5" : tactic => `(tactic| (host_keeps hostOps2; walk4))
local macro "walk6" : tactic => `(tactic| (host_keeps hostOps2_1; walk5))
local macro "walk7" : tactic => `(tactic| (host_keeps hostOps2_2; walk6))
local macro "walk8" : tactic => `(tactic| (host_keeps hostOps2_3; walk7))
local macro "walk9" : tactic => `(tactic| (launch_keeps W9_of_ne; walk8))
local macro "walk10" : tactic => `(tactic| (host_keeps hostOps3; walk9))
local macro "walk11" : tactic => `(tactic| (launch_keeps W11_of_ne; walk10))
local macro "walk12" : tactic => `(tactic| (host_keeps hostOps4; walk11))
local macro "walk13" : tactic => `(tactic| (host_keeps hostOps4_1; walk12))
local macro "walk14" : tactic => `(tactic| (host_keeps hostOps4_2; walk13))
local macro "walk15" : tactic => `(tactic| (launch_keeps W15_of_ne; walk14))
local macro "walk16" : tactic => `(tactic| (host_keeps hostOps5; walk15))
local macro "walk17" : tactic => `(tactic| (launch_keeps W17_of_ne; walk16))
local macro "walk18" : tactic => `(tactic| (host_keeps hostOps6; walk17))

theorem arg0_at1 (c : Dev nD) :
    W1 m ρ c (Proc.devRef .tc main_arg0) = m ((c.tc : Thread nD τ).loc main_arg0) := by
  walk1

theorem arg5_at1 (c : Dev nD) :
    W1 m ρ c (Proc.devRef .tc main_arg5) = m ((c.tc : Thread nD τ).loc main_arg5) := by
  walk1

theorem arg7_at1 (c : Dev nD) :
    W1 m ρ c (Proc.devRef .tc main_arg7) = m ((c.tc : Thread nD τ).loc main_arg7) := by
  walk1

theorem arg9_at2 (c : Dev nD) :
    W2 m ρ c (Proc.devRef .tc main_arg9) = m ((c.tc : Thread nD τ).loc main_arg9) := by
  walk2

theorem arg10_at2 (c : Dev nD) :
    W2 m ρ c (Proc.devRef .tc main_arg10) = m ((c.tc : Thread nD τ).loc main_arg10) := by
  walk2

theorem arg12_at2 (c : Dev nD) :
    W2 m ρ c (Proc.devRef .tc main_arg12) = m ((c.tc : Thread nD τ).loc main_arg12) := by
  walk2

theorem arg14_at2 (c : Dev nD) :
    W2 m ρ c (Proc.devRef .tc main_arg14) = m ((c.tc : Thread nD τ).loc main_arg14) := by
  walk2

theorem arg1_at3 (c : Dev nD) :
    W3 m ρ c (Proc.devRef .tc main_arg1) = m ((c.tc : Thread nD τ).loc main_arg1) := by
  walk3

theorem arg11_at3 (c : Dev nD) :
    W3 m ρ c (Proc.devRef .tc main_arg11) = m ((c.tc : Thread nD τ).loc main_arg11) := by
  walk3

theorem arg13_at3 (c : Dev nD) :
    W3 m ρ c (Proc.devRef .tc main_arg13) = m ((c.tc : Thread nD τ).loc main_arg13) := by
  walk3

theorem arg2_at4 (c : Dev nD) :
    W4 m ρ c (Proc.devRef .tc main_arg2) = m ((c.tc : Thread nD τ).loc main_arg2) := by
  walk4

theorem arg16_at7 (c : Dev nD) :
    W7 m ρ c (Proc.devRef .tc main_arg16) = m ((c.tc : Thread nD τ).loc main_arg16) := by
  walk7

theorem arg20_at7 (c : Dev nD) :
    W7 m ρ c (Proc.devRef .tc main_arg20) = m ((c.tc : Thread nD τ).loc main_arg20) := by
  walk7

theorem arg18_at7 (c : Dev nD) :
    W7 m ρ c (Proc.devRef .tc main_arg18) = m ((c.tc : Thread nD τ).loc main_arg18) := by
  walk7

theorem arg15_at8 (c : Dev nD) :
    W8 m ρ c (Proc.devRef .tc main_arg15) = m ((c.tc : Thread nD τ).loc main_arg15) := by
  walk8

theorem arg17_at8 (c : Dev nD) :
    W8 m ρ c (Proc.devRef .tc main_arg17) = m ((c.tc : Thread nD τ).loc main_arg17) := by
  walk8

theorem arg19_at8 (c : Dev nD) :
    W8 m ρ c (Proc.devRef .tc main_arg19) = m ((c.tc : Thread nD τ).loc main_arg19) := by
  walk8

theorem arg21_at9 (c : Dev nD) :
    W9 m ρ c (Proc.devRef .tc main_arg21) = m ((c.tc : Thread nD τ).loc main_arg21) := by
  walk9

theorem arg23_at9 (c : Dev nD) :
    W9 m ρ c (Proc.devRef .tc main_arg23) = m ((c.tc : Thread nD τ).loc main_arg23) := by
  walk9

theorem arg25_at9 (c : Dev nD) :
    W9 m ρ c (Proc.devRef .tc main_arg25) = m ((c.tc : Thread nD τ).loc main_arg25) := by
  walk9

theorem arg22_at10 (c : Dev nD) :
    W10 m ρ c (Proc.devRef .tc main_arg22) = m ((c.tc : Thread nD τ).loc main_arg22) := by
  walk10

theorem arg24_at10 (c : Dev nD) :
    W10 m ρ c (Proc.devRef .tc main_arg24) = m ((c.tc : Thread nD τ).loc main_arg24) := by
  walk10

theorem arg27_at13 (c : Dev nD) :
    W13 m ρ c (Proc.devRef .tc main_arg27) = m ((c.tc : Thread nD τ).loc main_arg27) := by
  walk13

theorem arg31_at13 (c : Dev nD) :
    W13 m ρ c (Proc.devRef .tc main_arg31) = m ((c.tc : Thread nD τ).loc main_arg31) := by
  walk13

theorem arg29_at13 (c : Dev nD) :
    W13 m ρ c (Proc.devRef .tc main_arg29) = m ((c.tc : Thread nD τ).loc main_arg29) := by
  walk13

theorem arg26_at14 (c : Dev nD) :
    W14 m ρ c (Proc.devRef .tc main_arg26) = m ((c.tc : Thread nD τ).loc main_arg26) := by
  walk14

theorem arg28_at14 (c : Dev nD) :
    W14 m ρ c (Proc.devRef .tc main_arg28) = m ((c.tc : Thread nD τ).loc main_arg28) := by
  walk14

theorem arg30_at14 (c : Dev nD) :
    W14 m ρ c (Proc.devRef .tc main_arg30) = m ((c.tc : Thread nD τ).loc main_arg30) := by
  walk14

theorem arg32_at15 (c : Dev nD) :
    W15 m ρ c (Proc.devRef .tc main_arg32) = m ((c.tc : Thread nD τ).loc main_arg32) := by
  walk15

theorem arg34_at15 (c : Dev nD) :
    W15 m ρ c (Proc.devRef .tc main_arg34) = m ((c.tc : Thread nD τ).loc main_arg34) := by
  walk15

theorem arg36_at15 (c : Dev nD) :
    W15 m ρ c (Proc.devRef .tc main_arg36) = m ((c.tc : Thread nD τ).loc main_arg36) := by
  walk15

theorem arg33_at16 (c : Dev nD) :
    W16 m ρ c (Proc.devRef .tc main_arg33) = m ((c.tc : Thread nD τ).loc main_arg33) := by
  walk16

theorem arg35_at16 (c : Dev nD) :
    W16 m ρ c (Proc.devRef .tc main_arg35) = m ((c.tc : Thread nD τ).loc main_arg35) := by
  walk16

theorem arg38_at17 (c : Dev nD) :
    W17 m ρ c (Proc.devRef .tc main_arg38) = m ((c.tc : Thread nD τ).loc main_arg38) := by
  walk17

theorem arg40_at17 (c : Dev nD) :
    W17 m ρ c (Proc.devRef .tc main_arg40) = m ((c.tc : Thread nD τ).loc main_arg40) := by
  walk17

theorem arg37_at18 (c : Dev nD) :
    W18 m ρ c (Proc.devRef .tc main_arg37) = m ((c.tc : Thread nD τ).loc main_arg37) := by
  walk18

theorem arg39_at18 (c : Dev nD) :
    W18 m ρ c (Proc.devRef .tc main_arg39) = m ((c.tc : Thread nD τ).loc main_arg39) := by
  walk18

end Cert.KernelIdeal.Back

end
-- ==== Proof.PayPost.lean ====
import proofs.«412352_j55765855371830_1_alg».proof.Proof.Gen.KernelIdeal.Skeleton
import proofs.«412352_j55765855371830_1_alg».proof.Proof.Spec
import Idealize.ShloMosaic.PureOps.Ideal.Laws
import Idealize.ShloMosaic.Lib.ValueIdx
import Idealize.ShloMosaic.Lib.Pipeline.Value
import Idealize.ShloMosaic.Lib.ValueLayout

/-! Row `i` of a node-update kernel's block is `postRow` of row `i` of the aggregate block and of the own-row block (both update launches). -/

noncomputable section

namespace Cert.KernelIdeal.Pay

open Idealize.ShloMosaic Idealize.ShloMosaic.TcCoe Idealize.ShloMosaic.ValueIdx
open Cert.KernelIdeal Cert.KernelIdeal.Gen Cert.Spec

/-! ### The product S5000x128 by S128x128: each operand index of the contraction, coordinate by coordinate -/

private theorem lhs_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `r`, column `c`: the inner product of row `r` of the left
    operand with column `c` of the right one. -/
private theorem mm_128_128 {φ₁ φ₂ : FTy} (a : FVec Ideal S5000x128 φ₁) (w : FVec Ideal S128x128 φ₂) (r : Fin 5000) (c : Fin 128) :
    matmul dot_S5000x128_S128x128_S5000x128_1_0_0_1_n_n none a w (constant (F := Ideal) S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun x => Fin.ext (by
    match x with
    | ⟨0, _⟩ => exact lhs_128_128_0 _ _
    | ⟨1, _⟩ => exact (lhs_128_128_1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun x => Fin.ext (by
    match x with
    | ⟨0, _⟩ => exact (rhs_128_128_0 _ _).trans hk
    | ⟨1, _⟩ => exact rhs_128_128_1 _ _)
  rw [el, er]

/-! ### The product S5000x256 by S256x128: each operand index of the contraction, coordinate by coordinate -/

private theorem lhs_256_128_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhs_256_128_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
private theorem rhs_256_128_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
private theorem rhs_256_128_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into a zero accumulator, read at row `r`, column `c`: the inner product of row `r` of the left
    operand with column `c` of the right one. -/
private theorem mm_256_128 {φ₁ φ₂ : FTy} (a : FVec Ideal S5000x256 φ₁) (w : FVec Ideal S256x128 φ₂) (r : Fin 5000) (c : Fin 128) :
    matmul dot_S5000x256_S256x128_S5000x128_1_0_0_1_n_n none a w (constant (F := Ideal) S5000x128 .f32 0x00000000#32) (ix2 r c)
      = ∑ k : Fin 256, a (ix2 r k) * w (ix2 k c) := by
  refine (Ideal.matmul_constant_zero_apply dot_S5000x256_S256x128_S5000x128_1_0_0_1_n_n none a w (ix2 r c)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r c) ((contrEquiv1 dot_S5000x256_S256x128_S5000x128_1_0_0_1_n_n 256 rfl rfl).symm k) = ix2 r k := funext fun x => Fin.ext (by
    match x with
    | ⟨0, _⟩ => exact lhs_256_128_0 _ _
    | ⟨1, _⟩ => exact (lhs_256_128_1 _ _).trans hk)
  have er : dot_S5000x256_S256x128_S5000x128_1_0_0_1_n_n.rhsIdx (ix2 r c) ((contrEquiv1 dot_S5000x256_S256x128_S5000x128_1_0_0_1_n_n 256 rfl rfl).symm k) = ix2 k c := funext fun x => Fin.ext (by
    match x with
    | ⟨0, _⟩ => exact (rhs_256_128_0 _ _).trans hk
    | ⟨1, _⟩ => exact rhs_256_128_1 _ _)
  rw [el, er]

/-! ### Layout operations of the bodies, read at a row and a column -/

/-- A `[1, 128]` row laid under every one of the 5000 rows reads, at `(r, q)`, the row's entry `q`. -/
private theorem row_bcast (b : FVec Ideal S1x128 .f32) (h : S1x128.Broadcasts S5000x128) (r : Fin 5000) (q : Fin 128) :
    broadcastTo S5000x128 b h (ix2 r q) = b (ix2 0 q) :=
  broadcastTo_1b_ab_apply b h r q

/-- A `[1, 1]` scalar spread over the whole `[5000, 128]` block reads its one entry everywhere. -/
private theorem scalar_bcast (s : FVec Ideal S1x1 .f32) (h : S1x1.Broadcasts S5000x128) (r : Fin 5000) (q : Fin 128) :
    broadcastTo S5000x128 s h (ix2 r q) = s (ix2 0 0) := by
  refine broadcastTo_apply s h (ix2 r q) (ix2 (0 : Fin 1) (0 : Fin 1)) fun ax => ?_
  match ax with
  | ⟨0, _⟩ => rfl
  | ⟨1, _⟩ => rfl

/-- The zero the bodies clamp at. -/
private theorem zero_f32 : (FloatOps.ofBits (F := Ideal) .f32 0x00000000#32) = (0 : EReal) := by
  rw [Ideal.ofBits_def, Ideal.ofBits_zero_f32]

/-- Two `[5000, 128]` blocks laid side by side along the columns: column `k` of the 256 is column `k` of the first
    block when `k < 128`, column `k - 128` of the second otherwise. -/
private theorem concat_apply (u v : FVec Ideal S5000x128 .f32) (h : Shape.Concatenates [S5000x128, S5000x128] S5000x256 1)
    (i : Fin 5000) (k : Fin 256) :
    concatenate S5000x256 1 [⟨S5000x128, u⟩, ⟨S5000x128, v⟩] h (ix2 i k)
      = if hk : k.val < 128 then u (ix2 i ⟨k.val, hk⟩) else v (ix2 i ⟨k.val - 128, by have := k.isLt; omega⟩) := by
  by_cases hk : k.val < 128
  · rw [dif_pos hk]
    refine concatenate_pair_apply_left 1 u v h (ix2 i k) rfl (ix2 i ⟨k.val, hk⟩) fun b => ?_
    match b with
    | ⟨0, _⟩ => rfl
    | ⟨1, _⟩ => rfl
  · rw [dif_neg hk]
    refine concatenate_pair_apply_right 1 u v h (ix2 i k) rfl rfl (ix2 i ⟨k.val - 128, by have := k.isLt; omega⟩)
      (fun b hb => ?_) ?_
    · match b, hb with
      | ⟨0, _⟩, _ => rfl
      | ⟨1, _⟩, hb => exact absurd rfl hb
    · show (k.val - 128) + 128 = k.val
      omega

/-! ### The node-update body at a row and a column

Over the extended reals the roundings to the narrow format are the identity. The first product runs over the 256
columns of the aggregate block scaled by the scalar and of the own-row block laid side by side, which entry by entry is
`sideBySide`; the second over the 128 clamped entries; each row bias reads its one row. What is left is `postRow`
written out. -/

theorem k3_pay1_row (agg : Vec Ideal S5000x128 .f32) (sp : Vec Ideal S1x1 .f32) (own : Vec Ideal S5000x128 .f32)
    (wo1 : Vec Ideal S256x128 .f32) (bo1 : Vec Ideal S1x128 .f32) (wo2 : Vec Ideal S128x128 .f32) (bo2 : Vec Ideal S1x128 .f32)
    (i : Fin 5000) (c : Fin 128) :
    k3_pay1 (F := Ideal) agg sp own wo1 bo1 wo2 bo2 (ix2 i c)
      = postRow (fun q => agg (ix2 i q)) (fun q => own (ix2 i q)) (sp (ix2 0 0)) (fun p q => wo1 (ix2 p q)) (fun q => bo1 (ix2 0 q))
          (fun p q => wo2 (ix2 p q)) (fun q => bo2 (ix2 0 q)) c := by
  unfold k3_pay1 Cert.Spec.postRow Cert.Spec.lin Cert.Spec.sideBySide
  simp only [maximumf_apply, addf_apply, mulf_apply, broadcast_apply, truncf_apply, mm_128_128, mm_256_128, concat_apply,
    shapeCast_self, row_bcast, scalar_bcast, zero_f32]

theorem k5_pay1_row (agg : Vec Ideal S5000x128 .f32) (sp : Vec Ideal S1x1 .f32) (own : Vec Ideal S5000x128 .f32)
    (wo1 : Vec Ideal S256x128 .f32) (bo1 : Vec Ideal S1x128 .f32) (wo2 : Vec Ideal S128x128 .f32) (bo2 : Vec Ideal S1x128 .f32)
    (i : Fin 5000) (c : Fin 128) :
    k5_pay1 (F := Ideal) agg sp own wo1 bo1 wo2 bo2 (ix2 i c)
      = postRow (fun q => agg (ix2 i q)) (fun q => own (ix2 i q)) (sp (ix2 0 0)) (fun p q => wo1 (ix2 p q)) (fun q => bo1 (ix2 0 q))
          (fun p q => wo2 (ix2 p q)) (fun q => bo2 (ix2 0 q)) c :=
  -- the second update body is the first one, term for term
  k3_pay1_row agg sp own wo1 bo1 wo2 bo2 i c

end Cert.KernelIdeal.Pay

end
-- ==== Proof.Reg5.lean ====
import proofs.«412352_j55765855371830_1_alg».proof.Proof.Gen.KernelIdeal.Frame
import proofs.«412352_j55765855371830_1_alg».proof.Proof.Spec
import proofs.«412352_j55765855371830_1_alg».proof.Proof.PayPost
import Idealize.ShloMosaic.Lib.ValueIdx
import Idealize.ShloMosaic.Lib.Pipeline.Value

/-! Region 5 (the node-update launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The zero offsets of a whole-buffer rectangle, as the constant function. -/
private theorem hz5 : (![0, 0] : Fin 2 → Nat) = fun _ => 0 := funext fun a => by fin_cases a <;> rfl

/-- The block indices over the grid, decided once: the aggregate, the nodes' own rows and the output move one block of 5000 rows
    per point; every weight, bias and scale window stays at block (0, 0). -/
private theorem bidx5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = 0 ∧ win5_6.index t (1 : Fin 2) = 0)
    ∧ (win5_7.index t (0 : Fin 2) = t.val ∧ win5_7.index t (1 : Fin 2) = 0) :=
  (by decide +kernel : ∀ t : Fin grid5.N, _)

/-- The whole output array as one function of the arrays at entry: entry (i, j) is the update of node i at column j. -/
private def G5 (c : Dev nD) : S50000x128.Idx → EReal := fun j =>
  postRow (fun q => (V c main_v51 : S50000x128.Idx → EReal) (ix2 (j 0) q)) (fun q => (V c main_v4 : S50000x128.Idx → EReal) (ix2 (j 0) q)) ((V c main_v52 : S1x1.Idx → EReal) (ix2 0 0))
          (fun p q => (V c main_arg33 : S256x128.Idx → EReal) (ix2 p q)) (fun q => (V c main_v53 : S1x128.Idx → EReal) (ix2 0 q))
          (fun p q => (V c main_arg35 : S128x128.Idx → EReal) (ix2 p q)) (fun q => (V c main_v54 : S1x128.Idx → EReal) (ix2 0 q)) (j 1)

/-- The node-update row is a function of its seven operands. -/
private theorem postRow_congr {agg agg' own own' : Fin 128 → EReal} {sp sp' : EReal} {wo1 wo1' : Fin 256 → Fin 128 → EReal}
    {bo1 bo1' bo2 bo2' : Fin 128 → EReal} {wo2 wo2' : Fin 128 → Fin 128 → EReal}
    (h0 : agg = agg') (h1 : own = own') (h2 : sp = sp') (h3 : wo1 = wo1') (h4 : bo1 = bo1') (h5 : wo2 = wo2') (h6 : bo2 = bo2')
    (q : Fin 128) : postRow agg own sp wo1 bo1 wo2 bo2 q = postRow agg' own' sp' wo1' bo1' wo2' bo2' q := by
  subst h0 h1 h2 h3 h4 h5 h6; rfl

/-- Row `r` of the aggregate's block at point `t` is row `5000 t + r` of its array: an element of a block sits at
    block index × block size + its coordinate inside the block, on each axis. -/
private theorem blk5_0_row (c : Dev nD) (t : Fin cfg5.N) (r : Fin 5000) (i : Fin 50000) (hi : i.val = 5000 * t.val + r.val) :
    (fun q : Fin 128 => (iblk5 V c 0 t : Vec Ideal S5000x128 .f32) (ix2 r q))
      = fun q : Fin 128 => (V c main_v51 : S50000x128.Idx → EReal) (ix2 i q) := by
  funext q
  unfold iblk5
  rw [View.read_apply]
  show V c main_v51 _ = V c main_v51 _
  congr 1
  funext a
  apply Fin.ext
  match a with
  | ⟨0, _⟩ => show win5_0.index t (0 : Fin 2) * 5000 + 1 * r.val = i.val; rw [(bidx5 t).1.1, hi]; omega
  | ⟨1, _⟩ => show win5_0.index t (1 : Fin 2) * 128 + 1 * q.val = q.val; rw [(bidx5 t).1.2]; omega

/-- The same for the nodes' own rows. -/
private theorem blk5_1_row (c : Dev nD) (t : Fin cfg5.N) (r : Fin 5000) (i : Fin 50000) (hi : i.val = 5000 * t.val + r.val) :
    (fun q : Fin 128 => (iblk5 V c 1 t : Vec Ideal S5000x128 .f32) (ix2 r q))
      = fun q : Fin 128 => (V c main_v4 : S50000x128.Idx → EReal) (ix2 i q) := by
  funext q
  unfold iblk5
  rw [View.read_apply]
  show V c main_v4 _ = V c main_v4 _
  congr 1
  funext a
  apply Fin.ext
  match a with
  | ⟨0, _⟩ => show win5_1.index t (0 : Fin 2) * 5000 + 1 * r.val = i.val; rw [(bidx5 t).2.1.1, hi]; omega
  | ⟨1, _⟩ => show win5_1.index t (1 : Fin 2) * 128 + 1 * q.val = q.val; rw [(bidx5 t).2.1.2]; omega

/-- The scalar scale: its window's block at any point is the whole array (block index (0, 0), block size the array's). -/
private theorem blk5_2_all (c : Dev nD) (t : Fin cfg5.N) :
    (iblk5 V c 2 t : Vec Ideal S1x1 .f32) (ix2 0 0) = (V c main_v52 : S1x1.Idx → EReal) (ix2 0 0) := by
  unfold iblk5
  rw [View.read_apply]
  show V c main_v52 _ = V c main_v52 _
  congr 1
  funext a
  apply Fin.ext
  match a with
  | ⟨0, _⟩ => show win5_2.index t (0 : Fin 2) * 1 + 1 * 0 = 0; rw [(bidx5 t).2.2.1.1]
  | ⟨1, _⟩ => show win5_2.index t (1 : Fin 2) * 1 + 1 * 0 = 0; rw [(bidx5 t).2.2.1.2]

/-- The first weight matrix (256 rows). -/
private theorem blk5_3_all (c : Dev nD) (t : Fin cfg5.N) :
    (fun (p : Fin 256) (q : Fin 128) => (iblk5 V c 3 t : Vec Ideal S256x128 .f32) (ix2 p q))
      = fun (p : Fin 256) (q : Fin 128) => (V c main_arg33 : S256x128.Idx → EReal) (ix2 p q) := by
  funext p q
  unfold iblk5
  rw [View.read_apply]
  show V c main_arg33 _ = V c main_arg33 _
  congr 1
  funext a
  apply Fin.ext
  match a with
  | ⟨0, _⟩ => show win5_3.index t (0 : Fin 2) * 256 + 1 * p.val = p.val; rw [(bidx5 t).2.2.2.1.1]; omega
  | ⟨1, _⟩ => show win5_3.index t (1 : Fin 2) * 128 + 1 * q.val = q.val; rw [(bidx5 t).2.2.2.1.2]; omega

/-- The first bias row. -/
private theorem blk5_4_all (c : Dev nD) (t : Fin cfg5.N) :
    (fun (q : Fin 128) => (iblk5 V c 4 t : Vec Ideal S1x128 .f32) (ix2 0 q))
      = fun (q : Fin 128) => (V c main_v53 : S1x128.Idx → EReal) (ix2 0 q) := by
  funext q
  unfold iblk5
  rw [View.read_apply]
  show V c main_v53 _ = V c main_v53 _
  congr 1
  funext a
  apply Fin.ext
  match a with
  | ⟨0, _⟩ => show win5_4.index t (0 : Fin 2) * 1 + 1 * 0 = 0; rw [(bidx5 t).2.2.2.2.1.1]
  | ⟨1, _⟩ => show win5_4.index t (1 : Fin 2) * 128 + 1 * q.val = q.val; rw [(bidx5 t).2.2.2.2.1.2]; omega

/-- The second weight matrix. -/
private theorem blk5_5_all (c : Dev nD) (t : Fin cfg5.N) :
    (fun (p q : Fin 128) => (iblk5 V c 5 t : Vec Ideal S128x128 .f32) (ix2 p q))
      = fun (p q : Fin 128) => (V c main_arg35 : S128x128.Idx → EReal) (ix2 p q) := by
  funext p q
  unfold iblk5
  rw [View.read_apply]
  show V c main_arg35 _ = V c main_arg35 _
  congr 1
  funext a
  apply Fin.ext
  match a with
  | ⟨0, _⟩ => show win5_5.index t (0 : Fin 2) * 128 + 1 * p.val = p.val; rw [(bidx5 t).2.2.2.2.2.1.1]; omega
  | ⟨1, _⟩ => show win5_5.index t (1 : Fin 2) * 128 + 1 * q.val = q.val; rw [(bidx5 t).2.2.2.2.2.1.2]; omega

/-- The second bias row. -/
private theorem blk5_6_all (c : Dev nD) (t : Fin cfg5.N) :
    (fun (q : Fin 128) => (iblk5 V c 6 t : Vec Ideal S1x128 .f32) (ix2 0 q))
      = fun (q : Fin 128) => (V c main_v54 : S1x128.Idx → EReal) (ix2 0 q) := by
  funext q
  unfold iblk5
  rw [View.read_apply]
  show V c main_v54 _ = V c main_v54 _
  congr 1
  funext a
  apply Fin.ext
  match a with
  | ⟨0, _⟩ => show win5_6.index t (0 : Fin 2) * 1 + 1 * 0 = 0; rw [(bidx5 t).2.2.2.2.2.2.1.1]
  | ⟨1, _⟩ => show win5_6.index t (1 : Fin 2) * 128 + 1 * q.val = q.val; rw [(bidx5 t).2.2.2.2.2.2.1.2]; omega

/-- Element (r, q) of the output's block at point `t` sits at (5000 t + r, q) of the output array. -/
private theorem emb5_7 (t : Fin cfg5.N) (r : Fin 5000) (q : Fin 128) (i : Fin 50000) (hi : i.val = 5000 * t.val + r.val) :
    ((cfg5.win 7).blk t).view.emb (ix2 r q) = (ix2 i q : S50000x128.Idx) := by
  funext a
  apply Fin.ext
  match a with
  | ⟨0, _⟩ => show win5_7.index t (0 : Fin 2) * 5000 + 1 * r.val = i.val; rw [(bidx5 t).2.2.2.2.2.2.2.1, hi]; omega
  | ⟨1, _⟩ => show win5_7.index t (1 : Fin 2) * 128 + 1 * q.val = q.val; rw [(bidx5 t).2.2.2.2.2.2.2.2]; omega

/-- What point `t` writes back is block `t` of `G5`: the body stores one whole block, the node-update kernel's payload of the
    input blocks; row `r` of it is the update row of row `r` of the aggregate's and the own rows' blocks, which are rows
    `5000 t + r` of their arrays. -/
private theorem flushed5_eq (c : Dev nD) (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz5]
  simp only [View.ld_unit_zero (S := S5000x128) hz5, View.ld_unit_zero (S := S128x128) hz5, View.ld_unit_zero (S := S256x128) hz5, View.ld_unit_zero (S := S1x128) hz5, View.ld_unit_zero (S := S1x1) hz5]
  funext y
  obtain ⟨r, q, rfl⟩ : ∃ (r : Fin 5000) (q : Fin 128), y = ix2 r q := ⟨y 0, y 1, eq_ix2 y⟩
  have hN : cfg5.N = 10 := N_5
  have ht : t.val < 10 := hN ▸ t.isLt
  have hi : (⟨5000 * t.val + r.val, by have := r.isLt; omega⟩ : Fin 50000).val = 5000 * t.val + r.val := rfl
  refine (Pay.k5_pay1_row (iblk5 V c 0 t) (iblk5 V c 2 t) (iblk5 V c 1 t) (iblk5 V c 3 t) (iblk5 V c 4 t) (iblk5 V c 5 t) (iblk5 V c 6 t) r q).trans ?_
  show _ = G5 V c (((cfg5.win 7).blk t).view.emb (ix2 r q))
  rw [emb5_7 t r q _ hi]
  exact postRow_congr (blk5_0_row V c t r _ hi) (blk5_1_row V c t r _ hi) (blk5_2_all V c t) (blk5_3_all V c t) (blk5_4_all V c t)
    (blk5_5_all V c t) (blk5_6_all V c t) q

/-- An index of the output array is in point `t`'s block iff each coordinate is in the block's range on its axis. -/
private theorem mem_blk5 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v55).slice (win5_7.rect t)).set ↔ _
  rw [View.set_slice_whole, Rect.mem_set_unit]
  exact Iff.rfl

/-- The blocks cover the output array: row `i` is in the block of point `i / 5000`. -/
private theorem cover5 (i : S50000x128.Idx) : ∃ t : Fin cfg5.N, (cfg5.win 7).flush t = true ∧ i ∈ ((cfg5.win 7).blk t).view.set := by
  have hN : cfg5.N = 10 := N_5
  have h0 : (i 0).val < 50000 := idx2_lt0 i
  have h1 : (i 1).val < 128 := idx2_lt1 i
  refine ⟨⟨(i 0).val / 5000, by omega⟩, flush5_7 _, ?_⟩
  rw [mem_blk5]
  intro a
  match a with
  | ⟨0, _⟩ =>
    show win5_7.index _ (0 : Fin 2) * 5000 ≤ (i 0).val ∧ (i 0).val < win5_7.index _ (0 : Fin 2) * 5000 + 5000
    rw [(bidx5 _).2.2.2.2.2.2.2.1]
    show (i 0).val / 5000 * 5000 ≤ (i 0).val ∧ (i 0).val < (i 0).val / 5000 * 5000 + 5000
    omega
  | ⟨1, _⟩ =>
    show win5_7.index _ (1 : Fin 2) * 128 ≤ (i 1).val ∧ (i 1).val < win5_7.index _ (1 : Fin 2) * 128 + 128
    rw [(bidx5 _).2.2.2.2.2.2.2.2]
    omega

/-- So the output array after the region is `G5` of the arrays at entry. -/
private theorem final5 (c : Dev nD) : (dat5 V c).arrAt 7 cfg5.N = G5 V c :=
  (dat5 V c).arrAt_eq_of_cover 7 (G5 V c) (fun t _ => flushed5_eq V c t) cover5

/-- Row `i` of the array region 5 leaves in its output, in terms of the arrays the region finds at entry. -/
theorem region5_row (c : Dev nD) (i : Fin 50000) (j : Fin 128) :
    ((dat5 V c).arrAt 7 cfg5.N : S50000x128.Idx → EReal) (ix2 i j)
      = postRow (fun q => (V c main_v51 : S50000x128.Idx → EReal) (ix2 i q)) (fun q => (V c main_v4 : S50000x128.Idx → EReal) (ix2 i q)) ((V c main_v52 : S1x1.Idx → EReal) (ix2 0 0))
          (fun p q => (V c main_arg33 : S256x128.Idx → EReal) (ix2 p q)) (fun q => (V c main_v53 : S1x128.Idx → EReal) (ix2 0 q))
          (fun p q => (V c main_arg35 : S128x128.Idx → EReal) (ix2 p q)) (fun q => (V c main_v54 : S1x128.Idx → EReal) (ix2 0 q)) j := by
  rw [final5 V c]
  rfl

end Cert.KernelIdeal.Reg

end
-- ==== Proof.PayOut.lean ====
import proofs.«412352_j55765855371830_1_alg».proof.Proof.Gen.KernelIdeal.Skeleton
import proofs.«412352_j55765855371830_1_alg».proof.Proof.Spec
import Idealize.ShloMosaic.PureOps.Ideal.Laws
import Idealize.ShloMosaic.Lib.ValueIdx
import Idealize.ShloMosaic.Lib.Pipeline.Value
import Idealize.ShloMosaic.Lib.ValueLayout

/-! Row `i` of the output kernel's block is `outRow` of row `i` of its input block. -/

noncomputable section

namespace Cert.KernelIdeal.Pay

open Idealize.ShloMosaic Idealize.ShloMosaic.TcCoe Idealize.ShloMosaic.ValueIdx
open Cert.KernelIdeal Cert.KernelIdeal.Gen Cert.Spec

/-! The contraction `5000×128` by `128×128`: the left operand is read at row `i 0`, column `k`; the right at row `k`, column `i 1`. -/

private theorem lhs_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, read at row `r`, column `c`, is the inner product of row `r` of the left operand with column `c` of the right. -/
private theorem mm_128_128 {φ₁ φ₂ : FTy} (a : FVec Ideal S5000x128 φ₁) (w : FVec Ideal S128x128 φ₂) (r : Fin 5000) (c : Fin 128) :
    matmul dot_S5000x128_S128x128_S5000x128_1_0_0_1_n_n none a w (constant S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r c) ((ValueIdx.contrEquiv1 dot_S5000x128_S128x128_S5000x128_1_0_0_1_n_n 128 rfl rfl).symm k) = ix2 r k := funext fun a => Fin.ext (by
    match a with
    | ⟨0, _⟩ => exact lhs_128_128_0 _ _
    | ⟨1, _⟩ => exact (lhs_128_128_1 _ _).trans hk)
  have er : dot_S5000x128_S128x128_S5000x128_1_0_0_1_n_n.rhsIdx (ix2 r c) ((ValueIdx.contrEquiv1 dot_S5000x128_S128x128_S5000x128_1_0_0_1_n_n 128 rfl rfl).symm k) = ix2 k c := funext fun a => Fin.ext (by
    match a with
    | ⟨0, _⟩ => exact (rhs_128_128_0 _ _).trans hk
    | ⟨1, _⟩ => exact rhs_128_128_1 _ _)
  rw [el, er]

/-! The contraction `5000×128` by `128×2`: the left operand is read at row `i 0`, column `k`; the right at row `k`, column `i 1`. -/

private theorem lhs_128_2_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
private theorem lhs_128_2_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
private theorem rhs_128_2_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
private theorem rhs_128_2_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- A product into a zero accumulator, read at row `r`, column `c`, is the inner product of row `r` of the left operand with column `c` of the right. -/
private theorem mm_128_2 {φ₁ φ₂ : FTy} (a : FVec Ideal S5000x128 φ₁) (w : FVec Ideal S128x2 φ₂) (r : Fin 5000) (c : Fin 2) :
    matmul dot_S5000x128_S128x2_S5000x2_1_0_0_1_n_n none a w (constant S5000x2 .f32 0x00000000#32) (ix2 r c)
      = ∑ k : Fin 128, a (ix2 r k) * w (ix2 k c) := by
  refine (Ideal.matmul_constant_zero_apply dot_S5000x128_S128x2_S5000x2_1_0_0_1_n_n none a w (ix2 r c)).trans ?_
  rw [← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 r c) ((ValueIdx.contrEquiv1 dot_S5000x128_S128x2_S5000x2_1_0_0_1_n_n 128 rfl rfl).symm k) = ix2 r k := funext fun a => Fin.ext (by
    match a with
    | ⟨0, _⟩ => exact lhs_128_2_0 _ _
    | ⟨1, _⟩ => exact (lhs_128_2_1 _ _).trans hk)
  have er : dot_S5000x128_S128x2_S5000x2_1_0_0_1_n_n.rhsIdx (ix2 r c) ((ValueIdx.contrEquiv1 dot_S5000x128_S128x2_S5000x2_1_0_0_1_n_n 128 rfl rfl).symm k) = ix2 k c := funext fun a => Fin.ext (by
    match a with
    | ⟨0, _⟩ => exact (rhs_128_2_0 _ _).trans hk
    | ⟨1, _⟩ => exact rhs_128_2_1 _ _)
  rw [el, er]

/-- A one-row array of 128 entries laid down every one of 5000 rows: entry `(r, q)` is the row's entry `q`. -/
private theorem rowBcast_128 {α : Type} (b : S1x128.Idx → α) (h : S1x128.Broadcasts S5000x128) (r : Fin 5000) (q : Fin 128) :
    broadcastTo S5000x128 b h (ix2 r q) = b (ix2 0 q) := by
  refine broadcastTo_apply b h (ix2 r q) (ix2 0 q) fun a => ?_
  match a with
  | ⟨0, _⟩ => rfl
  | ⟨1, _⟩ => rfl

/-- A one-row array of 2 entries laid down every one of 5000 rows: entry `(r, q)` is the row's entry `q`. -/
private theorem rowBcast_2 {α : Type} (b : S1x2.Idx → α) (h : S1x2.Broadcasts S5000x2) (r : Fin 5000) (q : Fin 2) :
    broadcastTo S5000x2 b h (ix2 r q) = b (ix2 0 q) := by
  refine broadcastTo_apply b h (ix2 r q) (ix2 0 q) fun a => ?_
  match a with
  | ⟨0, _⟩ => rfl
  | ⟨1, _⟩ => rfl

/-- The logistic of an array, read at an index, is the logistic of the entry there. -/
private theorem logistic_at {s : Shape} {φ : FTy} (v : FVec Ideal s φ) (j : s.Idx) : logistic v j = Ideal.logistic (v j) := rfl

theorem k6_pay1_row (x : Vec Ideal S5000x128 .f32) (w1 : Vec Ideal S128x128 .f32) (b1 : Vec Ideal S1x128 .f32)
    (w2 : Vec Ideal S128x2 .f32) (b2 : Vec Ideal S1x2 .f32) (i : Fin 5000) (c : Fin 2) :
    k6_pay1 (F := Ideal) x w1 b1 w2 b2 (ix2 i c)
      = outRow (fun q => x (ix2 i q)) (fun p q => w1 (ix2 p q)) (fun q => b1 (ix2 0 q)) (fun p q => w2 (ix2 p q)) (fun q => b2 (ix2 0 q)) c := by
  unfold k6_pay1 outRow lin
  simp only [logistic_at, maximumf_apply, addf_apply, truncf_apply, broadcast_apply, shapeCast_self, mm_128_128, mm_128_2,
    rowBcast_128, rowBcast_2, Ideal.ofBits_def, Ideal.ofBits_zero_f32]

end Cert.KernelIdeal.Pay

end
-- ==== Proof.Reg6.lean ====
import proofs.«412352_j55765855371830_1_alg».proof.Proof.Gen.KernelIdeal.Frame
import proofs.«412352_j55765855371830_1_alg».proof.Proof.Spec
import proofs.«412352_j55765855371830_1_alg».proof.Proof.PayOut
import Idealize.ShloMosaic.Lib.ValueIdx
import Idealize.ShloMosaic.Lib.Pipeline.Value

/-! Region 6 (the output launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The two zero offsets of a whole-block access, as a constant function. -/
theorem zeroOffsets6 : (![0, 0] : Fin 2 → Nat) = fun _ => 0 := funext fun a => by fin_cases a <;> rfl

/-- The array region 6 writes, as one function of the arrays it finds: row `j 0` is the output head on node row `j 0`. -/
def headAll6 (c : Dev nD) : S50000x2.Idx → EReal := fun j =>
  outRow (fun q => (V c main_v55 : S50000x128.Idx → EReal) (ix2 (j 0) q)) (fun p q => (V c main_arg37 : S128x128.Idx → EReal) (ix2 p q)) (fun q => (V c main_v56 : S1x128.Idx → EReal) (ix2 0 q))
    (fun p q => (V c main_arg39 : S128x2.Idx → EReal) (ix2 p q)) (fun q => (V c main_v57 : S1x2.Idx → EReal) (ix2 0 q)) (j 1)

/-- Where each window's block sits at grid point `t`: the node rows and the output rows move with the point, the weights stay. -/
theorem blockIndex6 : ∀ t : Fin cfg6.N,
    (win6_0.index t 0 = t.val ∧ win6_0.index t 1 = 0) ∧ (win6_1.index t 0 = 0 ∧ win6_1.index t 1 = 0)
    ∧ (win6_2.index t 0 = 0 ∧ win6_2.index t 1 = 0) ∧ (win6_3.index t 0 = 0 ∧ win6_3.index t 1 = 0)
    ∧ (win6_4.index t 0 = 0 ∧ win6_4.index t 1 = 0) ∧ (win6_5.index t 0 = t.val ∧ win6_5.index t 1 = 0) :=
  (by decide +kernel : ∀ t : Fin grid6.N, _)

/-- A row of the output-head payload, with its operands named as reads of whole arrays: if row `r` of the node block is row `i` of the
    node array and each weight block is its whole array, the payload's row `r` is the row function of row `i`. -/
theorem payloadRow6 (X : S50000x128.Idx → EReal) (W1 : S128x128.Idx → EReal) (B1 : S1x128.Idx → EReal)
    (W2 : S128x2.Idx → EReal) (B2 : S1x2.Idx → EReal)
    (x : Vec Ideal S5000x128 .f32) (w1 : Vec Ideal S128x128 .f32) (b1 : Vec Ideal S1x128 .f32)
    (w2 : Vec Ideal S128x2 .f32) (b2 : Vec Ideal S1x2 .f32) (r : Fin 5000) (i : Fin 50000) (q : Fin 2)
    (hx : ∀ k : Fin 128, x (ix2 r k) = X (ix2 i k)) (hw1 : w1 = W1) (hb1 : b1 = B1) (hw2 : w2 = W2) (hb2 : b2 = B2) :
    k6_pay1 (F := Ideal) x w1 b1 w2 b2 (ix2 r q)
      = outRow (fun k => X (ix2 i k)) (fun p k => W1 (ix2 p k)) (fun k => B1 (ix2 0 k)) (fun p k => W2 (ix2 p k))
          (fun k => B2 (ix2 0 k)) q := by
  subst hw1 hb1 hw2 hb2
  rw [Pay.k6_pay1_row, show (fun k => x (ix2 r k)) = (fun k => X (ix2 i k)) from funext hx]

/-- Row `r` of the node block at point `t` is row `5000 t + r` of the node array. -/
theorem nodeBlock6 (c : Dev nD) (t : Fin cfg6.N) (r : Fin 5000) (i : Fin 50000) (hi : i.val = 5000 * t.val + r.val) (k : Fin 128) :
    (iblk6 V c 0 t : Vec Ideal S5000x128 .f32) (ix2 r k) = (V c main_v55 : S50000x128.Idx → EReal) (ix2 i k) := by
  obtain ⟨⟨e0, e1⟩, -⟩ := blockIndex6 t
  unfold iblk6
  rw [View.read_apply]
  show V c main_v55 (((cfg6.win 0).blk t).view.emb (ix2 r k)) = V c main_v55 (ix2 i k)
  refine congrArg _ ?_
  funext a
  apply Fin.ext
  match a with
  | ⟨0, _⟩ => show win6_0.index t 0 * 5000 + 1 * r.val = i.val; rw [e0, hi]; omega
  | ⟨1, _⟩ => show win6_0.index t 1 * 128 + 1 * k.val = k.val; rw [e1]; omega

/-- The first weight block at any point is the whole first weight array. -/
theorem weight1Block6 (c : Dev nD) (t : Fin cfg6.N) : (iblk6 V c 1 t : Vec Ideal S128x128 .f32) = (V c main_arg37 : S128x128.Idx → EReal) := by
  obtain ⟨-, ⟨e0, e1⟩, -⟩ := blockIndex6 t
  funext y
  unfold iblk6
  rw [View.read_apply]
  show V c main_arg37 (((cfg6.win 1).blk t).view.emb y) = V c main_arg37 y
  refine congrArg _ ?_
  funext a
  apply Fin.ext
  match a with
  | ⟨0, _⟩ => show win6_1.index t 0 * 128 + 1 * (y 0).val = (y 0).val; rw [e0]; omega
  | ⟨1, _⟩ => show win6_1.index t 1 * 128 + 1 * (y 1).val = (y 1).val; rw [e1]; omega

/-- The first bias block at any point is the whole first bias array. -/
theorem bias1Block6 (c : Dev nD) (t : Fin cfg6.N) : (iblk6 V c 2 t : Vec Ideal S1x128 .f32) = (V c main_v56 : S1x128.Idx → EReal) := by
  obtain ⟨-, -, ⟨e0, e1⟩, -⟩ := blockIndex6 t
  funext y
  unfold iblk6
  rw [View.read_apply]
  show V c main_v56 (((cfg6.win 2).blk t).view.emb y) = V c main_v56 y
  refine congrArg _ ?_
  funext a
  apply Fin.ext
  match a with
  | ⟨0, _⟩ => show win6_2.index t 0 * 1 + 1 * (y 0).val = (y 0).val; rw [e0]; omega
  | ⟨1, _⟩ => show win6_2.index t 1 * 128 + 1 * (y 1).val = (y 1).val; rw [e1]; omega

/-- The second weight block at any point is the whole second weight array. -/
theorem weight2Block6 (c : Dev nD) (t : Fin cfg6.N) : (iblk6 V c 3 t : Vec Ideal S128x2 .f32) = (V c main_arg39 : S128x2.Idx → EReal) := by
  obtain ⟨-, -, -, ⟨e0, e1⟩, -⟩ := blockIndex6 t
  funext y
  unfold iblk6
  rw [View.read_apply]
  show V c main_arg39 (((cfg6.win 3).blk t).view.emb y) = V c main_arg39 y
  refine congrArg _ ?_
  funext a
  apply Fin.ext
  match a with
  | ⟨0, _⟩ => show win6_3.index t 0 * 128 + 1 * (y 0).val = (y 0).val; rw [e0]; omega
  | ⟨1, _⟩ => show win6_3.index t 1 * 2 + 1 * (y 1).val = (y 1).val; rw [e1]; omega

/-- The second bias block at any point is the whole second bias array. -/
theorem bias2Block6 (c : Dev nD) (t : Fin cfg6.N) : (iblk6 V c 4 t : Vec Ideal S1x2 .f32) = (V c main_v57 : S1x2.Idx → EReal) := by
  obtain ⟨-, -, -, -, ⟨e0, e1⟩, -⟩ := blockIndex6 t
  funext y
  unfold iblk6
  rw [View.read_apply]
  show V c main_v57 (((cfg6.win 4).blk t).view.emb y) = V c main_v57 y
  refine congrArg _ ?_
  funext a
  apply Fin.ext
  match a with
  | ⟨0, _⟩ => show win6_4.index t 0 * 1 + 1 * (y 0).val = (y 0).val; rw [e0]; omega
  | ⟨1, _⟩ => show win6_4.index t 1 * 2 + 1 * (y 1).val = (y 1).val; rw [e1]; omega

/-- Entry `(r, q)` of the output block at point `t` is entry `(5000 t + r, q)` of the output array. -/
theorem outputBlock6 (t : Fin cfg6.N) (r : Fin 5000) (q : Fin 2) (i : Fin 50000) (hi : i.val = 5000 * t.val + r.val) :
    ((cfg6.win 5).blk t).view.emb (ix2 r q) = (ix2 i q : S50000x2.Idx) := by
  obtain ⟨-, -, -, -, -, e0, e1⟩ := blockIndex6 t
  funext a
  apply Fin.ext
  match a with
  | ⟨0, _⟩ => show win6_5.index t 0 * 5000 + 1 * r.val = i.val; rw [e0, hi]; omega
  | ⟨1, _⟩ => show win6_5.index t 1 * 2 + 1 * q.val = q.val; rw [e1]; omega

/-- What point `t` writes back is block `t` of the whole-array function. -/
theorem flushed6 (c : Dev nD) (t : Fin cfg6.N) :
    (dat6 V c).flushed 5 t = ((cfg6.win 5).blk t).view.read (Elt Ideal) (headAll6 V c) := by
  show (cfg6.win 5).cut (grid6.coords t) ((dat6 V c).after 5 t) = _
  rw [after6_5]
  unfold out6_5
  rw [View.canon_unit_zero zeroOffsets6]
  simp only [View.ld_unit_zero (S := S5000x128) zeroOffsets6, View.ld_unit_zero (S := S128x128) zeroOffsets6, View.ld_unit_zero (S := S1x128) zeroOffsets6, View.ld_unit_zero (S := S128x2) zeroOffsets6, View.ld_unit_zero (S := S1x2) zeroOffsets6]
  funext y
  obtain ⟨r, q, rfl⟩ : ∃ (r : Fin 5000) (q : Fin 2), y = ix2 r q := ⟨y 0, y 1, eq_ix2 y⟩
  have hi : 5000 * t.val + r.val < 50000 := by
    have ht := t.isLt
    have hN : cfg6.N = 10 := N_6
    omega
  rw [View.read_apply, outputBlock6 t r q ⟨5000 * t.val + r.val, hi⟩ rfl]
  exact payloadRow6 (V c main_v55) (V c main_arg37) (V c main_v56) (V c main_arg39) (V c main_v57)
    _ _ _ _ _ r ⟨5000 * t.val + r.val, hi⟩ q (nodeBlock6 V c t r _ rfl) (weight1Block6 V c t) (bias1Block6 V c t)
    (weight2Block6 V c t) (bias2Block6 V c t)

/-- An index of the output array lies in point `t`'s block iff each coordinate lies in the block's range on its axis. -/
theorem mem_block6 (t : Fin cfg6.N) (i : S50000x2.Idx) :
    i ∈ ((cfg6.win 5).blk t).view.set ↔ ∀ a : Fin 2, win6_5.index t a * S5000x2.size a ≤ (i a).val ∧ (i a).val < win6_5.index t a * S5000x2.size a + S5000x2.size a := by
  show i ∈ ((View.whole main_v58).slice (win6_5.rect t)).set ↔ _
  rw [View.set_slice_whole, Rect.mem_set_unit]
  exact Iff.rfl

/-- Every index of the output array is written: row `i` by point `i / 5000`. -/
theorem cover6 (i : S50000x2.Idx) : ∃ t : Fin cfg6.N, (cfg6.win 5).flush t = true ∧ i ∈ ((cfg6.win 5).blk t).view.set := by
  have h0 : (i 0).val < 50000 := (i 0).isLt
  have h1 : (i 1).val < 2 := (i 1).isLt
  have hN : cfg6.N = 10 := N_6
  obtain ⟨t, ht⟩ : ∃ t : Fin cfg6.N, t.val = (i 0).val / 5000 := ⟨⟨(i 0).val / 5000, by omega⟩, rfl⟩
  obtain ⟨-, -, -, -, -, e0, e1⟩ := blockIndex6 t
  refine ⟨t, flush6_5 t, ?_⟩
  rw [mem_block6]
  intro a
  match a with
  | ⟨0, _⟩ => show win6_5.index t 0 * 5000 ≤ (i 0).val ∧ (i 0).val < win6_5.index t 0 * 5000 + 5000; rw [e0, ht]; omega
  | ⟨1, _⟩ => show win6_5.index t 1 * 2 ≤ (i 1).val ∧ (i 1).val < win6_5.index t 1 * 2 + 2; rw [e1]; omega

/-- Row `i` of the array region 6 leaves in its output, in terms of the arrays the region finds at entry. -/
theorem region6_row (c : Dev nD) (i : Fin 50000) (j : Fin 2) :
    ((dat6 V c).arrAt 5 cfg6.N : S50000x2.Idx → EReal) (ix2 i j)
      = outRow (fun q => (V c main_v55 : S50000x128.Idx → EReal) (ix2 i q)) (fun p q => (V c main_arg37 : S128x128.Idx → EReal) (ix2 p q)) (fun q => (V c main_v56 : S1x128.Idx → EReal) (ix2 0 q))
          (fun p q => (V c main_arg39 : S128x2.Idx → EReal) (ix2 p q)) (fun q => (V c main_v57 : S1x2.Idx → EReal) (ix2 0 q)) j := by
  have h := (dat6 V c).arrAt_eq_of_cover 5 (headAll6 V c) (fun t _ => flushed6 V c t) cover6
  exact congrFun h (ix2 i j)

end Cert.KernelIdeal.Reg

end
-- ==== Proof.PayMsg.lean ====
import proofs.«412352_j55765855371830_1_alg».proof.Proof.Gen.KernelIdeal.Skeleton
import proofs.«412352_j55765855371830_1_alg».proof.Proof.Spec
import Idealize.ShloMosaic.PureOps.Ideal.Laws
import Idealize.ShloMosaic.Lib.ValueIdx
import Idealize.ShloMosaic.Lib.Pipeline.Value
import Idealize.ShloMosaic.Lib.ValueLayout

/-! Row `e` of a message kernel's block is `msgRow` of row `e` of its two gathered blocks and of its weights (both message launches). -/

noncomputable section

namespace Cert.KernelIdeal.Pay

open Idealize.ShloMosaic Idealize.ShloMosaic.TcCoe Idealize.ShloMosaic.ValueIdx
open Cert.KernelIdeal Cert.KernelIdeal.Gen Cert.Spec

/-! ### The product S5000x128 by S128x128: each operand index of the contraction, coordinate by coordinate -/

private theorem lhs_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, read at row `r`, column `c`: the inner product of row `r` of the left
    operand with column `c` of the right one. -/
private theorem mm_128_128 {φ₁ φ₂ : FTy} (a : FVec Ideal S5000x128 φ₁) (w : FVec Ideal S128x128 φ₂) (r : Fin 5000) (c : Fin 128) :
    matmul dot_S5000x128_S128x128_S5000x128_1_0_0_1_n_n none a w (constant (F := Ideal) S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r c) ((contrEquiv1 dot_S5000x128_S128x128_S5000x128_1_0_0_1_n_n 128 rfl rfl).symm k) = ix2 r k := funext fun x => Fin.ext (by
    match x with
    | ⟨0, _⟩ => exact lhs_128_128_0 _ _
    | ⟨1, _⟩ => exact (lhs_128_128_1 _ _).trans hk)
  have er : dot_S5000x128_S128x128_S5000x128_1_0_0_1_n_n.rhsIdx (ix2 r c) ((contrEquiv1 dot_S5000x128_S128x128_S5000x128_1_0_0_1_n_n 128 rfl rfl).symm k) = ix2 k c := funext fun x => Fin.ext (by
    match x with
    | ⟨0, _⟩ => exact (rhs_128_128_0 _ _).trans hk
    | ⟨1, _⟩ => exact rhs_128_128_1 _ _)
  rw [el, er]

/-! ### Layout operations of the bodies, read at a row and a column -/

/-- A `[1, 128]` row laid under every one of the 5000 rows reads, at `(r, q)`, the row's entry `q`. -/
private theorem row_bcast (b : FVec Ideal S1x128 .f32) (h : S1x128.Broadcasts S5000x128) (r : Fin 5000) (q : Fin 128) :
    broadcastTo S5000x128 b h (ix2 r q) = b (ix2 0 q) :=
  broadcastTo_1b_ab_apply b h r q

/-- A `[1, 1]` scalar spread over the whole `[5000, 128]` block reads its one entry everywhere. -/
private theorem scalar_bcast (s : FVec Ideal S1x1 .f32) (h : S1x1.Broadcasts S5000x128) (r : Fin 5000) (q : Fin 128) :
    broadcastTo S5000x128 s h (ix2 r q) = s (ix2 0 0) := by
  refine broadcastTo_apply s h (ix2 r q) (ix2 (0 : Fin 1) (0 : Fin 1)) fun ax => ?_
  match ax with
  | ⟨0, _⟩ => rfl
  | ⟨1, _⟩ => rfl

/-- The zero the bodies clamp at. -/
private theorem zero_f32 : (FloatOps.ofBits (F := Ideal) .f32 0x00000000#32) = (0 : EReal) := by
  rw [Ideal.ofBits_def, Ideal.ofBits_zero_f32]

/-! ### The message body at a row and a column

Over the extended reals the roundings to the narrow format are the identity, each of the three products is an inner
product of a row with a column, and the two row biases and the scalar scale read their one row or entry; what is left
is `msgRow` written out: `((r·wl + bl) + l·wr) * sf`, clamped at zero, then `·wf + bf`. -/

theorem k2_pay1_row (l r : Vec Ideal S5000x128 .f32) (wl wr : Vec Ideal S128x128 .f32) (bl : Vec Ideal S1x128 .f32)
    (sf : Vec Ideal S1x1 .f32) (wf : Vec Ideal S128x128 .f32) (bf : Vec Ideal S1x128 .f32) (e : Fin 5000) (c : Fin 128) :
    k2_pay1 (F := Ideal) l r wl wr bl sf wf bf (ix2 e c)
      = msgRow (fun q => l (ix2 e q)) (fun q => r (ix2 e q)) (fun p q => wl (ix2 p q)) (fun q => bl (ix2 0 q))
          (fun p q => wr (ix2 p q)) (sf (ix2 0 0)) (fun p q => wf (ix2 p q)) (fun q => bf (ix2 0 q)) c := by
  unfold k2_pay1 Cert.Spec.msgRow Cert.Spec.lin
  simp only [maximumf_apply, addf_apply, mulf_apply, broadcast_apply, truncf_apply, mm_128_128, shapeCast_self, row_bcast,
    scalar_bcast, zero_f32]

theorem k4_pay1_row (l r : Vec Ideal S5000x128 .f32) (wl wr : Vec Ideal S128x128 .f32) (bl : Vec Ideal S1x128 .f32)
    (sf : Vec Ideal S1x1 .f32) (wf : Vec Ideal S128x128 .f32) (bf : Vec Ideal S1x128 .f32) (e : Fin 5000) (c : Fin 128) :
    k4_pay1 (F := Ideal) l r wl wr bl sf wf bf (ix2 e c)
      = msgRow (fun q => l (ix2 e q)) (fun q => r (ix2 e q)) (fun p q => wl (ix2 p q)) (fun q => bl (ix2 0 q))
          (fun p q => wr (ix2 p q)) (sf (ix2 0 0)) (fun p q => wf (ix2 p q)) (fun q => bf (ix2 0 q)) c :=
  -- the second message body is the first one, term for term
  k2_pay1_row l r wl wr bl sf wf bf e c

end Cert.KernelIdeal.Pay

end
-- ==== Proof.Reg4.lean ====
import proofs.«412352_j55765855371830_1_alg».proof.Proof.Gen.KernelIdeal.Frame
import proofs.«412352_j55765855371830_1_alg».proof.Proof.Spec
import proofs.«412352_j55765855371830_1_alg».proof.Proof.PayMsg
import Idealize.ShloMosaic.Lib.ValueIdx
import Idealize.ShloMosaic.Lib.Pipeline.Value

/-! Region 4 (the message launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The zero offsets of a whole-buffer rectangle, as the constant function. -/
private theorem hz4 : (![0, 0] : Fin 2 → Nat) = fun _ => 0 := funext fun a => by fin_cases a <;> rfl

/-- The block indices over the grid, decided once: the two gathered operands and the output move one block of 5000 rows per
    point; every weight, bias and scale window stays at block (0, 0). -/
private theorem bidx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0)
    ∧ (win4_8.index t (0 : Fin 2) = t.val ∧ win4_8.index t (1 : Fin 2) = 0) :=
  (by decide +kernel : ∀ t : Fin grid4.N, _)

/-- The whole output array as one function of the arrays at entry: entry (i, j) is the message of edge i at column j. -/
private def G4 (c : Dev nD) : S600000x128.Idx → EReal := fun j =>
  msgRow (fun q => (V c main_v35 : S600000x128.Idx → EReal) (ix2 (j 0) q)) (fun q => (V c main_v36 : S600000x128.Idx → EReal) (ix2 (j 0) q))
          (fun p q => (V c main_arg26 : S128x128.Idx → EReal) (ix2 p q)) (fun q => (V c main_v37 : S1x128.Idx → EReal) (ix2 0 q))
          (fun p q => (V c main_arg28 : S128x128.Idx → EReal) (ix2 p q)) ((V c main_v39 : S1x1.Idx → EReal) (ix2 0 0))
          (fun p q => (V c main_arg30 : S128x128.Idx → EReal) (ix2 p q)) (fun q => (V c main_v38 : S1x128.Idx → EReal) (ix2 0 q)) (j 1)

/-- The message row is a function of its eight operands. -/
private theorem msgRow_congr {l l' r r' : Fin 128 → EReal} {wl wl' wr wr' wf wf' : Fin 128 → Fin 128 → EReal} {bl bl' bf bf' : Fin 128 → EReal}
    {sf sf' : EReal} (h0 : l = l') (h1 : r = r') (h2 : wl = wl') (h3 : bl = bl') (h4 : wr = wr') (h5 : sf = sf') (h6 : wf = wf')
    (h7 : bf = bf') (q : Fin 128) : msgRow l r wl bl wr sf wf bf q = msgRow l' r' wl' bl' wr' sf' wf' bf' q := by
  subst h0 h1 h2 h3 h4 h5 h6 h7; rfl

/-- Row `r` of the first gathered operand's block at point `t` is row `5000 t + r` of its array: an element of a block sits at
    block index × block size + its coordinate inside the block, on each axis. -/
private theorem blk4_0_row (c : Dev nD) (t : Fin cfg4.N) (r : Fin 5000) (i : Fin 600000) (hi : i.val = 5000 * t.val + r.val) :
    (fun q : Fin 128 => (iblk4 V c 0 t : Vec Ideal S5000x128 .f32) (ix2 r q))
      = fun q : Fin 128 => (V c main_v35 : S600000x128.Idx → EReal) (ix2 i q) := by
  funext q
  unfold iblk4
  rw [View.read_apply]
  show V c main_v35 _ = V c main_v35 _
  congr 1
  funext a
  apply Fin.ext
  match a with
  | ⟨0, _⟩ => show win4_0.index t (0 : Fin 2) * 5000 + 1 * r.val = i.val; rw [(bidx4 t).1.1, hi]; omega
  | ⟨1, _⟩ => show win4_0.index t (1 : Fin 2) * 128 + 1 * q.val = q.val; rw [(bidx4 t).1.2]; omega

/-- The same for the second gathered operand. -/
private theorem blk4_1_row (c : Dev nD) (t : Fin cfg4.N) (r : Fin 5000) (i : Fin 600000) (hi : i.val = 5000 * t.val + r.val) :
    (fun q : Fin 128 => (iblk4 V c 1 t : Vec Ideal S5000x128 .f32) (ix2 r q))
      = fun q : Fin 128 => (V c main_v36 : S600000x128.Idx → EReal) (ix2 i q) := by
  funext q
  unfold iblk4
  rw [View.read_apply]
  show V c main_v36 _ = V c main_v36 _
  congr 1
  funext a
  apply Fin.ext
  match a with
  | ⟨0, _⟩ => show win4_1.index t (0 : Fin 2) * 5000 + 1 * r.val = i.val; rw [(bidx4 t).2.1.1, hi]; omega
  | ⟨1, _⟩ => show win4_1.index t (1 : Fin 2) * 128 + 1 * q.val = q.val; rw [(bidx4 t).2.1.2]; omega

/-- A weight window's block at any point is the whole weight array (block index (0, 0), block size the array's). -/
private theorem blk4_2_all (c : Dev nD) (t : Fin cfg4.N) :
    (fun (p q : Fin 128) => (iblk4 V c 2 t : Vec Ideal S128x128 .f32) (ix2 p q))
      = fun (p q : Fin 128) => (V c main_arg26 : S128x128.Idx → EReal) (ix2 p q) := by
  funext p q
  unfold iblk4
  rw [View.read_apply]
  show V c main_arg26 _ = V c main_arg26 _
  congr 1
  funext a
  apply Fin.ext
  match a with
  | ⟨0, _⟩ => show win4_2.index t (0 : Fin 2) * 128 + 1 * p.val = p.val; rw [(bidx4 t).2.2.1.1]; omega
  | ⟨1, _⟩ => show win4_2.index t (1 : Fin 2) * 128 + 1 * q.val = q.val; rw [(bidx4 t).2.2.1.2]; omega

/-- The bias row of the first affine map. -/
private theorem blk4_3_all (c : Dev nD) (t : Fin cfg4.N) :
    (fun (q : Fin 128) => (iblk4 V c 3 t : Vec Ideal S1x128 .f32) (ix2 0 q))
      = fun (q : Fin 128) => (V c main_v37 : S1x128.Idx → EReal) (ix2 0 q) := by
  funext q
  unfold iblk4
  rw [View.read_apply]
  show V c main_v37 _ = V c main_v37 _
  congr 1
  funext a
  apply Fin.ext
  match a with
  | ⟨0, _⟩ => show win4_3.index t (0 : Fin 2) * 1 + 1 * 0 = 0; rw [(bidx4 t).2.2.2.1.1]
  | ⟨1, _⟩ => show win4_3.index t (1 : Fin 2) * 128 + 1 * q.val = q.val; rw [(bidx4 t).2.2.2.1.2]; omega

/-- The second weight matrix. -/
private theorem blk4_4_all (c : Dev nD) (t : Fin cfg4.N) :
    (fun (p q : Fin 128) => (iblk4 V c 4 t : Vec Ideal S128x128 .f32) (ix2 p q))
      = fun (p q : Fin 128) => (V c main_arg28 : S128x128.Idx → EReal) (ix2 p q) := by
  funext p q
  unfold iblk4
  rw [View.read_apply]
  show V c main_arg28 _ = V c main_arg28 _
  congr 1
  funext a
  apply Fin.ext
  match a with
  | ⟨0, _⟩ => show win4_4.index t (0 : Fin 2) * 128 + 1 * p.val = p.val; rw [(bidx4 t).2.2.2.2.1.1]; omega
  | ⟨1, _⟩ => show win4_4.index t (1 : Fin 2) * 128 + 1 * q.val = q.val; rw [(bidx4 t).2.2.2.2.1.2]; omega

/-- The scalar scale. -/
private theorem blk4_5_all (c : Dev nD) (t : Fin cfg4.N) :
    (iblk4 V c 5 t : Vec Ideal S1x1 .f32) (ix2 0 0) = (V c main_v39 : S1x1.Idx → EReal) (ix2 0 0) := by
  unfold iblk4
  rw [View.read_apply]
  show V c main_v39 _ = V c main_v39 _
  congr 1
  funext a
  apply Fin.ext
  match a with
  | ⟨0, _⟩ => show win4_5.index t (0 : Fin 2) * 1 + 1 * 0 = 0; rw [(bidx4 t).2.2.2.2.2.1.1]
  | ⟨1, _⟩ => show win4_5.index t (1 : Fin 2) * 1 + 1 * 0 = 0; rw [(bidx4 t).2.2.2.2.2.1.2]

/-- The final weight matrix. -/
private theorem blk4_6_all (c : Dev nD) (t : Fin cfg4.N) :
    (fun (p q : Fin 128) => (iblk4 V c 6 t : Vec Ideal S128x128 .f32) (ix2 p q))
      = fun (p q : Fin 128) => (V c main_arg30 : S128x128.Idx → EReal) (ix2 p q) := by
  funext p q
  unfold iblk4
  rw [View.read_apply]
  show V c main_arg30 _ = V c main_arg30 _
  congr 1
  funext a
  apply Fin.ext
  match a with
  | ⟨0, _⟩ => show win4_6.index t (0 : Fin 2) * 128 + 1 * p.val = p.val; rw [(bidx4 t).2.2.2.2.2.2.1.1]; omega
  | ⟨1, _⟩ => show win4_6.index t (1 : Fin 2) * 128 + 1 * q.val = q.val; rw [(bidx4 t).2.2.2.2.2.2.1.2]; omega

/-- The final bias row. -/
private theorem blk4_7_all (c : Dev nD) (t : Fin cfg4.N) :
    (fun (q : Fin 128) => (iblk4 V c 7 t : Vec Ideal S1x128 .f32) (ix2 0 q))
      = fun (q : Fin 128) => (V c main_v38 : S1x128.Idx → EReal) (ix2 0 q) := by
  funext q
  unfold iblk4
  rw [View.read_apply]
  show V c main_v38 _ = V c main_v38 _
  congr 1
  funext a
  apply Fin.ext
  match a with
  | ⟨0, _⟩ => show win4_7.index t (0 : Fin 2) * 1 + 1 * 0 = 0; rw [(bidx4 t).2.2.2.2.2.2.2.1.1]
  | ⟨1, _⟩ => show win4_7.index t (1 : Fin 2) * 128 + 1 * q.val = q.val; rw [(bidx4 t).2.2.2.2.2.2.2.1.2]; omega

/-- Element (r, q) of the output's block at point `t` sits at (5000 t + r, q) of the output array. -/
private theorem emb4_8 (t : Fin cfg4.N) (r : Fin 5000) (q : Fin 128) (i : Fin 600000) (hi : i.val = 5000 * t.val + r.val) :
    ((cfg4.win 8).blk t).view.emb (ix2 r q) = (ix2 i q : S600000x128.Idx) := by
  funext a
  apply Fin.ext
  match a with
  | ⟨0, _⟩ => show win4_8.index t (0 : Fin 2) * 5000 + 1 * r.val = i.val; rw [(bidx4 t).2.2.2.2.2.2.2.2.1, hi]; omega
  | ⟨1, _⟩ => show win4_8.index t (1 : Fin 2) * 128 + 1 * q.val = q.val; rw [(bidx4 t).2.2.2.2.2.2.2.2.2]; omega

/-- What point `t` writes back is block `t` of `G4`: the body stores one whole block, the message kernel's payload of the
    input blocks; row `r` of it is the message row of row `r` of the two gathered blocks, which are rows `5000 t + r` of
    their arrays. -/
private theorem flushed4_eq (c : Dev nD) (t : Fin cfg4.N) :
    (dat4 V c).flushed 8 t = ((cfg4.win 8).blk t).view.read (Elt Ideal) (G4 V c) := by
  show (cfg4.win 8).cut (grid4.coords t) ((dat4 V c).after 8 t) = _
  rw [after4_8]
  unfold out4_8
  rw [View.canon_unit_zero hz4]
  simp only [View.ld_unit_zero (S := S5000x128) hz4, View.ld_unit_zero (S := S128x128) hz4, View.ld_unit_zero (S := S1x128) hz4, View.ld_unit_zero (S := S1x1) hz4]
  funext y
  obtain ⟨r, q, rfl⟩ : ∃ (r : Fin 5000) (q : Fin 128), y = ix2 r q := ⟨y 0, y 1, eq_ix2 y⟩
  have hN : cfg4.N = 120 := N_4
  have ht : t.val < 120 := hN ▸ t.isLt
  have hi : (⟨5000 * t.val + r.val, by have := r.isLt; omega⟩ : Fin 600000).val = 5000 * t.val + r.val := rfl
  refine (Pay.k4_pay1_row (iblk4 V c 0 t) (iblk4 V c 1 t) (iblk4 V c 2 t) (iblk4 V c 4 t) (iblk4 V c 3 t) (iblk4 V c 5 t) (iblk4 V c 6 t) (iblk4 V c 7 t) r q).trans ?_
  show _ = G4 V c (((cfg4.win 8).blk t).view.emb (ix2 r q))
  rw [emb4_8 t r q _ hi]
  exact msgRow_congr (blk4_0_row V c t r _ hi) (blk4_1_row V c t r _ hi) (blk4_2_all V c t) (blk4_3_all V c t) (blk4_4_all V c t)
    (blk4_5_all V c t) (blk4_6_all V c t) (blk4_7_all V c t) q

/-- An index of the output array is in point `t`'s block iff each coordinate is in the block's range on its axis. -/
private theorem mem_blk4 (t : Fin cfg4.N) (i : S600000x128.Idx) :
    i ∈ ((cfg4.win 8).blk t).view.set ↔ ∀ a : Fin 2, win4_8.index t a * S5000x128.size a ≤ (i a).val ∧ (i a).val < win4_8.index t a * S5000x128.size a + S5000x128.size a := by
  show i ∈ ((View.whole main_v40).slice (win4_8.rect t)).set ↔ _
  rw [View.set_slice_whole, Rect.mem_set_unit]
  exact Iff.rfl

/-- The blocks cover the output array: row `i` is in the block of point `i / 5000`. -/
private theorem cover4 (i : S600000x128.Idx) : ∃ t : Fin cfg4.N, (cfg4.win 8).flush t = true ∧ i ∈ ((cfg4.win 8).blk t).view.set := by
  have hN : cfg4.N = 120 := N_4
  have h0 : (i 0).val < 600000 := idx2_lt0 i
  have h1 : (i 1).val < 128 := idx2_lt1 i
  refine ⟨⟨(i 0).val / 5000, by omega⟩, flush4_8 _, ?_⟩
  rw [mem_blk4]
  intro a
  match a with
  | ⟨0, _⟩ =>
    show win4_8.index _ (0 : Fin 2) * 5000 ≤ (i 0).val ∧ (i 0).val < win4_8.index _ (0 : Fin 2) * 5000 + 5000
    rw [(bidx4 _).2.2.2.2.2.2.2.2.1]
    show (i 0).val / 5000 * 5000 ≤ (i 0).val ∧ (i 0).val < (i 0).val / 5000 * 5000 + 5000
    omega
  | ⟨1, _⟩ =>
    show win4_8.index _ (1 : Fin 2) * 128 ≤ (i 1).val ∧ (i 1).val < win4_8.index _ (1 : Fin 2) * 128 + 128
    rw [(bidx4 _).2.2.2.2.2.2.2.2.2]
    omega

/-- So the output array after the region is `G4` of the arrays at entry. -/
private theorem final4 (c : Dev nD) : (dat4 V c).arrAt 8 cfg4.N = G4 V c :=
  (dat4 V c).arrAt_eq_of_cover 8 (G4 V c) (fun t _ => flushed4_eq V c t) cover4

/-- Row `i` of the array region 4 leaves in its output, in terms of the arrays the region finds at entry. -/
theorem region4_row (c : Dev nD) (i : Fin 600000) (j : Fin 128) :
    ((dat4 V c).arrAt 8 cfg4.N : S600000x128.Idx → EReal) (ix2 i j)
      = msgRow (fun q => (V c main_v35 : S600000x128.Idx → EReal) (ix2 i q)) (fun q => (V c main_v36 : S600000x128.Idx → EReal) (ix2 i q))
          (fun p q => (V c main_arg26 : S128x128.Idx → EReal) (ix2 p q)) (fun q => (V c main_v37 : S1x128.Idx → EReal) (ix2 0 q))
          (fun p q => (V c main_arg28 : S128x128.Idx → EReal) (ix2 p q)) ((V c main_v39 : S1x1.Idx → EReal) (ix2 0 0))
          (fun p q => (V c main_arg30 : S128x128.Idx → EReal) (ix2 p q)) (fun q => (V c main_v38 : S1x128.Idx → EReal) (ix2 0 q)) j := by
  rw [final4 V c]
  rfl

end Cert.KernelIdeal.Reg

end
-- ==== Proof.Reg3.lean ====
import proofs.«412352_j55765855371830_1_alg».proof.Proof.Gen.KernelIdeal.Frame
import proofs.«412352_j55765855371830_1_alg».proof.Proof.Spec
import proofs.«412352_j55765855371830_1_alg».proof.Proof.PayPost
import Idealize.ShloMosaic.Lib.ValueIdx
import Idealize.ShloMosaic.Lib.Pipeline.Value

/-! Region 3 (the node-update launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The zero offsets of a whole-buffer rectangle, as the constant function. -/
private theorem hz3 : (![0, 0] : Fin 2 → Nat) = fun _ => 0 := funext fun a => by fin_cases a <;> rfl

/-- The block indices over the grid, decided once: the aggregate, the nodes' own rows and the output move one block of 5000 rows
    per point; every weight, bias and scale window stays at block (0, 0). -/
private theorem bidx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

/-- The whole output array as one function of the arrays at entry: entry (i, j) is the update of node i at column j. -/
private def G3 (c : Dev nD) : S100000x128.Idx → EReal := fun j =>
  postRow (fun q => (V c main_v30 : S100000x128.Idx → EReal) (ix2 (j 0) q)) (fun q => (V c main_v9 : S100000x128.Idx → EReal) (ix2 (j 0) q)) ((V c main_v31 : S1x1.Idx → EReal) (ix2 0 0))
          (fun p q => (V c main_arg22 : S256x128.Idx → EReal) (ix2 p q)) (fun q => (V c main_v32 : S1x128.Idx → EReal) (ix2 0 q))
          (fun p q => (V c main_arg24 : S128x128.Idx → EReal) (ix2 p q)) (fun q => (V c main_v33 : S1x128.Idx → EReal) (ix2 0 q)) (j 1)

/-- The node-update row is a function of its seven operands. -/
private theorem postRow_congr {agg agg' own own' : Fin 128 → EReal} {sp sp' : EReal} {wo1 wo1' : Fin 256 → Fin 128 → EReal}
    {bo1 bo1' bo2 bo2' : Fin 128 → EReal} {wo2 wo2' : Fin 128 → Fin 128 → EReal}
    (h0 : agg = agg') (h1 : own = own') (h2 : sp = sp') (h3 : wo1 = wo1') (h4 : bo1 = bo1') (h5 : wo2 = wo2') (h6 : bo2 = bo2')
    (q : Fin 128) : postRow agg own sp wo1 bo1 wo2 bo2 q = postRow agg' own' sp' wo1' bo1' wo2' bo2' q := by
  subst h0 h1 h2 h3 h4 h5 h6; rfl

/-- Row `r` of the aggregate's block at point `t` is row `5000 t + r` of its array: an element of a block sits at
    block index × block size + its coordinate inside the block, on each axis. -/
private theorem blk3_0_row (c : Dev nD) (t : Fin cfg3.N) (r : Fin 5000) (i : Fin 100000) (hi : i.val = 5000 * t.val + r.val) :
    (fun q : Fin 128 => (iblk3 V c 0 t : Vec Ideal S5000x128 .f32) (ix2 r q))
      = fun q : Fin 128 => (V c main_v30 : S100000x128.Idx → EReal) (ix2 i q) := by
  funext q
  unfold iblk3
  rw [View.read_apply]
  show V c main_v30 _ = V c main_v30 _
  congr 1
  funext a
  apply Fin.ext
  match a with
  | ⟨0, _⟩ => show win3_0.index t (0 : Fin 2) * 5000 + 1 * r.val = i.val; rw [(bidx3 t).1.1, hi]; omega
  | ⟨1, _⟩ => show win3_0.index t (1 : Fin 2) * 128 + 1 * q.val = q.val; rw [(bidx3 t).1.2]; omega

/-- The same for the nodes' own rows. -/
private theorem blk3_1_row (c : Dev nD) (t : Fin cfg3.N) (r : Fin 5000) (i : Fin 100000) (hi : i.val = 5000 * t.val + r.val) :
    (fun q : Fin 128 => (iblk3 V c 1 t : Vec Ideal S5000x128 .f32) (ix2 r q))
      = fun q : Fin 128 => (V c main_v9 : S100000x128.Idx → EReal) (ix2 i q) := by
  funext q
  unfold iblk3
  rw [View.read_apply]
  show V c main_v9 _ = V c main_v9 _
  congr 1
  funext a
  apply Fin.ext
  match a with
  | ⟨0, _⟩ => show win3_1.index t (0 : Fin 2) * 5000 + 1 * r.val = i.val; rw [(bidx3 t).2.1.1, hi]; omega
  | ⟨1, _⟩ => show win3_1.index t (1 : Fin 2) * 128 + 1 * q.val = q.val; rw [(bidx3 t).2.1.2]; omega

/-- The scalar scale: its window's block at any point is the whole array (block index (0, 0), block size the array's). -/
private theorem blk3_2_all (c : Dev nD) (t : Fin cfg3.N) :
    (iblk3 V c 2 t : Vec Ideal S1x1 .f32) (ix2 0 0) = (V c main_v31 : S1x1.Idx → EReal) (ix2 0 0) := by
  unfold iblk3
  rw [View.read_apply]
  show V c main_v31 _ = V c main_v31 _
  congr 1
  funext a
  apply Fin.ext
  match a with
  | ⟨0, _⟩ => show win3_2.index t (0 : Fin 2) * 1 + 1 * 0 = 0; rw [(bidx3 t).2.2.1.1]
  | ⟨1, _⟩ => show win3_2.index t (1 : Fin 2) * 1 + 1 * 0 = 0; rw [(bidx3 t).2.2.1.2]

/-- The first weight matrix (256 rows). -/
private theorem blk3_3_all (c : Dev nD) (t : Fin cfg3.N) :
    (fun (p : Fin 256) (q : Fin 128) => (iblk3 V c 3 t : Vec Ideal S256x128 .f32) (ix2 p q))
      = fun (p : Fin 256) (q : Fin 128) => (V c main_arg22 : S256x128.Idx → EReal) (ix2 p q) := by
  funext p q
  unfold iblk3
  rw [View.read_apply]
  show V c main_arg22 _ = V c main_arg22 _
  congr 1
  funext a
  apply Fin.ext
  match a with
  | ⟨0, _⟩ => show win3_3.index t (0 : Fin 2) * 256 + 1 * p.val = p.val; rw [(bidx3 t).2.2.2.1.1]; omega
  | ⟨1, _⟩ => show win3_3.index t (1 : Fin 2) * 128 + 1 * q.val = q.val; rw [(bidx3 t).2.2.2.1.2]; omega

/-- The first bias row. -/
private theorem blk3_4_all (c : Dev nD) (t : Fin cfg3.N) :
    (fun (q : Fin 128) => (iblk3 V c 4 t : Vec Ideal S1x128 .f32) (ix2 0 q))
      = fun (q : Fin 128) => (V c main_v32 : S1x128.Idx → EReal) (ix2 0 q) := by
  funext q
  unfold iblk3
  rw [View.read_apply]
  show V c main_v32 _ = V c main_v32 _
  congr 1
  funext a
  apply Fin.ext
  match a with
  | ⟨0, _⟩ => show win3_4.index t (0 : Fin 2) * 1 + 1 * 0 = 0; rw [(bidx3 t).2.2.2.2.1.1]
  | ⟨1, _⟩ => show win3_4.index t (1 : Fin 2) * 128 + 1 * q.val = q.val; rw [(bidx3 t).2.2.2.2.1.2]; omega

/-- The second weight matrix. -/
private theorem blk3_5_all (c : Dev nD) (t : Fin cfg3.N) :
    (fun (p q : Fin 128) => (iblk3 V c 5 t : Vec Ideal S128x128 .f32) (ix2 p q))
      = fun (p q : Fin 128) => (V c main_arg24 : S128x128.Idx → EReal) (ix2 p q) := by
  funext p q
  unfold iblk3
  rw [View.read_apply]
  show V c main_arg24 _ = V c main_arg24 _
  congr 1
  funext a
  apply Fin.ext
  match a with
  | ⟨0, _⟩ => show win3_5.index t (0 : Fin 2) * 128 + 1 * p.val = p.val; rw [(bidx3 t).2.2.2.2.2.1.1]; omega
  | ⟨1, _⟩ => show win3_5.index t (1 : Fin 2) * 128 + 1 * q.val = q.val; rw [(bidx3 t).2.2.2.2.2.1.2]; omega

/-- The second bias row. -/
private theorem blk3_6_all (c : Dev nD) (t : Fin cfg3.N) :
    (fun (q : Fin 128) => (iblk3 V c 6 t : Vec Ideal S1x128 .f32) (ix2 0 q))
      = fun (q : Fin 128) => (V c main_v33 : S1x128.Idx → EReal) (ix2 0 q) := by
  funext q
  unfold iblk3
  rw [View.read_apply]
  show V c main_v33 _ = V c main_v33 _
  congr 1
  funext a
  apply Fin.ext
  match a with
  | ⟨0, _⟩ => show win3_6.index t (0 : Fin 2) * 1 + 1 * 0 = 0; rw [(bidx3 t).2.2.2.2.2.2.1.1]
  | ⟨1, _⟩ => show win3_6.index t (1 : Fin 2) * 128 + 1 * q.val = q.val; rw [(bidx3 t).2.2.2.2.2.2.1.2]; omega

/-- Element (r, q) of the output's block at point `t` sits at (5000 t + r, q) of the output array. -/
private theorem emb3_7 (t : Fin cfg3.N) (r : Fin 5000) (q : Fin 128) (i : Fin 100000) (hi : i.val = 5000 * t.val + r.val) :
    ((cfg3.win 7).blk t).view.emb (ix2 r q) = (ix2 i q : S100000x128.Idx) := by
  funext a
  apply Fin.ext
  match a with
  | ⟨0, _⟩ => show win3_7.index t (0 : Fin 2) * 5000 + 1 * r.val = i.val; rw [(bidx3 t).2.2.2.2.2.2.2.1, hi]; omega
  | ⟨1, _⟩ => show win3_7.index t (1 : Fin 2) * 128 + 1 * q.val = q.val; rw [(bidx3 t).2.2.2.2.2.2.2.2]; omega

/-- What point `t` writes back is block `t` of `G3`: the body stores one whole block, the node-update kernel's payload of the
    input blocks; row `r` of it is the update row of row `r` of the aggregate's and the own rows' blocks, which are rows
    `5000 t + r` of their arrays. -/
private theorem flushed3_eq (c : Dev nD) (t : Fin cfg3.N) :
    (dat3 V c).flushed 7 t = ((cfg3.win 7).blk t).view.read (Elt Ideal) (G3 V c) := by
  show (cfg3.win 7).cut (grid3.coords t) ((dat3 V c).after 7 t) = _
  rw [after3_7]
  unfold out3_7
  rw [View.canon_unit_zero hz3]
  simp only [View.ld_unit_zero (S := S5000x128) hz3, View.ld_unit_zero (S := S128x128) hz3, View.ld_unit_zero (S := S256x128) hz3, View.ld_unit_zero (S := S1x128) hz3, View.ld_unit_zero (S := S1x1) hz3]
  funext y
  obtain ⟨r, q, rfl⟩ : ∃ (r : Fin 5000) (q : Fin 128), y = ix2 r q := ⟨y 0, y 1, eq_ix2 y⟩
  have hN : cfg3.N = 20 := N_3
  have ht : t.val < 20 := hN ▸ t.isLt
  have hi : (⟨5000 * t.val + r.val, by have := r.isLt; omega⟩ : Fin 100000).val = 5000 * t.val + r.val := rfl
  refine (Pay.k3_pay1_row (iblk3 V c 0 t) (iblk3 V c 2 t) (iblk3 V c 1 t) (iblk3 V c 3 t) (iblk3 V c 4 t) (iblk3 V c 5 t) (iblk3 V c 6 t) r q).trans ?_
  show _ = G3 V c (((cfg3.win 7).blk t).view.emb (ix2 r q))
  rw [emb3_7 t r q _ hi]
  exact postRow_congr (blk3_0_row V c t r _ hi) (blk3_1_row V c t r _ hi) (blk3_2_all V c t) (blk3_3_all V c t) (blk3_4_all V c t)
    (blk3_5_all V c t) (blk3_6_all V c t) q

/-- An index of the output array is in point `t`'s block iff each coordinate is in the block's range on its axis. -/
private theorem mem_blk3 (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v34).slice (win3_7.rect t)).set ↔ _
  rw [View.set_slice_whole, Rect.mem_set_unit]
  exact Iff.rfl

/-- The blocks cover the output array: row `i` is in the block of point `i / 5000`. -/
private theorem cover3 (i : S100000x128.Idx) : ∃ t : Fin cfg3.N, (cfg3.win 7).flush t = true ∧ i ∈ ((cfg3.win 7).blk t).view.set := by
  have hN : cfg3.N = 20 := N_3
  have h0 : (i 0).val < 100000 := idx2_lt0 i
  have h1 : (i 1).val < 128 := idx2_lt1 i
  refine ⟨⟨(i 0).val / 5000, by omega⟩, flush3_7 _, ?_⟩
  rw [mem_blk3]
  intro a
  match a with
  | ⟨0, _⟩ =>
    show win3_7.index _ (0 : Fin 2) * 5000 ≤ (i 0).val ∧ (i 0).val < win3_7.index _ (0 : Fin 2) * 5000 + 5000
    rw [(bidx3 _).2.2.2.2.2.2.2.1]
    show (i 0).val / 5000 * 5000 ≤ (i 0).val ∧ (i 0).val < (i 0).val / 5000 * 5000 + 5000
    omega
  | ⟨1, _⟩ =>
    show win3_7.index _ (1 : Fin 2) * 128 ≤ (i 1).val ∧ (i 1).val < win3_7.index _ (1 : Fin 2) * 128 + 128
    rw [(bidx3 _).2.2.2.2.2.2.2.2]
    omega

/-- So the output array after the region is `G3` of the arrays at entry. -/
private theorem final3 (c : Dev nD) : (dat3 V c).arrAt 7 cfg3.N = G3 V c :=
  (dat3 V c).arrAt_eq_of_cover 7 (G3 V c) (fun t _ => flushed3_eq V c t) cover3

/-- Row `i` of the array region 3 leaves in its output, in terms of the arrays the region finds at entry. -/
theorem region3_row (c : Dev nD) (i : Fin 100000) (j : Fin 128) :
    ((dat3 V c).arrAt 7 cfg3.N : S100000x128.Idx → EReal) (ix2 i j)
      = postRow (fun q => (V c main_v30 : S100000x128.Idx → EReal) (ix2 i q)) (fun q => (V c main_v9 : S100000x128.Idx → EReal) (ix2 i q)) ((V c main_v31 : S1x1.Idx → EReal) (ix2 0 0))
          (fun p q => (V c main_arg22 : S256x128.Idx → EReal) (ix2 p q)) (fun q => (V c main_v32 : S1x128.Idx → EReal) (ix2 0 q))
          (fun p q => (V c main_arg24 : S128x128.Idx → EReal) (ix2 p q)) (fun q => (V c main_v33 : S1x128.Idx → EReal) (ix2 0 q)) j := by
  rw [final3 V c]
  rfl

end Cert.KernelIdeal.Reg

end
-- ==== Proof.Reg2.lean ====
import proofs.«412352_j55765855371830_1_alg».proof.Proof.Gen.KernelIdeal.Frame
import proofs.«412352_j55765855371830_1_alg».proof.Proof.Spec
import proofs.«412352_j55765855371830_1_alg».proof.Proof.PayMsg
import Idealize.ShloMosaic.Lib.ValueIdx
import Idealize.ShloMosaic.Lib.Pipeline.Value

/-! Region 2 (the message launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The zero offsets of a whole-buffer rectangle, as the constant function. -/
private theorem hz2 : (![0, 0] : Fin 2 → Nat) = fun _ => 0 := funext fun a => by fin_cases a <;> rfl

/-- The block indices over the grid, decided once: the two gathered operands and the output move one block of 5000 rows per
    point; every weight, bias and scale window stays at block (0, 0). -/
private theorem bidx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = t.val ∧ win2_8.index t (1 : Fin 2) = 0) :=
  (by decide +kernel : ∀ t : Fin grid2.N, _)

/-- The whole output array as one function of the arrays at entry: entry (i, j) is the message of edge i at column j. -/
private def G2 (c : Dev nD) : S600000x128.Idx → EReal := fun j =>
  msgRow (fun q => (V c main_v14 : S600000x128.Idx → EReal) (ix2 (j 0) q)) (fun q => (V c main_v15 : S600000x128.Idx → EReal) (ix2 (j 0) q))
          (fun p q => (V c main_arg15 : S128x128.Idx → EReal) (ix2 p q)) (fun q => (V c main_v16 : S1x128.Idx → EReal) (ix2 0 q))
          (fun p q => (V c main_arg17 : S128x128.Idx → EReal) (ix2 p q)) ((V c main_v18 : S1x1.Idx → EReal) (ix2 0 0))
          (fun p q => (V c main_arg19 : S128x128.Idx → EReal) (ix2 p q)) (fun q => (V c main_v17 : S1x128.Idx → EReal) (ix2 0 q)) (j 1)

/-- The message row is a function of its eight operands. -/
private theorem msgRow_congr {l l' r r' : Fin 128 → EReal} {wl wl' wr wr' wf wf' : Fin 128 → Fin 128 → EReal} {bl bl' bf bf' : Fin 128 → EReal}
    {sf sf' : EReal} (h0 : l = l') (h1 : r = r') (h2 : wl = wl') (h3 : bl = bl') (h4 : wr = wr') (h5 : sf = sf') (h6 : wf = wf')
    (h7 : bf = bf') (q : Fin 128) : msgRow l r wl bl wr sf wf bf q = msgRow l' r' wl' bl' wr' sf' wf' bf' q := by
  subst h0 h1 h2 h3 h4 h5 h6 h7; rfl

/-- Row `r` of the first gathered operand's block at point `t` is row `5000 t + r` of its array: an element of a block sits at
    block index × block size + its coordinate inside the block, on each axis. -/
private theorem blk2_0_row (c : Dev nD) (t : Fin cfg2.N) (r : Fin 5000) (i : Fin 600000) (hi : i.val = 5000 * t.val + r.val) :
    (fun q : Fin 128 => (iblk2 V c 0 t : Vec Ideal S5000x128 .f32) (ix2 r q))
      = fun q : Fin 128 => (V c main_v14 : S600000x128.Idx → EReal) (ix2 i q) := by
  funext q
  unfold iblk2
  rw [View.read_apply]
  show V c main_v14 _ = V c main_v14 _
  congr 1
  funext a
  apply Fin.ext
  match a with
  | ⟨0, _⟩ => show win2_0.index t (0 : Fin 2) * 5000 + 1 * r.val = i.val; rw [(bidx2 t).1.1, hi]; omega
  | ⟨1, _⟩ => show win2_0.index t (1 : Fin 2) * 128 + 1 * q.val = q.val; rw [(bidx2 t).1.2]; omega

/-- The same for the second gathered operand. -/
private theorem blk2_1_row (c : Dev nD) (t : Fin cfg2.N) (r : Fin 5000) (i : Fin 600000) (hi : i.val = 5000 * t.val + r.val) :
    (fun q : Fin 128 => (iblk2 V c 1 t : Vec Ideal S5000x128 .f32) (ix2 r q))
      = fun q : Fin 128 => (V c main_v15 : S600000x128.Idx → EReal) (ix2 i q) := by
  funext q
  unfold iblk2
  rw [View.read_apply]
  show V c main_v15 _ = V c main_v15 _
  congr 1
  funext a
  apply Fin.ext
  match a with
  | ⟨0, _⟩ => show win2_1.index t (0 : Fin 2) * 5000 + 1 * r.val = i.val; rw [(bidx2 t).2.1.1, hi]; omega
  | ⟨1, _⟩ => show win2_1.index t (1 : Fin 2) * 128 + 1 * q.val = q.val; rw [(bidx2 t).2.1.2]; omega

/-- A weight window's block at any point is the whole weight array (block index (0, 0), block size the array's). -/
private theorem blk2_2_all (c : Dev nD) (t : Fin cfg2.N) :
    (fun (p q : Fin 128) => (iblk2 V c 2 t : Vec Ideal S128x128 .f32) (ix2 p q))
      = fun (p q : Fin 128) => (V c main_arg15 : S128x128.Idx → EReal) (ix2 p q) := by
  funext p q
  unfold iblk2
  rw [View.read_apply]
  show V c main_arg15 _ = V c main_arg15 _
  congr 1
  funext a
  apply Fin.ext
  match a with
  | ⟨0, _⟩ => show win2_2.index t (0 : Fin 2) * 128 + 1 * p.val = p.val; rw [(bidx2 t).2.2.1.1]; omega
  | ⟨1, _⟩ => show win2_2.index t (1 : Fin 2) * 128 + 1 * q.val = q.val; rw [(bidx2 t).2.2.1.2]; omega

/-- The bias row of the first affine map. -/
private theorem blk2_3_all (c : Dev nD) (t : Fin cfg2.N) :
    (fun (q : Fin 128) => (iblk2 V c 3 t : Vec Ideal S1x128 .f32) (ix2 0 q))
      = fun (q : Fin 128) => (V c main_v16 : S1x128.Idx → EReal) (ix2 0 q) := by
  funext q
  unfold iblk2
  rw [View.read_apply]
  show V c main_v16 _ = V c main_v16 _
  congr 1
  funext a
  apply Fin.ext
  match a with
  | ⟨0, _⟩ => show win2_3.index t (0 : Fin 2) * 1 + 1 * 0 = 0; rw [(bidx2 t).2.2.2.1.1]
  | ⟨1, _⟩ => show win2_3.index t (1 : Fin 2) * 128 + 1 * q.val = q.val; rw [(bidx2 t).2.2.2.1.2]; omega

/-- The second weight matrix. -/
private theorem blk2_4_all (c : Dev nD) (t : Fin cfg2.N) :
    (fun (p q : Fin 128) => (iblk2 V c 4 t : Vec Ideal S128x128 .f32) (ix2 p q))
      = fun (p q : Fin 128) => (V c main_arg17 : S128x128.Idx → EReal) (ix2 p q) := by
  funext p q
  unfold iblk2
  rw [View.read_apply]
  show V c main_arg17 _ = V c main_arg17 _
  congr 1
  funext a
  apply Fin.ext
  match a with
  | ⟨0, _⟩ => show win2_4.index t (0 : Fin 2) * 128 + 1 * p.val = p.val; rw [(bidx2 t).2.2.2.2.1.1]; omega
  | ⟨1, _⟩ => show win2_4.index t (1 : Fin 2) * 128 + 1 * q.val = q.val; rw [(bidx2 t).2.2.2.2.1.2]; omega

/-- The scalar scale. -/
private theorem blk2_5_all (c : Dev nD) (t : Fin cfg2.N) :
    (iblk2 V c 5 t : Vec Ideal S1x1 .f32) (ix2 0 0) = (V c main_v18 : S1x1.Idx → EReal) (ix2 0 0) := by
  unfold iblk2
  rw [View.read_apply]
  show V c main_v18 _ = V c main_v18 _
  congr 1
  funext a
  apply Fin.ext
  match a with
  | ⟨0, _⟩ => show win2_5.index t (0 : Fin 2) * 1 + 1 * 0 = 0; rw [(bidx2 t).2.2.2.2.2.1.1]
  | ⟨1, _⟩ => show win2_5.index t (1 : Fin 2) * 1 + 1 * 0 = 0; rw [(bidx2 t).2.2.2.2.2.1.2]

/-- The final weight matrix. -/
private theorem blk2_6_all (c : Dev nD) (t : Fin cfg2.N) :
    (fun (p q : Fin 128) => (iblk2 V c 6 t : Vec Ideal S128x128 .f32) (ix2 p q))
      = fun (p q : Fin 128) => (V c main_arg19 : S128x128.Idx → EReal) (ix2 p q) := by
  funext p q
  unfold iblk2
  rw [View.read_apply]
  show V c main_arg19 _ = V c main_arg19 _
  congr 1
  funext a
  apply Fin.ext
  match a with
  | ⟨0, _⟩ => show win2_6.index t (0 : Fin 2) * 128 + 1 * p.val = p.val; rw [(bidx2 t).2.2.2.2.2.2.1.1]; omega
  | ⟨1, _⟩ => show win2_6.index t (1 : Fin 2) * 128 + 1 * q.val = q.val; rw [(bidx2 t).2.2.2.2.2.2.1.2]; omega

/-- The final bias row. -/
private theorem blk2_7_all (c : Dev nD) (t : Fin cfg2.N) :
    (fun (q : Fin 128) => (iblk2 V c 7 t : Vec Ideal S1x128 .f32) (ix2 0 q))
      = fun (q : Fin 128) => (V c main_v17 : S1x128.Idx → EReal) (ix2 0 q) := by
  funext q
  unfold iblk2
  rw [View.read_apply]
  show V c main_v17 _ = V c main_v17 _
  congr 1
  funext a
  apply Fin.ext
  match a with
  | ⟨0, _⟩ => show win2_7.index t (0 : Fin 2) * 1 + 1 * 0 = 0; rw [(bidx2 t).2.2.2.2.2.2.2.1.1]
  | ⟨1, _⟩ => show win2_7.index t (1 : Fin 2) * 128 + 1 * q.val = q.val; rw [(bidx2 t).2.2.2.2.2.2.2.1.2]; omega

/-- Element (r, q) of the output's block at point `t` sits at (5000 t + r, q) of the output array. -/
private theorem emb2_8 (t : Fin cfg2.N) (r : Fin 5000) (q : Fin 128) (i : Fin 600000) (hi : i.val = 5000 * t.val + r.val) :
    ((cfg2.win 8).blk t).view.emb (ix2 r q) = (ix2 i q : S600000x128.Idx) := by
  funext a
  apply Fin.ext
  match a with
  | ⟨0, _⟩ => show win2_8.index t (0 : Fin 2) * 5000 + 1 * r.val = i.val; rw [(bidx2 t).2.2.2.2.2.2.2.2.1, hi]; omega
  | ⟨1, _⟩ => show win2_8.index t (1 : Fin 2) * 128 + 1 * q.val = q.val; rw [(bidx2 t).2.2.2.2.2.2.2.2.2]; omega

/-- What point `t` writes back is block `t` of `G2`: the body stores one whole block, the message kernel's payload of the
    input blocks; row `r` of it is the message row of row `r` of the two gathered blocks, which are rows `5000 t + r` of
    their arrays. -/
private theorem flushed2_eq (c : Dev nD) (t : Fin cfg2.N) :
    (dat2 V c).flushed 8 t = ((cfg2.win 8).blk t).view.read (Elt Ideal) (G2 V c) := by
  show (cfg2.win 8).cut (grid2.coords t) ((dat2 V c).after 8 t) = _
  rw [after2_8]
  unfold out2_8
  rw [View.canon_unit_zero hz2]
  simp only [View.ld_unit_zero (S := S5000x128) hz2, View.ld_unit_zero (S := S128x128) hz2, View.ld_unit_zero (S := S1x128) hz2, View.ld_unit_zero (S := S1x1) hz2]
  funext y
  obtain ⟨r, q, rfl⟩ : ∃ (r : Fin 5000) (q : Fin 128), y = ix2 r q := ⟨y 0, y 1, eq_ix2 y⟩
  have hN : cfg2.N = 120 := N_2
  have ht : t.val < 120 := hN ▸ t.isLt
  have hi : (⟨5000 * t.val + r.val, by have := r.isLt; omega⟩ : Fin 600000).val = 5000 * t.val + r.val := rfl
  refine (Pay.k2_pay1_row (iblk2 V c 0 t) (iblk2 V c 1 t) (iblk2 V c 2 t) (iblk2 V c 4 t) (iblk2 V c 3 t) (iblk2 V c 5 t) (iblk2 V c 6 t) (iblk2 V c 7 t) r q).trans ?_
  show _ = G2 V c (((cfg2.win 8).blk t).view.emb (ix2 r q))
  rw [emb2_8 t r q _ hi]
  exact msgRow_congr (blk2_0_row V c t r _ hi) (blk2_1_row V c t r _ hi) (blk2_2_all V c t) (blk2_3_all V c t) (blk2_4_all V c t)
    (blk2_5_all V c t) (blk2_6_all V c t) (blk2_7_all V c t) q

/-- An index of the output array is in point `t`'s block iff each coordinate is in the block's range on its axis. -/
private theorem mem_blk2 (t : Fin cfg2.N) (i : S600000x128.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole main_v19).slice (win2_8.rect t)).set ↔ _
  rw [View.set_slice_whole, Rect.mem_set_unit]
  exact Iff.rfl

/-- The blocks cover the output array: row `i` is in the block of point `i / 5000`. -/
private theorem cover2 (i : S600000x128.Idx) : ∃ t : Fin cfg2.N, (cfg2.win 8).flush t = true ∧ i ∈ ((cfg2.win 8).blk t).view.set := by
  have hN : cfg2.N = 120 := N_2
  have h0 : (i 0).val < 600000 := idx2_lt0 i
  have h1 : (i 1).val < 128 := idx2_lt1 i
  refine ⟨⟨(i 0).val / 5000, by omega⟩, flush2_8 _, ?_⟩
  rw [mem_blk2]
  intro a
  match a with
  | ⟨0, _⟩ =>
    show win2_8.index _ (0 : Fin 2) * 5000 ≤ (i 0).val ∧ (i 0).val < win2_8.index _ (0 : Fin 2) * 5000 + 5000
    rw [(bidx2 _).2.2.2.2.2.2.2.2.1]
    show (i 0).val / 5000 * 5000 ≤ (i 0).val ∧ (i 0).val < (i 0).val / 5000 * 5000 + 5000
    omega
  | ⟨1, _⟩ =>
    show win2_8.index _ (1 : Fin 2) * 128 ≤ (i 1).val ∧ (i 1).val < win2_8.index _ (1 : Fin 2) * 128 + 128
    rw [(bidx2 _).2.2.2.2.2.2.2.2.2]
    omega

/-- So the output array after the region is `G2` of the arrays at entry. -/
private theorem final2 (c : Dev nD) : (dat2 V c).arrAt 8 cfg2.N = G2 V c :=
  (dat2 V c).arrAt_eq_of_cover 8 (G2 V c) (fun t _ => flushed2_eq V c t) cover2

/-- Row `i` of the array region 2 leaves in its output, in terms of the arrays the region finds at entry. -/
theorem region2_row (c : Dev nD) (i : Fin 600000) (j : Fin 128) :
    ((dat2 V c).arrAt 8 cfg2.N : S600000x128.Idx → EReal) (ix2 i j)
      = msgRow (fun q => (V c main_v14 : S600000x128.Idx → EReal) (ix2 i q)) (fun q => (V c main_v15 : S600000x128.Idx → EReal) (ix2 i q))
          (fun p q => (V c main_arg15 : S128x128.Idx → EReal) (ix2 p q)) (fun q => (V c main_v16 : S1x128.Idx → EReal) (ix2 0 q))
          (fun p q => (V c main_arg17 : S128x128.Idx → EReal) (ix2 p q)) ((V c main_v18 : S1x1.Idx → EReal) (ix2 0 0))
          (fun p q => (V c main_arg19 : S128x128.Idx → EReal) (ix2 p q)) (fun q => (V c main_v17 : S1x128.Idx → EReal) (ix2 0 q)) j := by
  rw [final2 V c]
  rfl

end Cert.KernelIdeal.Reg

end
-- ==== Proof.PayEmbed.lean ====
import proofs.«412352_j55765855371830_1_alg».proof.Proof.Gen.KernelIdeal.Skeleton
import proofs.«412352_j55765855371830_1_alg».proof.Proof.Spec
import Idealize.ShloMosaic.PureOps.Ideal.Laws
import Idealize.ShloMosaic.Lib.ValueIdx
import Idealize.ShloMosaic.Lib.Pipeline.Value
import Idealize.ShloMosaic.Lib.ValueLayout

/-! Row `r` of an embedding kernel's block is `embedRow` of row `r` of its feature block and of its weights (both embedding launches). -/

noncomputable section

namespace Cert.KernelIdeal.Pay

open Idealize.ShloMosaic Idealize.ShloMosaic.TcCoe Idealize.ShloMosaic.ValueIdx
open Cert.KernelIdeal Cert.KernelIdeal.Gen Cert.Spec

/-! The contraction `5000×69` by `69×128`: the left operand is read at row `i 0`, column `k`; the right at row `k`, column `i 1`. -/

private theorem lhs_69_128_0 (i : S5000x128.Idx) (q : dot_S5000x69_S69x128_S5000x128_1_0_0_1_n_n.contr.Idx) :
    (dot_S5000x69_S69x128_S5000x128_1_0_0_1_n_n.lhsIdx i q 0).val = (i 0).val := by
  unfold DotDims.lhsIdx
  rw [dif_neg (show ¬(0 : Fin S5000x69.rank) ∈ dot_S5000x69_S69x128_S5000x128_1_0_0_1_n_n.lhsBatch by decide), dif_pos (show (0 : Fin S5000x69.rank) ∈ dot_S5000x69_S69x128_S5000x128_1_0_0_1_n_n.lhsNonContracting by decide)]
  rfl
private theorem lhs_69_128_1 (i : S5000x128.Idx) (q : dot_S5000x69_S69x128_S5000x128_1_0_0_1_n_n.contr.Idx) :
    (dot_S5000x69_S69x128_S5000x128_1_0_0_1_n_n.lhsIdx i q 1).val = (q ⟨0, by decide⟩).val :=
  dot_S5000x69_S69x128_S5000x128_1_0_0_1_n_n.lhsIdx_val_of_single rfl i q
private theorem rhs_69_128_0 (i : S5000x128.Idx) (q : dot_S5000x69_S69x128_S5000x128_1_0_0_1_n_n.contr.Idx) :
    (dot_S5000x69_S69x128_S5000x128_1_0_0_1_n_n.rhsIdx i q 0).val = (q ⟨0, by decide⟩).val :=
  dot_S5000x69_S69x128_S5000x128_1_0_0_1_n_n.rhsIdx_val_of_single rfl i q
private theorem rhs_69_128_1 (i : S5000x128.Idx) (q : dot_S5000x69_S69x128_S5000x128_1_0_0_1_n_n.contr.Idx) :
    (dot_S5000x69_S69x128_S5000x128_1_0_0_1_n_n.rhsIdx i q 1).val = (i 1).val := by
  unfold DotDims.rhsIdx
  rw [dif_neg (show ¬(1 : Fin S69x128.rank) ∈ dot_S5000x69_S69x128_S5000x128_1_0_0_1_n_n.rhsBatch by decide), dif_pos (show (1 : Fin S69x128.rank) ∈ dot_S5000x69_S69x128_S5000x128_1_0_0_1_n_n.rhsNonContracting by decide)]
  rfl

/-- A product into a zero accumulator, read at row `r`, column `c`, is the inner product of row `r` of the left operand with column `c` of the right. -/
private theorem mm_69_128 {φ₁ φ₂ : FTy} (a : FVec Ideal S5000x69 φ₁) (w : FVec Ideal S69x128 φ₂) (r : Fin 5000) (c : Fin 128) :
    matmul dot_S5000x69_S69x128_S5000x128_1_0_0_1_n_n none a w (constant S5000x128 .f32 0x00000000#32) (ix2 r c)
      = ∑ k : Fin 69, a (ix2 r k) * w (ix2 k c) := by
  refine (Ideal.matmul_constant_zero_apply dot_S5000x69_S69x128_S5000x128_1_0_0_1_n_n none a w (ix2 r c)).trans ?_
  rw [← Equiv.sum_comp (ValueIdx.contrEquiv1 dot_S5000x69_S69x128_S5000x128_1_0_0_1_n_n 69 rfl rfl).symm]
  refine Finset.sum_congr rfl fun k _ => ?_
  have hk := ValueIdx.contrEquiv1_symm_val dot_S5000x69_S69x128_S5000x128_1_0_0_1_n_n 69 rfl rfl k
  have el : dot_S5000x69_S69x128_S5000x128_1_0_0_1_n_n.lhsIdx (ix2 r c) ((ValueIdx.contrEquiv1 dot_S5000x69_S69x128_S5000x128_1_0_0_1_n_n 69 rfl rfl).symm k) = ix2 r k := funext fun a => Fin.ext (by
    match a with
    | ⟨0, _⟩ => exact lhs_69_128_0 _ _
    | ⟨1, _⟩ => exact (lhs_69_128_1 _ _).trans hk)
  have er : dot_S5000x69_S69x128_S5000x128_1_0_0_1_n_n.rhsIdx (ix2 r c) ((ValueIdx.contrEquiv1 dot_S5000x69_S69x128_S5000x128_1_0_0_1_n_n 69 rfl rfl).symm k) = ix2 k c := funext fun a => Fin.ext (by
    match a with
    | ⟨0, _⟩ => exact (rhs_69_128_0 _ _).trans hk
    | ⟨1, _⟩ => exact rhs_69_128_1 _ _)
  rw [el, er]

/-! The contraction `5000×128` by `128×128`: the left operand is read at row `i 0`, column `k`; the right at row `k`, column `i 1`. -/

private theorem lhs_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into a zero accumulator, read at row `r`, column `c`, is the inner product of row `r` of the left operand with column `c` of the right. -/
private theorem mm_128_128 {φ₁ φ₂ : FTy} (a : FVec Ideal S5000x128 φ₁) (w : FVec Ideal S128x128 φ₂) (r : Fin 5000) (c : Fin 128) :
    matmul dot_S5000x128_S128x128_S5000x128_1_0_0_1_n_n none a w (constant S5000x128 .f32 0x00000000#32) (ix2 r c)
      = ∑ k : Fin 128, a (ix2 r k) * w (ix2 k c) := by
  refine (Ideal.matmul_constant_zero_apply dot_S5000x128_S128x128_S5000x128_1_0_0_1_n_n none a w (ix2 r c)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r c) ((ValueIdx.contrEquiv1 dot_S5000x128_S128x128_S5000x128_1_0_0_1_n_n 128 rfl rfl).symm k) = ix2 r k := funext fun a => Fin.ext (by
    match a with
    | ⟨0, _⟩ => exact lhs_128_128_0 _ _
    | ⟨1, _⟩ => exact (lhs_128_128_1 _ _).trans hk)
  have er : dot_S5000x128_S128x128_S5000x128_1_0_0_1_n_n.rhsIdx (ix2 r c) ((ValueIdx.contrEquiv1 dot_S5000x128_S128x128_S5000x128_1_0_0_1_n_n 128 rfl rfl).symm k) = ix2 k c := funext fun a => Fin.ext (by
    match a with
    | ⟨0, _⟩ => exact (rhs_128_128_0 _ _).trans hk
    | ⟨1, _⟩ => exact rhs_128_128_1 _ _)
  rw [el, er]

/-- A one-row array of 69 entries laid down every one of 5000 rows: entry `(r, q)` is the row's entry `q`. -/
private theorem rowBcast_69 {α : Type} (b : S1x69.Idx → α) (h₁ : S1x69.ShapeCasts S1x69) (h₂ : S1x69.Broadcasts S5000x69)
    (r : Fin 5000) (q : Fin 69) :
    broadcastTo S5000x69 (shapeCast S1x69 b h₁) h₂ (ix2 r q) = b (ix2 0 q) := by
  rw [shapeCast_self]
  refine broadcastTo_apply b h₂ (ix2 r q) (ix2 0 q) fun a => ?_
  match a with
  | ⟨0, _⟩ => rfl
  | ⟨1, _⟩ => rfl

/-- A one-row array of 128 entries laid down every one of 5000 rows: entry `(r, q)` is the row's entry `q`. -/
private theorem rowBcast_128 {α : Type} (b : S1x128.Idx → α) (h₁ : S1x128.ShapeCasts S1x128) (h₂ : S1x128.Broadcasts S5000x128)
    (r : Fin 5000) (q : Fin 128) :
    broadcastTo S5000x128 (shapeCast S1x128 b h₁) h₂ (ix2 r q) = b (ix2 0 q) := by
  rw [shapeCast_self]
  refine broadcastTo_apply b h₂ (ix2 r q) (ix2 0 q) fun a => ?_
  match a with
  | ⟨0, _⟩ => rfl
  | ⟨1, _⟩ => rfl

theorem k0_pay1_row (x : Vec Ideal S5000x69 .f32) (sh sc : Vec Ideal S1x69 .f32) (w1 : Vec Ideal S69x128 .f32)
    (b1 : Vec Ideal S1x128 .f32) (w2 : Vec Ideal S128x128 .f32) (b2 : Vec Ideal S1x128 .f32) (r : Fin 5000) (c : Fin 128) :
    k0_pay1 (F := Ideal) x sh sc w1 b1 w2 b2 (ix2 r c)
      = embedRow (fun f => x (ix2 r f)) (fun f => sh (ix2 0 f)) (fun f => sc (ix2 0 f)) (fun f k => w1 (ix2 f k))
          (fun k => b1 (ix2 0 k)) (fun k q => w2 (ix2 k q)) (fun q => b2 (ix2 0 q)) c := by
  unfold k0_pay1 embedRow lin
  simp only [maximumf_apply, addf_apply, mulf_apply, truncf_apply, broadcast_apply, mm_128_128, mm_69_128,
    rowBcast_128, rowBcast_69, Ideal.ofBits_def, Ideal.ofBits_zero_f32]

theorem k1_pay1_row (x : Vec Ideal S5000x69 .f32) (sh sc : Vec Ideal S1x69 .f32) (w1 : Vec Ideal S69x128 .f32)
    (b1 : Vec Ideal S1x128 .f32) (w2 : Vec Ideal S128x128 .f32) (b2 : Vec Ideal S1x128 .f32) (r : Fin 5000) (c : Fin 128) :
    k1_pay1 (F := Ideal) x sh sc w1 b1 w2 b2 (ix2 r c)
      = embedRow (fun f => x (ix2 r f)) (fun f => sh (ix2 0 f)) (fun f => sc (ix2 0 f)) (fun f k => w1 (ix2 f k))
          (fun k => b1 (ix2 0 k)) (fun k q => w2 (ix2 k q)) (fun q => b2 (ix2 0 q)) c := by
  exact k0_pay1_row x sh sc w1 b1 w2 b2 r c

end Cert.KernelIdeal.Pay

end
-- ==== Proof.Reg0.lean ====
import proofs.«412352_j55765855371830_1_alg».proof.Proof.Gen.KernelIdeal.Frame
import proofs.«412352_j55765855371830_1_alg».proof.Proof.Spec
import proofs.«412352_j55765855371830_1_alg».proof.Proof.PayEmbed
import Idealize.ShloMosaic.Lib.ValueIdx
import Idealize.ShloMosaic.Lib.Pipeline.Value

/-! Region 0 (the embedding launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The two zero offsets of a whole-block access, as a constant function. -/
theorem zeroOffsets0 : (![0, 0] : Fin 2 → Nat) = fun _ => 0 := funext fun a => by fin_cases a <;> rfl

/-- The array region 0 writes, as one function of the arrays it finds: row `j 0` is the embedding of feature row `j 0`. -/
def embedAll0 (c : Dev nD) : S50000x128.Idx → EReal := fun j =>
  embedRow (fun f => (V c main_arg0 : S50000x69.Idx → EReal) (ix2 (j 0) f)) (fun f => (V c main_v0 : S1x69.Idx → EReal) (ix2 0 f)) (fun f => (V c main_v1 : S1x69.Idx → EReal) (ix2 0 f))
    (fun f k => (V c main_arg5 : S69x128.Idx → EReal) (ix2 f k)) (fun k => (V c main_v2 : S1x128.Idx → EReal) (ix2 0 k))
    (fun k q => (V c main_arg7 : S128x128.Idx → EReal) (ix2 k q)) (fun q => (V c main_v3 : S1x128.Idx → EReal) (ix2 0 q)) (j 1)

/-- Where each window's block sits at grid point `t`: the feature rows and the output rows move with the point, the weights stay. -/
theorem blockIndex0 : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) :=
  (by decide +kernel : ∀ t : Fin grid0.N, _)

/-- A row of the embedding payload, with its operands named as reads of whole arrays: if row `r` of the feature block is row `i` of the
    feature array and each weight block is its whole array, the payload's row `r` is the row function of row `i`. -/
theorem payloadRow0 (X : S50000x69.Idx → EReal) (SH SC : S1x69.Idx → EReal) (W1 : S69x128.Idx → EReal) (B1 : S1x128.Idx → EReal)
    (W2 : S128x128.Idx → EReal) (B2 : S1x128.Idx → EReal)
    (x : Vec Ideal S5000x69 .f32) (sh sc : Vec Ideal S1x69 .f32) (w1 : Vec Ideal S69x128 .f32) (b1 : Vec Ideal S1x128 .f32)
    (w2 : Vec Ideal S128x128 .f32) (b2 : Vec Ideal S1x128 .f32) (r : Fin 5000) (i : Fin 50000) (q : Fin 128)
    (hx : ∀ f : Fin 69, x (ix2 r f) = X (ix2 i f)) (hsh : sh = SH) (hsc : sc = SC) (hw1 : w1 = W1) (hb1 : b1 = B1) (hw2 : w2 = W2) (hb2 : b2 = B2) :
    k0_pay1 (F := Ideal) x sh sc w1 b1 w2 b2 (ix2 r q)
      = embedRow (fun f => X (ix2 i f)) (fun f => SH (ix2 0 f)) (fun f => SC (ix2 0 f)) (fun f k => W1 (ix2 f k))
          (fun k => B1 (ix2 0 k)) (fun k p => W2 (ix2 k p)) (fun p => B2 (ix2 0 p)) q := by
  subst hsh hsc hw1 hb1 hw2 hb2
  rw [Pay.k0_pay1_row, show (fun f => x (ix2 r f)) = (fun f => X (ix2 i f)) from funext hx]

/-- Row `r` of the feature block at point `t` is row `5000 t + r` of the feature array. -/
theorem featureBlock0 (c : Dev nD) (t : Fin cfg0.N) (r : Fin 5000) (i : Fin 50000) (hi : i.val = 5000 * t.val + r.val) (f : Fin 69) :
    (iblk0 V c 0 t : Vec Ideal S5000x69 .f32) (ix2 r f) = (V c main_arg0 : S50000x69.Idx → EReal) (ix2 i f) := by
  obtain ⟨⟨e0, e1⟩, -⟩ := blockIndex0 t
  unfold iblk0
  rw [View.read_apply]
  show V c main_arg0 (((cfg0.win 0).blk t).view.emb (ix2 r f)) = V c main_arg0 (ix2 i f)
  refine congrArg _ ?_
  funext a
  apply Fin.ext
  match a with
  | ⟨0, _⟩ => show win0_0.index t 0 * 5000 + 1 * r.val = i.val; rw [e0, hi]; omega
  | ⟨1, _⟩ => show win0_0.index t 1 * 69 + 1 * f.val = f.val; rw [e1]; omega

/-- The shift block at any point is the whole shift array. -/
theorem shiftBlock0 (c : Dev nD) (t : Fin cfg0.N) : (iblk0 V c 1 t : Vec Ideal S1x69 .f32) = (V c main_v0 : S1x69.Idx → EReal) := by
  obtain ⟨-, ⟨e0, e1⟩, -⟩ := blockIndex0 t
  funext y
  unfold iblk0
  rw [View.read_apply]
  show V c main_v0 (((cfg0.win 1).blk t).view.emb y) = V c main_v0 y
  refine congrArg _ ?_
  funext a
  apply Fin.ext
  match a with
  | ⟨0, _⟩ => show win0_1.index t 0 * 1 + 1 * (y 0).val = (y 0).val; rw [e0]; omega
  | ⟨1, _⟩ => show win0_1.index t 1 * 69 + 1 * (y 1).val = (y 1).val; rw [e1]; omega

/-- The scale block at any point is the whole scale array. -/
theorem scaleBlock0 (c : Dev nD) (t : Fin cfg0.N) : (iblk0 V c 2 t : Vec Ideal S1x69 .f32) = (V c main_v1 : S1x69.Idx → EReal) := by
  obtain ⟨-, -, ⟨e0, e1⟩, -⟩ := blockIndex0 t
  funext y
  unfold iblk0
  rw [View.read_apply]
  show V c main_v1 (((cfg0.win 2).blk t).view.emb y) = V c main_v1 y
  refine congrArg _ ?_
  funext a
  apply Fin.ext
  match a with
  | ⟨0, _⟩ => show win0_2.index t 0 * 1 + 1 * (y 0).val = (y 0).val; rw [e0]; omega
  | ⟨1, _⟩ => show win0_2.index t 1 * 69 + 1 * (y 1).val = (y 1).val; rw [e1]; omega

/-- The first weight block at any point is the whole first weight array. -/
theorem weight1Block0 (c : Dev nD) (t : Fin cfg0.N) : (iblk0 V c 3 t : Vec Ideal S69x128 .f32) = (V c main_arg5 : S69x128.Idx → EReal) := by
  obtain ⟨-, -, -, ⟨e0, e1⟩, -⟩ := blockIndex0 t
  funext y
  unfold iblk0
  rw [View.read_apply]
  show V c main_arg5 (((cfg0.win 3).blk t).view.emb y) = V c main_arg5 y
  refine congrArg _ ?_
  funext a
  apply Fin.ext
  match a with
  | ⟨0, _⟩ => show win0_3.index t 0 * 69 + 1 * (y 0).val = (y 0).val; rw [e0]; omega
  | ⟨1, _⟩ => show win0_3.index t 1 * 128 + 1 * (y 1).val = (y 1).val; rw [e1]; omega

/-- The first bias block at any point is the whole first bias array. -/
theorem bias1Block0 (c : Dev nD) (t : Fin cfg0.N) : (iblk0 V c 4 t : Vec Ideal S1x128 .f32) = (V c main_v2 : S1x128.Idx → EReal) := by
  obtain ⟨-, -, -, -, ⟨e0, e1⟩, -⟩ := blockIndex0 t
  funext y
  unfold iblk0
  rw [View.read_apply]
  show V c main_v2 (((cfg0.win 4).blk t).view.emb y) = V c main_v2 y
  refine congrArg _ ?_
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The second weight block at any point is the whole second weight array. -/
theorem weight2Block0 (c : Dev nD) (t : Fin cfg0.N) : (iblk0 V c 5 t : Vec Ideal S128x128 .f32) = (V c main_arg7 : S128x128.Idx → EReal) := by
  obtain ⟨-, -, -, -, -, ⟨e0, e1⟩, -⟩ := blockIndex0 t
  funext y
  unfold iblk0
  rw [View.read_apply]
  show V c main_arg7 (((cfg0.win 5).blk t).view.emb y) = V c main_arg7 y
  refine congrArg _ ?_
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-- The second bias block at any point is the whole second bias array. -/
theorem bias2Block0 (c : Dev nD) (t : Fin cfg0.N) : (iblk0 V c 6 t : Vec Ideal S1x128 .f32) = (V c main_v3 : S1x128.Idx → EReal) := by
  obtain ⟨-, -, -, -, -, -, ⟨e0, e1⟩, -⟩ := blockIndex0 t
  funext y
  unfold iblk0
  rw [View.read_apply]
  show V c main_v3 (((cfg0.win 6).blk t).view.emb y) = V c main_v3 y
  refine congrArg _ ?_
  funext a
  apply Fin.ext
  match a with
  | ⟨0, _⟩ => show win0_6.index t 0 * 1 + 1 * (y 0).val = (y 0).val; rw [e0]; omega
  | ⟨1, _⟩ => show win0_6.index t 1 * 128 + 1 * (y 1).val = (y 1).val; rw [e1]; omega

/-- Entry `(r, q)` of the output block at point `t` is entry `(5000 t + r, q)` of the output array. -/
theorem outputBlock0 (t : Fin cfg0.N) (r : Fin 5000) (q : Fin 128) (i : Fin 50000) (hi : i.val = 5000 * t.val + r.val) :
    ((cfg0.win 7).blk t).view.emb (ix2 r q) = (ix2 i q : S50000x128.Idx) := by
  obtain ⟨-, -, -, -, -, -, -, e0, e1⟩ := blockIndex0 t
  funext a
  apply Fin.ext
  match a with
  | ⟨0, _⟩ => show win0_7.index t 0 * 5000 + 1 * r.val = i.val; rw [e0, hi]; omega
  | ⟨1, _⟩ => show win0_7.index t 1 * 128 + 1 * q.val = q.val; rw [e1]; omega

/-- What point `t` writes back is block `t` of the whole-array function. -/
theorem flushed0 (c : Dev nD) (t : Fin cfg0.N) :
    (dat0 V c).flushed 7 t = ((cfg0.win 7).blk t).view.read (Elt Ideal) (embedAll0 V c) := by
  show (cfg0.win 7).cut (grid0.coords t) ((dat0 V c).after 7 t) = _
  rw [after0_7]
  unfold out0_7
  rw [View.canon_unit_zero zeroOffsets0]
  simp only [View.ld_unit_zero (S := S5000x69) zeroOffsets0, View.ld_unit_zero (S := S1x69) zeroOffsets0, View.ld_unit_zero (S := S69x128) zeroOffsets0, View.ld_unit_zero (S := S1x128) zeroOffsets0, View.ld_unit_zero (S := S128x128) zeroOffsets0]
  funext y
  obtain ⟨r, q, rfl⟩ : ∃ (r : Fin 5000) (q : Fin 128), y = ix2 r q := ⟨y 0, y 1, eq_ix2 y⟩
  have hi : 5000 * t.val + r.val < 50000 := by
    have ht := t.isLt
    have hN : cfg0.N = 10 := N_0
    omega
  rw [View.read_apply, outputBlock0 t r q ⟨5000 * t.val + r.val, hi⟩ rfl]
  exact payloadRow0 (V c main_arg0) (V c main_v0) (V c main_v1) (V c main_arg5) (V c main_v2) (V c main_arg7) (V c main_v3)
    _ _ _ _ _ _ _ r ⟨5000 * t.val + r.val, hi⟩ q (featureBlock0 V c t r _ rfl) (shiftBlock0 V c t) (scaleBlock0 V c t)
    (weight1Block0 V c t) (bias1Block0 V c t) (weight2Block0 V c t) (bias2Block0 V c t)

/-- An index of the output array lies in point `t`'s block iff each coordinate lies in the block's range on its axis. -/
theorem mem_block0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v4).slice (win0_7.rect t)).set ↔ _
  rw [View.set_slice_whole, Rect.mem_set_unit]
  exact Iff.rfl

/-- Every index of the output array is written: row `i` by point `i / 5000`. -/
theorem cover0 (i : S50000x128.Idx) : ∃ t : Fin cfg0.N, (cfg0.win 7).flush t = true ∧ i ∈ ((cfg0.win 7).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, -, -, -, e0, e1⟩ := blockIndex0 t
  refine ⟨t, flush0_7 t, ?_⟩
  rw [mem_block0]
  intro a
  match a with
  | ⟨0, _⟩ => show win0_7.index t 0 * 5000 ≤ (i 0).val ∧ (i 0).val < win0_7.index t 0 * 5000 + 5000; rw [e0, ht]; omega
  | ⟨1, _⟩ => show win0_7.index t 1 * 128 ≤ (i 1).val ∧ (i 1).val < win0_7.index t 1 * 128 + 128; rw [e1]; omega

/-- Row `i` of the array region 0 leaves in its output, in terms of the arrays the region finds at entry. -/
theorem region0_row (c : Dev nD) (i : Fin 50000) (j : Fin 128) :
    ((dat0 V c).arrAt 7 cfg0.N : S50000x128.Idx → EReal) (ix2 i j)
      = embedRow (fun f => (V c main_arg0 : S50000x69.Idx → EReal) (ix2 i f)) (fun f => (V c main_v0 : S1x69.Idx → EReal) (ix2 0 f)) (fun f => (V c main_v1 : S1x69.Idx → EReal) (ix2 0 f))
          (fun f k => (V c main_arg5 : S69x128.Idx → EReal) (ix2 f k)) (fun k => (V c main_v2 : S1x128.Idx → EReal) (ix2 0 k))
          (fun k q => (V c main_arg7 : S128x128.Idx → EReal) (ix2 k q)) (fun q => (V c main_v3 : S1x128.Idx → EReal) (ix2 0 q)) j := by
  have h := (dat0 V c).arrAt_eq_of_cover 7 (embedAll0 V c) (fun t _ => flushed0 V c t) cover0
  exact congrFun h (ix2 i j)

end Cert.KernelIdeal.Reg

end
-- ==== Proof.Reg1.lean ====
import proofs.«412352_j55765855371830_1_alg».proof.Proof.Gen.KernelIdeal.Frame
import proofs.«412352_j55765855371830_1_alg».proof.Proof.Spec
import proofs.«412352_j55765855371830_1_alg».proof.Proof.PayEmbed
import Idealize.ShloMosaic.Lib.ValueIdx
import Idealize.ShloMosaic.Lib.Pipeline.Value

/-! Region 1 (the embedding launch): the output array after the region, read one row at a time. Point `t` of the grid writes rows `5000 t … 5000 t + 4999`; each is the row function of the matching input row(s) and the weights. -/

noncomputable section

namespace Cert.KernelIdeal.Reg

open Idealize.ShloMosaic Idealize.ShloMosaic.TcCoe Idealize.ShloMosaic.ValueIdx Idealize.SL.Sem
open Idealize.ShloMosaic.Pipeline (Dat)
open Cert.KernelIdeal Cert.KernelIdeal.Gen Cert.Spec

-- The TensorCore's buffer contents when the region is entered: the parameter the generated region half is stated at.
variable (V : (c : Dev nD) → (b : Ref sig .tc) → Buf (Elt Ideal) ((c : Thread nD τ).loc b))

/-- The two zero offsets of a whole-block access, as a constant function. -/
theorem zeroOffsets1 : (![0, 0] : Fin 2 → Nat) = fun _ => 0 := funext fun a => by fin_cases a <;> rfl

/-- The array region 1 writes, as one function of the arrays it finds: row `j 0` is the embedding of feature row `j 0`. -/
def embedAll1 (c : Dev nD) : S100000x128.Idx → EReal := fun j =>
  embedRow (fun f => (V c main_arg1 : S100000x69.Idx → EReal) (ix2 (j 0) f)) (fun f => (V c main_v5 : S1x69.Idx → EReal) (ix2 0 f)) (fun f => (V c main_v6 : S1x69.Idx → EReal) (ix2 0 f))
    (fun f k => (V c main_arg11 : S69x128.Idx → EReal) (ix2 f k)) (fun k => (V c main_v7 : S1x128.Idx → EReal) (ix2 0 k))
    (fun k q => (V c main_arg13 : S128x128.Idx → EReal) (ix2 k q)) (fun q => (V c main_v8 : S1x128.Idx → EReal) (ix2 0 q)) (j 1)

/-- Where each window's block sits at grid point `t`: the feature rows and the output rows move with the point, the weights stay. -/
theorem blockIndex1 : ∀ t : Fin cfg1.N,
    (win1_0.index t 0 = t.val ∧ win1_0.index t 1 = 0) ∧ (win1_1.index t 0 = 0 ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = 0 ∧ win1_6.index t 1 = 0) ∧ (win1_7.index t 0 = t.val ∧ win1_7.index t 1 = 0) :=
  (by decide +kernel : ∀ t : Fin grid1.N, _)

/-- A row of the embedding payload, with its operands named as reads of whole arrays: if row `r` of the feature block is row `i` of the
    feature array and each weight block is its whole array, the payload's row `r` is the row function of row `i`. -/
theorem payloadRow1 (X : S100000x69.Idx → EReal) (SH SC : S1x69.Idx → EReal) (W1 : S69x128.Idx → EReal) (B1 : S1x128.Idx → EReal)
    (W2 : S128x128.Idx → EReal) (B2 : S1x128.Idx → EReal)
    (x : Vec Ideal S5000x69 .f32) (sh sc : Vec Ideal S1x69 .f32) (w1 : Vec Ideal S69x128 .f32) (b1 : Vec Ideal S1x128 .f32)
    (w2 : Vec Ideal S128x128 .f32) (b2 : Vec Ideal S1x128 .f32) (r : Fin 5000) (i : Fin 100000) (q : Fin 128)
    (hx : ∀ f : Fin 69, x (ix2 r f) = X (ix2 i f)) (hsh : sh = SH) (hsc : sc = SC) (hw1 : w1 = W1) (hb1 : b1 = B1) (hw2 : w2 = W2) (hb2 : b2 = B2) :
    k1_pay1 (F := Ideal) x sh sc w1 b1 w2 b2 (ix2 r q)
      = embedRow (fun f => X (ix2 i f)) (fun f => SH (ix2 0 f)) (fun f => SC (ix2 0 f)) (fun f k => W1 (ix2 f k))
          (fun k => B1 (ix2 0 k)) (fun k p => W2 (ix2 k p)) (fun p => B2 (ix2 0 p)) q := by
  subst hsh hsc hw1 hb1 hw2 hb2
  rw [Pay.k1_pay1_row, show (fun f => x (ix2 r f)) = (fun f => X (ix2 i f)) from funext hx]

/-- Row `r` of the feature block at point `t` is row `5000 t + r` of the feature array. -/
theorem featureBlock1 (c : Dev nD) (t : Fin cfg1.N) (r : Fin 5000) (i : Fin 100000) (hi : i.val = 5000 * t.val + r.val) (f : Fin 69) :
    (iblk1 V c 0 t : Vec Ideal S5000x69 .f32) (ix2 r f) = (V c main_arg1 : S100000x69.Idx → EReal) (ix2 i f) := by
  obtain ⟨⟨e0, e1⟩, -⟩ := blockIndex1 t
  unfold iblk1
  rw [View.read_apply]
  show V c main_arg1 (((cfg1.win 0).blk t).view.emb (ix2 r f)) = V c main_arg1 (ix2 i f)
  refine congrArg _ ?_
  funext a
  apply Fin.ext
  match a with
  | ⟨0, _⟩ => show win1_0.index t 0 * 5000 + 1 * r.val = i.val; rw [e0, hi]; omega
  | ⟨1, _⟩ => show win1_0.index t 1 * 69 + 1 * f.val = f.val; rw [e1]; omega

/-- The shift block at any point is the whole shift array. -/
theorem shiftBlock1 (c : Dev nD) (t : Fin cfg1.N) : (iblk1 V c 1 t : Vec Ideal S1x69 .f32) = (V c main_v5 : S1x69.Idx → EReal) := by
  obtain ⟨-, ⟨e0, e1⟩, -⟩ := blockIndex1 t
  funext y
  unfold iblk1
  rw [View.read_apply]
  show V c main_v5 (((cfg1.win 1).blk t).view.emb y) = V c main_v5 y
  refine congrArg _ ?_
  funext a
  apply Fin.ext
  match a with
  | ⟨0, _⟩ => show win1_1.index t 0 * 1 + 1 * (y 0).val = (y 0).val; rw [e0]; omega
  | ⟨1, _⟩ => show win1_1.index t 1 * 69 + 1 * (y 1).val = (y 1).val; rw [e1]; omega

/-- The scale block at any point is the whole scale array. -/
theorem scaleBlock1 (c : Dev nD) (t : Fin cfg1.N) : (iblk1 V c 2 t : Vec Ideal S1x69 .f32) = (V c main_v6 : S1x69.Idx → EReal) := by
  obtain ⟨-, -, ⟨e0, e1⟩, -⟩ := blockIndex1 t
  funext y
  unfold iblk1
  rw [View.read_apply]
  show V c main_v6 (((cfg1.win 2).blk t).view.emb y) = V c main_v6 y
  refine congrArg _ ?_
  funext a
  apply Fin.ext
  match a with
  | ⟨0, _⟩ => show win1_2.index t 0 * 1 + 1 * (y 0).val = (y 0).val; rw [e0]; omega
  | ⟨1, _⟩ => show win1_2.index t 1 * 69 + 1 * (y 1).val = (y 1).val; rw [e1]; omega

/-- The first weight block at any point is the whole first weight array. -/
theorem weight1Block1 (c : Dev nD) (t : Fin cfg1.N) : (iblk1 V c 3 t : Vec Ideal S69x128 .f32) = (V c main_arg11 : S69x128.Idx → EReal) := by
  obtain ⟨-, -, -, ⟨e0, e1⟩, -⟩ := blockIndex1 t
  funext y
  unfold iblk1
  rw [View.read_apply]
  show V c main_arg11 (((cfg1.win 3).blk t).view.emb y) = V c main_arg11 y
  refine congrArg _ ?_
  funext a
  apply Fin.ext
  match a with
  | ⟨0, _⟩ => show win1_3.index t 0 * 69 + 1 * (y 0).val = (y 0).val; rw [e0]; omega
  | ⟨1, _⟩ => show win1_3.index t 1 * 128 + 1 * (y 1).val = (y 1).val; rw [e1]; omega

/-- The first bias block at any point is the whole first bias array. -/
theorem bias1Block1 (c : Dev nD) (t : Fin cfg1.N) : (iblk1 V c 4 t : Vec Ideal S1x128 .f32) = (V c main_v7 : S1x128.Idx → EReal) := by
  obtain ⟨-, -, -, -, ⟨e0, e1⟩, -⟩ := blockIndex1 t
  funext y
  unfold iblk1
  rw [View.read_apply]
  show V c main_v7 (((cfg1.win 4).blk t).view.emb y) = V c main_v7 y
  refine congrArg _ ?_
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The second weight block at any point is the whole second weight array. -/
theorem weight2Block1 (c : Dev nD) (t : Fin cfg1.N) : (iblk1 V c 5 t : Vec Ideal S128x128 .f32) = (V c main_arg13 : S128x128.Idx → EReal) := by
  obtain ⟨-, -, -, -, -, ⟨e0, e1⟩, -⟩ := blockIndex1 t
  funext y
  unfold iblk1
  rw [View.read_apply]
  show V c main_arg13 (((cfg1.win 5).blk t).view.emb y) = V c main_arg13 y
  refine congrArg _ ?_
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

/-- The second bias block at any point is the whole second bias array. -/
theorem bias2Block1 (c : Dev nD) (t : Fin cfg1.N) : (iblk1 V c 6 t : Vec Ideal S1x128 .f32) = (V c main_v8 : S1x128.Idx → EReal) := by
  obtain ⟨-, -, -, -, -, -, ⟨e0, e1⟩, -⟩ := blockIndex1 t
  funext y
  unfold iblk1
  rw [View.read_apply]
  show V c main_v8 (((cfg1.win 6).blk t).view.emb y) = V c main_v8 y
  refine congrArg _ ?_
  funext a
  apply Fin.ext
  match a with
  | ⟨0, _⟩ => show win1_6.index t 0 * 1 + 1 * (y 0).val = (y 0).val; rw [e0]; omega
  | ⟨1, _⟩ => show win1_6.index t 1 * 128 + 1 * (y 1).val = (y 1).val; rw [e1]; omega

/-- Entry `(r, q)` of the output block at point `t` is entry `(5000 t + r, q)` of the output array. -/
theorem outputBlock1 (t : Fin cfg1.N) (r : Fin 5000) (q : Fin 128) (i : Fin 100000) (hi : i.val = 5000 * t.val + r.val) :
    ((cfg1.win 7).blk t).view.emb (ix2 r q) = (ix2 i q : S100000x128.Idx) := by
  obtain ⟨-, -, -, -, -, -, -, e0, e1⟩ := blockIndex1 t
  funext a
  apply Fin.ext
  match a with
  | ⟨0, _⟩ => show win1_7.index t 0 * 5000 + 1 * r.val = i.val; rw [e0, hi]; omega
  | ⟨1, _⟩ => show win1_7.index t 1 * 128 + 1 * q.val = q.val; rw [e1]; omega

/-- What point `t` writes back is block `t` of the whole-array function. -/
theorem flushed1 (c : Dev nD) (t : Fin cfg1.N) :
    (dat1 V c).flushed 7 t = ((cfg1.win 7).blk t).view.read (Elt Ideal) (embedAll1 V c) := by
  show (cfg1.win 7).cut (grid1.coords t) ((dat1 V c).after 7 t) = _
  rw [after1_7]
  unfold out1_7
  rw [View.canon_unit_zero zeroOffsets1]
  simp only [View.ld_unit_zero (S := S5000x69) zeroOffsets1, View.ld_unit_zero (S := S1x69) zeroOffsets1, View.ld_unit_zero (S := S69x128) zeroOffsets1, View.ld_unit_zero (S := S1x128) zeroOffsets1, View.ld_unit_zero (S := S128x128) zeroOffsets1]
  funext y
  obtain ⟨r, q, rfl⟩ : ∃ (r : Fin 5000) (q : Fin 128), y = ix2 r q := ⟨y 0, y 1, eq_ix2 y⟩
  have hi : 5000 * t.val + r.val < 100000 := by
    have ht := t.isLt
    have hN : cfg1.N = 20 := N_1
    omega
  rw [View.read_apply, outputBlock1 t r q ⟨5000 * t.val + r.val, hi⟩ rfl]
  exact payloadRow1 (V c main_arg1) (V c main_v5) (V c main_v6) (V c main_arg11) (V c main_v7) (V c main_arg13) (V c main_v8)
    _ _ _ _ _ _ _ r ⟨5000 * t.val + r.val, hi⟩ q (featureBlock1 V c t r _ rfl) (shiftBlock1 V c t) (scaleBlock1 V c t)
    (weight1Block1 V c t) (bias1Block1 V c t) (weight2Block1 V c t) (bias2Block1 V c t)

/-- An index of the output array lies in point `t`'s block iff each coordinate lies in the block's range on its axis. -/
theorem mem_block1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v9).slice (win1_7.rect t)).set ↔ _
  rw [View.set_slice_whole, Rect.mem_set_unit]
  exact Iff.rfl

/-- Every index of the output array is written: row `i` by point `i / 5000`. -/
theorem cover1 (i : S100000x128.Idx) : ∃ t : Fin cfg1.N, (cfg1.win 7).flush t = true ∧ i ∈ ((cfg1.win 7).blk t).view.set := by
  have h0 : (i 0).val < 100000 := (i 0).isLt
  have h1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, e0, e1⟩ := blockIndex1 t
  refine ⟨t, flush1_7 t, ?_⟩
  rw [mem_block1]
  intro a
  match a with
  | ⟨0, _⟩ => show win1_7.index t 0 * 5000 ≤ (i 0).val ∧ (i 0).val < win1_7.index t 0 * 5000 + 5000; rw [e0, ht]; omega
  | ⟨1, _⟩ => show win1_7.index t 1 * 128 ≤ (i 1).val ∧ (i 1).val < win1_7.index t 1 * 128 + 128; rw [e1]; omega

/-- Row `i` of the array region 1 leaves in its output, in terms of the arrays the region finds at entry. -/
theorem region1_row (c : Dev nD) (i : Fin 100000) (j : Fin 128) :
    ((dat1 V c).arrAt 7 cfg1.N : S100000x128.Idx → EReal) (ix2 i j)
      = embedRow (fun f => (V c main_arg1 : S100000x69.Idx → EReal) (ix2 i f)) (fun f => (V c main_v5 : S1x69.Idx → EReal) (ix2 0 f)) (fun f => (V c main_v6 : S1x69.Idx → EReal) (ix2 0 f))
          (fun f k => (V c main_arg11 : S69x128.Idx → EReal) (ix2 f k)) (fun k => (V c main_v7 : S1x128.Idx → EReal) (ix2 0 k))
          (fun k q => (V c main_arg13 : S128x128.Idx → EReal) (ix2 k q)) (fun q => (V c main_v8 : S1x128.Idx → EReal) (ix2 0 q)) j := by
  have h := (dat1 V c).arrAt_eq_of_cover 7 (embedAll1 V c) (fun t _ => flushed1 V c t) cover1
  exact congrFun h (ix2 i j)

end Cert.KernelIdeal.Reg

end
-- ==== Proof.FoldA.lean ====
import proofs.«412352_j55765855371830_1_alg».proof.Proof.Gen.KernelIdeal.Frame
import proofs.«412352_j55765855371830_1_alg».proof.Proof.KArgs
import proofs.«412352_j55765855371830_1_alg».proof.Proof.Back
import proofs.«412352_j55765855371830_1_alg».proof.Proof.Reg0
import proofs.«412352_j55765855371830_1_alg».proof.Proof.Reg1
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

/-! The kernel program's buffers at the first boundaries of @main: the two embedded tables after their launches, and the two rows of the edge list after the slices. -/

noncomputable section

namespace Cert.KernelIdeal.Fold

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The first embedding launch

Launch 0 leaves in its output array, row by row, the embedding of the matching feature row; the arrays it reads are the
argument arrays as launched (the feature rows and the two weight matrices) and the four one-row arrays the host stretch
before it made by reshaping the shift, the scale and the two biases. A vector reshaped to one row, read at `(0, f)`, is
the vector at `f`. -/

theorem W2_pv0 (c : Dev nD) :
    W2 m ρ c (Proc.devRef .tc main_v4) = Cert.Chain.pv0 (argsK m c) := by
  refine (W2_arr m ρ c 7).trans ?_
  funext j
  obtain ⟨i, q, rfl⟩ : ∃ (i : Fin 50000) (q : Fin 128), j = ix2 i q := ⟨j 0, j 1, eq_ix2 j⟩
  refine (Reg.region0_row (V1 m ρ) c i q).trans ?_
  -- the three argument arrays the launch reads
  have e0 : (V1 m ρ c main_arg0 : S50000x69.Idx → EReal) = (argsK m c).a0 := Back.arg0_at1 m ρ c
  have e5 : (V1 m ρ c main_arg5 : S69x128.Idx → EReal) = (argsK m c).a5 := Back.arg5_at1 m ρ c
  have e7 : (V1 m ρ c main_arg7 : S128x128.Idx → EReal) = (argsK m c).a7 := Back.arg7_at1 m ρ c
  -- the four reshaped vectors
  have b0 : ∀ f : Fin 69, (V1 m ρ c main_v0 : S1x69.Idx → EReal) (ix2 0 f) = (argsK m c).a3 (ix1 f) := fun f => by
    have h : (V1 m ρ c main_v0 : S1x69.Idx → EReal) = shapeCast _ ((argsK m c).a3) shapeCasts_S69_S1x69 := by
      show StableHlo.after hostOps0 (W0 m ρ c) (Proc.devRef .tc main_v0) = _
      after_results
      rfl
    rw [h]; exact shapeCast_a_1a_apply _ _ 0 f
  have b1 : ∀ f : Fin 69, (V1 m ρ c main_v1 : S1x69.Idx → EReal) (ix2 0 f) = (argsK m c).a4 (ix1 f) := fun f => by
    have h : (V1 m ρ c main_v1 : S1x69.Idx → EReal) = shapeCast _ ((argsK m c).a4) shapeCasts_S69_S1x69 := by
      show StableHlo.after hostOps0 (W0 m ρ c) (Proc.devRef .tc main_v1) = _
      after_results
      rfl
    rw [h]; exact shapeCast_a_1a_apply _ _ 0 f
  have b2 : ∀ k : Fin 128, (V1 m ρ c main_v2 : S1x128.Idx → EReal) (ix2 0 k) = (argsK m c).a6 (ix1 k) := fun k => by
    have h : (V1 m ρ c main_v2 : S1x128.Idx → EReal) = shapeCast _ ((argsK m c).a6) shapeCasts_S128_S1x128 := by
      show StableHlo.after hostOps0 (W0 m ρ c) (Proc.devRef .tc main_v2) = _
      after_results
      rfl
    rw [h]; exact shapeCast_a_1a_apply _ _ 0 k
  have b3 : ∀ k : Fin 128, (V1 m ρ c main_v3 : S1x128.Idx → EReal) (ix2 0 k) = (argsK m c).a8 (ix1 k) := fun k => by
    have h : (V1 m ρ c main_v3 : S1x128.Idx → EReal) = shapeCast _ ((argsK m c).a8) shapeCasts_S128_S1x128 := by
      show StableHlo.after hostOps0 (W0 m ρ c) (Proc.devRef .tc main_v3) = _
      after_results
      rfl
    rw [h]; exact shapeCast_a_1a_apply _ _ 0 k
  rw [e0, e5, e7]
  simp only [b0, b1, b2, b3]
  rfl

/-! ## The second embedding launch

The same for the other side's table. Its host stretch comes after launch 0, so the four vectors it reshapes are read
at boundary 2, where they still hold their launch contents. -/

theorem W4_ch0 (c : Dev nD) :
    W4 m ρ c (Proc.devRef .tc main_v9) = Cert.Chain.ch0 (argsK m c) := by
  refine (W4_arr m ρ c 7).trans ?_
  funext j
  obtain ⟨i, q, rfl⟩ : ∃ (i : Fin 100000) (q : Fin 128), j = ix2 i q := ⟨j 0, j 1, eq_ix2 j⟩
  refine (Reg.region1_row (V3 m ρ) c i q).trans ?_
  have e1 : (V3 m ρ c main_arg1 : S100000x69.Idx → EReal) = (argsK m c).a1 := Back.arg1_at3 m ρ c
  have e11 : (V3 m ρ c main_arg11 : S69x128.Idx → EReal) = (argsK m c).a11 := Back.arg11_at3 m ρ c
  have e13 : (V3 m ρ c main_arg13 : S128x128.Idx → EReal) = (argsK m c).a13 := Back.arg13_at3 m ρ c
  have b5 : ∀ f : Fin 69, (V3 m ρ c main_v5 : S1x69.Idx → EReal) (ix2 0 f) = (argsK m c).a9 (ix1 f) := fun f => by
    have h : (V3 m ρ c main_v5 : S1x69.Idx → EReal) = shapeCast _ ((argsK m c).a9) shapeCasts_S69_S1x69 := by
      show StableHlo.after hostOps1 (W2 m ρ c) (Proc.devRef .tc main_v5) = _
      after_results
      exact congrArg (fun x => shapeCast S1x69 x shapeCasts_S69_S1x69) (Back.arg9_at2 m ρ c)
    rw [h]; exact shapeCast_a_1a_apply _ _ 0 f
  have b6 : ∀ f : Fin 69, (V3 m ρ c main_v6 : S1x69.Idx → EReal) (ix2 0 f) = (argsK m c).a10 (ix1 f) := fun f => by
    have h : (V3 m ρ c main_v6 : S1x69.Idx → EReal) = shapeCast _ ((argsK m c).a10) shapeCasts_S69_S1x69 := by
      show StableHlo.after hostOps1 (W2 m ρ c) (Proc.devRef .tc main_v6) = _
      after_results
      exact congrArg (fun x => shapeCast S1x69 x shapeCasts_S69_S1x69) (Back.arg10_at2 m ρ c)
    rw [h]; exact shapeCast_a_1a_apply _ _ 0 f
  have b7 : ∀ k : Fin 128, (V3 m ρ c main_v7 : S1x128.Idx → EReal) (ix2 0 k) = (argsK m c).a12 (ix1 k) := fun k => by
    have h : (V3 m ρ c main_v7 : S1x128.Idx → EReal) = shapeCast _ ((argsK m c).a12) shapeCasts_S128_S1x128 := by
      show StableHlo.after hostOps1 (W2 m ρ c) (Proc.devRef .tc main_v7) = _
      after_results
      exact congrArg (fun x => shapeCast S1x128 x shapeCasts_S128_S1x128) (Back.arg12_at2 m ρ c)
    rw [h]; exact shapeCast_a_1a_apply _ _ 0 k
  have b8 : ∀ k : Fin 128, (V3 m ρ c main_v8 : S1x128.Idx → EReal) (ix2 0 k) = (argsK m c).a14 (ix1 k) := fun k => by
    have h : (V3 m ρ c main_v8 : S1x128.Idx → EReal) = shapeCast _ ((argsK m c).a14) shapeCasts_S128_S1x128 := by
      show StableHlo.after hostOps1 (W2 m ρ c) (Proc.devRef .tc main_v8) = _
      after_results
      exact congrArg (fun x => shapeCast S1x128 x shapeCasts_S128_S1x128) (Back.arg14_at2 m ρ c)
    rw [h]; exact shapeCast_a_1a_apply _ _ 0 k
  rw [e1, e11, e13]
  simp only [b5, b6, b7, b8]
  rfl

/-! ## The two rows of the edge list

The host stretch after launch 1 slices each row out of the edge list (read at boundary 4, where it still holds its
launch contents) and drops the unit axis. -/

theorem W5_src (c : Dev nD) :
    W5 m ρ c (Proc.devRef .tc main_v11) = Cert.Chain.src (argsK m c) := by
  show StableHlo.after hostOps2 (W4 m ρ c) (Proc.devRef .tc main_v11) = _
  after_results
  exact congrArg (fun x => shapeCast S600000 (extractStridedSlice S1x600000 ![0, 0] x slices_S2x600000_S1x600000_0_0)
    shapeCasts_S1x600000_S600000) (Back.arg2_at4 m ρ c)

theorem W5_dst (c : Dev nD) :
    W5 m ρ c (Proc.devRef .tc main_v13) = Cert.Chain.dst (argsK m c) := by
  show StableHlo.after hostOps2 (W4 m ρ c) (Proc.devRef .tc main_v13) = _
  after_results
  exact congrArg (fun x => shapeCast S600000 (extractStridedSlice S1x600000 ![1, 0] x slices_S2x600000_S1x600000_1_0)
    shapeCasts_S1x600000_S600000) (Back.arg2_at4 m ρ c)

end Cert.KernelIdeal.Fold

end
-- ==== Proof.FoldB.lean ====
import proofs.«412352_j55765855371830_1_alg».proof.Proof.Gen.KernelIdeal.Frame
import proofs.«412352_j55765855371830_1_alg».proof.Proof.KArgs
import proofs.«412352_j55765855371830_1_alg».proof.Proof.Back
import proofs.«412352_j55765855371830_1_alg».proof.Proof.Reg2
import proofs.«412352_j55765855371830_1_alg».proof.Proof.FoldA
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

/-! First round, the edges: a row read that replaces out-of-range rows by a fill value is the plain (clamped) row gather when every index is in range; then the message launch. -/

noncomputable section

namespace Cert.KernelIdeal.Fold

open Idealize.ShloMosaic Idealize.ShloMosaic.TcCoe Idealize.ShloMosaic.ValueIdx Idealize.SL.Sem
open Cert.KernelIdeal Cert.KernelIdeal.Gen

/-! ## The row read with every index in range

The row read computes the wrapped index `w` (a negative index counted from the end), the mask `0 ≤ w ∧ w ≤ N - 1`
reduced by `and` over its unit axis and laid along the rows, the clamped row gather at `w`, and keeps a gathered entry
where the mask is 1 and a fill value elsewhere. When every index lies in the signed range `[0, N)` the mask is 1
everywhere, so the result is the gather. -/

/-- A left fold by `and` from 1 over words that are all 1 is 1. -/
private theorem foldl_andi_ones {ι : Type} (f : ι → BitVec 1) (hf : ∀ n, f n = 1#1) :
    ∀ (l : List ι), l.foldl (fun r n => IntOp.andi r (f n)) 1#1 = 1#1
  | [] => rfl
  | a :: l => by
    have e : IntOp.andi 1#1 (f a) = 1#1 := by rw [hf a]; decide
    rw [List.foldl_cons, e]
    exact foldl_andi_ones f hf l

/-- A reduction by `and` from the constant 1 of an array of ones is 1 at every result index. -/
private theorem reduce_andi_ones {s t : Shape} {axes : List (Fin s.rank)} (x : s.Idx → BitVec 1) (hx : ∀ i, x i = 1#1)
    (h : s.ReducesTo axes t) (hu : 0 < S_.numel) (j : t.Idx) :
    Host.reduce IntOp.andi x (constantI S_ 1 1#1) h hu j = 1#1 := by
  rw [Host.reduce_eq_foldl]
  exact foldl_andi_ones x hx _

/-- A word in the signed range `[0, N)` is not negative, so the wrapped word is the word itself, and it passes both
    range tests `0 ≤ ·` and `· ≤ M` where `M = N - 1`. -/
private theorem word_mask (x N M : BitVec 32) (hNM : N.toInt = M.toInt + 1)
    (h0 : IntOp.cmpi .sge x 0#32 = 1#1) (h1 : IntOp.cmpi .slt x N = 1#1) :
    IntOp.andi (IntOp.cmpi .sge (Scalar.select (IntOp.cmpi .slt x 0#32) (IntOp.addi x N) x) 0#32)
      (IntOp.cmpi .sle (Scalar.select (IntOp.cmpi .slt x 0#32) (IntOp.addi x N) x) M) = 1#1 := by
  have z : (0#32 : BitVec 32).toInt = 0 := by decide
  have a0 : 0 ≤ x.toInt := by
    simp only [IntOp.cmpi, BitVec.sle, StableHlo.Predicate.ofBool_eq_one_iff, decide_eq_true_eq, z] at h0
    exact h0
  have a1 : x.toInt < N.toInt := by
    simp only [IntOp.cmpi, BitVec.slt, StableHlo.Predicate.ofBool_eq_one_iff, decide_eq_true_eq] at h1
    exact h1
  have c0 : IntOp.cmpi .slt x 0#32 = 0#1 := by
    simp only [IntOp.cmpi, BitVec.slt, z]
    rw [decide_eq_false (by omega)]; rfl
  have c1 : IntOp.cmpi .sle x M = 1#1 := by
    simp only [IntOp.cmpi, BitVec.sle, StableHlo.Predicate.ofBool_eq_one_iff, decide_eq_true_eq]
    omega
  rw [c0, select_zero, h0, c1]; decide

/-- Every entry of the row read's range mask is 1 when every index lies in the signed range `[0, N)`. -/
private theorem take_mask (N M : BitVec 32) (hNM : N.toInt = M.toInt + 1) (idx : IVec S600000 32)
    (hidx : ∀ e, IntOp.cmpi .sge (idx e) 0#32 = 1#1 ∧ IntOp.cmpi .slt (idx e) N = 1#1) (i : S600000x1.Idx) :
    andi (cmpi .sge (Cert.Chain.wrap N idx) (broadcastInDim S600000x1 ![] bcast_S_S600000x1 (constantI S_ 32 0#32)))
      (cmpi .sle (Cert.Chain.wrap N idx) (broadcastInDim S600000x1 ![0, 1] bcast_S1x1_S600000x1_0_1
        (broadcastInDim S1x1 ![1] bcast_S1_S1x1_1 (constantI S1 32 M)))) i = 1#1 :=
  word_mask (idx _) N M hNM (hidx _).1 (hidx _).2

/-- THE ROW READ. With every index in `[0, N)` the fill value is never taken: the masked row read of a table `tbl` (of
    any shape) at the index vector `idx` is the plain row gather at the wrapped indices. -/
theorem take_eq_gather {T : Shape} (d : GatherDims T S600000x1 S600000x128) (N M : BitVec 32) (hNM : N.toInt = M.toInt + 1)
    (tbl : FVec Ideal T .f32) (idx : IVec S600000 32)
    (hidx : ∀ e, IntOp.cmpi .sge (idx e) 0#32 = 1#1 ∧ IntOp.cmpi .slt (idx e) N = 1#1) :
    select (broadcastInDim S600000x128 ![0] bcast_S600000_S600000x128_0
        (Host.reduce IntOp.andi
          (andi (cmpi .sge (Cert.Chain.wrap N idx) (broadcastInDim S600000x1 ![] bcast_S_S600000x1 (constantI S_ 32 0#32)))
            (cmpi .sle (Cert.Chain.wrap N idx) (broadcastInDim S600000x1 ![0, 1] bcast_S1x1_S600000x1_0_1
              (broadcastInDim S1x1 ![1] bcast_S1_S1x1_1 (constantI S1 32 M)))))
          (constantI S_ 1 1#1) reducesTo_S600000x1_S600000_d1 h_S_))
      (Host.gather d tbl (Cert.Chain.wrap N idx))
      (broadcastInDim S600000x128 ![] bcast_S_S600000x128 (constant (F := Ideal) S_ .f32 0x7FC00000#32))
    = Host.gather d tbl (Cert.Chain.wrap N idx) := by
  funext j
  rw [select_apply]
  have e : broadcastInDim S600000x128 ![0] bcast_S600000_S600000x128_0
        (Host.reduce IntOp.andi
          (andi (cmpi .sge (Cert.Chain.wrap N idx) (broadcastInDim S600000x1 ![] bcast_S_S600000x1 (constantI S_ 32 0#32)))
            (cmpi .sle (Cert.Chain.wrap N idx) (broadcastInDim S600000x1 ![0, 1] bcast_S1x1_S600000x1_0_1
              (broadcastInDim S1x1 ![1] bcast_S1_S1x1_1 (constantI S1 32 M)))))
          (constantI S_ 1 1#1) reducesTo_S600000x1_S600000_d1 h_S_) j = 1#1 :=
    reduce_andi_ones _ (take_mask N M hNM idx hidx) _ _ _
  rw [e, select_one]

/-- A buffer the host stretch does not write keeps its contents. -/
local macro "host_keeps " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## The two row reads of the first round -/

/-- The first row read's result buffer after its stretch, over any contents before it: the masked row read of the table buffer at the index buffer. -/
private theorem take0_after (Wv : Valuation τ sig (Elt Ideal)) :
    StableHlo.after hostOps2_1 Wv (Proc.devRef .tc main_v14)
      = (select (broadcastInDim S600000x128 ![0] bcast_S600000_S600000x128_0
            (Host.reduce IntOp.andi
              (andi (cmpi .sge (Cert.Chain.wrap 50000#32 (Wv (Proc.devRef .tc main_v11))) (broadcastInDim S600000x1 ![] bcast_S_S600000x1 (constantI S_ 32 0#32)))
                (cmpi .sle (Cert.Chain.wrap 50000#32 (Wv (Proc.devRef .tc main_v11))) (broadcastInDim S600000x1 ![0, 1] bcast_S1x1_S600000x1_0_1
                  (broadcastInDim S1x1 ![1] bcast_S1_S1x1_1 (constantI S1 32 49999#32)))))
              (constantI S_ 1 1#1) reducesTo_S600000x1_S600000_d1 h_S_))
          (Host.gather gather_S50000x128_S600000x1_S600000x128_1_0_n_n_0_1_1128 (Wv (Proc.devRef .tc main_v4) : FVec Ideal S50000x128 .f32)
            (Cert.Chain.wrap 50000#32 (Wv (Proc.devRef .tc main_v11))))
          (broadcastInDim S600000x128 ![] bcast_S_S600000x128 (constant (F := Ideal) S_ .f32 0x7FC00000#32)) : FVec Ideal S600000x128 .f32) := by
  after_results_simp
  simp only [StableHlo.TRef.ofBuf, StableHlo.TRef.toBuf, cast_eq]
  rfl

/-- The second row read's result buffer after its stretch, likewise. -/
private theorem take1_after (Wv : Valuation τ sig (Elt Ideal)) :
    StableHlo.after hostOps2_2 Wv (Proc.devRef .tc main_v15)
      = (select (broadcastInDim S600000x128 ![0] bcast_S600000_S600000x128_0
            (Host.reduce IntOp.andi
              (andi (cmpi .sge (Cert.Chain.wrap 100000#32 (Wv (Proc.devRef .tc main_v13))) (broadcastInDim S600000x1 ![] bcast_S_S600000x1 (constantI S_ 32 0#32)))
                (cmpi .sle (Cert.Chain.wrap 100000#32 (Wv (Proc.devRef .tc main_v13))) (broadcastInDim S600000x1 ![0, 1] bcast_S1x1_S600000x1_0_1
                  (broadcastInDim S1x1 ![1] bcast_S1_S1x1_1 (constantI S1 32 99999#32)))))
              (constantI S_ 1 1#1) reducesTo_S600000x1_S600000_d1 h_S_))
          (Host.gather gather_S100000x128_S600000x1_S600000x128_1_0_n_n_0_1_1128 (Wv (Proc.devRef .tc main_v9) : FVec Ideal S100000x128 .f32)
            (Cert.Chain.wrap 100000#32 (Wv (Proc.devRef .tc main_v13))))
          (broadcastInDim S600000x128 ![] bcast_S_S600000x128 (constant (F := Ideal) S_ .f32 0x7FC00000#32)) : FVec Ideal S600000x128 .f32) := by
  after_results_simp
  simp only [StableHlo.TRef.ofBuf, StableHlo.TRef.toBuf, cast_eq]
  rfl

theorem W6_lg1 (c : Dev nD) (h : Cert.Chain.IdxOk (argsK m c)) :
    W6 m ρ c (Proc.devRef .tc main_v14) = Cert.Chain.lg1 (argsK m c) := by
  -- the table: the first embedded array, untouched since its launch
  have hpv0 : W5 m ρ c (Proc.devRef .tc main_v4) = Cert.Chain.pv0 (argsK m c) :=
    calc W5 m ρ c (Proc.devRef .tc main_v4)
      _ = W4 m ρ c (Proc.devRef .tc main_v4) := by host_keeps hostOps2
      _ = W3 m ρ c (Proc.devRef .tc main_v4) := W4_of_ne m ρ c main_v4 (by decide)
      _ = W2 m ρ c (Proc.devRef .tc main_v4) := by host_keeps hostOps1
      _ = Cert.Chain.pv0 (argsK m c) := W2_pv0 m ρ c
  refine (take0_after (W5 m ρ c)).trans ?_
  rw [W5_src m ρ c, hpv0]
  exact take_eq_gather _ 50000#32 49999#32 (by decide) _ _ (fun e => (h e).1)

theorem W7_rg1 (c : Dev nD) (h : Cert.Chain.IdxOk (argsK m c)) :
    W7 m ρ c (Proc.devRef .tc main_v15) = Cert.Chain.rg1 (argsK m c) := by
  -- the table: the second embedded array; the indices: the receivers' row; neither is written by the first row read
  have hch0 : W6 m ρ c (Proc.devRef .tc main_v9) = Cert.Chain.ch0 (argsK m c) :=
    calc W6 m ρ c (Proc.devRef .tc main_v9)
      _ = W5 m ρ c (Proc.devRef .tc main_v9) := by host_keeps hostOps2_1
      _ = W4 m ρ c (Proc.devRef .tc main_v9) := by host_keeps hostOps2
      _ = Cert.Chain.ch0 (argsK m c) := W4_ch0 m ρ c
  have hdst : W6 m ρ c (Proc.devRef .tc main_v13) = Cert.Chain.dst (argsK m c) :=
    calc W6 m ρ c (Proc.devRef .tc main_v13)
      _ = W5 m ρ c (Proc.devRef .tc main_v13) := by host_keeps hostOps2_1
      _ = Cert.Chain.dst (argsK m c) := W5_dst m ρ c
  refine (take1_after (W6 m ρ c)).trans ?_
  rw [hdst, hch0]
  exact take_eq_gather _ 100000#32 99999#32 (by decide) _ _ (fun e => (h e).2)

/-! ## The message launch of the first round -/

/-- The first bias as one row, read at an entry: the reshape of the argument vector (over any contents before the stretch). -/
private theorem v16_after (Wv : Valuation τ sig (Elt Ideal)) (q : Fin 128) :
    (StableHlo.after hostOps2_3 Wv (Proc.devRef .tc main_v16) : S1x128.Idx → EReal) (ix2 (0 : Fin 1) q)
      = (Wv (Proc.devRef .tc main_arg16) : S128.Idx → EReal) (ix1 q) := by
  after_results
  exact shapeCast_a_1a_apply _ _ 0 q

/-- The last bias as one row, likewise. -/
private theorem v17_after (Wv : Valuation τ sig (Elt Ideal)) (q : Fin 128) :
    (StableHlo.after hostOps2_3 Wv (Proc.devRef .tc main_v17) : S1x128.Idx → EReal) (ix2 (0 : Fin 1) q)
      = (Wv (Proc.devRef .tc main_arg20) : S128.Idx → EReal) (ix1 q) := by
  after_results
  exact shapeCast_a_1a_apply _ _ 0 q

/-- The scale as a one-by-one array, likewise. -/
private theorem v18_after (Wv : Valuation τ sig (Elt Ideal)) (q : Fin 1) :
    (StableHlo.after hostOps2_3 Wv (Proc.devRef .tc main_v18) : S1x1.Idx → EReal) (ix2 (0 : Fin 1) q)
      = (Wv (Proc.devRef .tc main_arg18) : S1.Idx → EReal) (ix1 q) := by
  after_results
  exact shapeCast_a_1a_apply _ _ 0 q

theorem W9_msg1 (c : Dev nD) (h : Cert.Chain.IdxOk (argsK m c)) :
    W9 m ρ c (Proc.devRef .tc main_v19) = Cert.Chain.msg1 (argsK m c) := by
  -- the two gathered arrays at the launch's entry
  have el : V8 m ρ c main_v14 = Cert.Chain.lg1 (argsK m c) :=
    calc W8 m ρ c (Proc.devRef .tc main_v14)
      _ = W7 m ρ c (Proc.devRef .tc main_v14) := by host_keeps hostOps2_3
      _ = W6 m ρ c (Proc.devRef .tc main_v14) := by host_keeps hostOps2_2
      _ = Cert.Chain.lg1 (argsK m c) := W6_lg1 m ρ c h
  have er : V8 m ρ c main_v15 = Cert.Chain.rg1 (argsK m c) :=
    calc W8 m ρ c (Proc.devRef .tc main_v15)
      _ = W7 m ρ c (Proc.devRef .tc main_v15) := by host_keeps hostOps2_3
      _ = Cert.Chain.rg1 (argsK m c) := W7_rg1 m ρ c h
  -- the weights
  have ewl : V8 m ρ c main_arg15 = (argsK m c).a15 := Back.arg15_at8 m ρ c
  have ewr : V8 m ρ c main_arg17 = (argsK m c).a17 := Back.arg17_at8 m ρ c
  have ewf : V8 m ρ c main_arg19 = (argsK m c).a19 := Back.arg19_at8 m ρ c
  -- the reshaped biases and the scale
  have ebl : ∀ q : Fin 128, (V8 m ρ c main_v16 : S1x128.Idx → EReal) (ix2 0 q) = (argsK m c).a16 (ix1 q) := fun q =>
    (v16_after (W7 m ρ c) q).trans (by rw [Back.arg16_at7 m ρ c]; rfl)
  have ebf : ∀ q : Fin 128, (V8 m ρ c main_v17 : S1x128.Idx → EReal) (ix2 0 q) = (argsK m c).a20 (ix1 q) := fun q =>
    (v17_after (W7 m ρ c) q).trans (by rw [Back.arg20_at7 m ρ c]; rfl)
  have esf : (V8 m ρ c main_v18 : S1x1.Idx → EReal) (ix2 0 0) = (argsK m c).a18 (ix1 0) :=
    (v18_after (W7 m ρ c) 0).trans (by rw [Back.arg18_at7 m ρ c]; rfl)
  -- one row of the launch's output against the same row of the chain's array
  have hrow : ∀ (i : Fin 600000) (q : Fin 128),
      ((dat2 (V8 m ρ) c).arrAt 8 cfg2.N : S600000x128.Idx → EReal) (ix2 i q) = Cert.Chain.msg1 (argsK m c) (ix2 i q) := fun i q => by
    refine (Cert.KernelIdeal.Reg.region2_row (V8 m ρ) c i q).trans ?_
    rw [el, er, ewl, ewr, ewf, esf]
    simp only [ebl, ebf]
    -- the chain's array read at this row is the row function of the chain's rows, by definition
    show _ = Cert.Spec.msgRow (Cert.Chain.row2 (Cert.Chain.lg1 (argsK m c)) i) (Cert.Chain.row2 (Cert.Chain.rg1 (argsK m c)) i)
      (Cert.Chain.mat (argsK m c).a15) (Cert.Chain.vec1 (argsK m c).a16) (Cert.Chain.mat (argsK m c).a17)
      ((argsK m c).a18 (ix1 0)) (Cert.Chain.mat (argsK m c).a19) (Cert.Chain.vec1 (argsK m c).a20) q
    rfl
  refine @Eq.trans (S600000x128.Idx → EReal) _ _ _ (W9_arr m ρ c 8) ?_
  funext j
  obtain ⟨i, q, rfl⟩ : ∃ (i : Fin 600000) (q : Fin 128), j = ix2 i q := ⟨j 0, j 1, eq_ix2 j⟩
  exact hrow i q

end Cert.KernelIdeal.Fold

end
-- ==== Proof.FoldC.lean ====
import proofs.«412352_j55765855371830_1_alg».proof.Proof.Gen.KernelIdeal.Frame
import proofs.«412352_j55765855371830_1_alg».proof.Proof.KArgs
import proofs.«412352_j55765855371830_1_alg».proof.Proof.Back
import proofs.«412352_j55765855371830_1_alg».proof.Proof.Reg3
import proofs.«412352_j55765855371830_1_alg».proof.Proof.FoldB
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

/-! First round, the receiving nodes: the messages summed per receiver and divided by the clamped count, then the node-update launch. -/

noncomputable section

namespace Cert.KernelIdeal.Fold

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A host stretch leaves a buffer none of its operations writes as it found it. -/
local macro "foldC_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The receivers' index row is written once, before the first gather, and nothing later touches it. -/
private theorem v13_at9 (c : Dev nD) :
    W9 m ρ c (Proc.devRef .tc main_v13) = W5 m ρ c (Proc.devRef .tc main_v13) :=
  calc W9 m ρ c (Proc.devRef .tc main_v13)
    _ = W8 m ρ c (Proc.devRef .tc main_v13) := W9_of_ne m ρ c main_v13 (by decide)
    _ = W7 m ρ c (Proc.devRef .tc main_v13) := by foldC_keeps hostOps2_3
    _ = W6 m ρ c (Proc.devRef .tc main_v13) := by foldC_keeps hostOps2_2
    _ = W5 m ρ c (Proc.devRef .tc main_v13) := by foldC_keeps hostOps2_1

/- The scatter-mean of the first round is the same host term in both spellings: zeros, the index row as a
   column, the scatter-sum of the messages; the scatter-sum of ones for the counts, clamped below by one and
   broadcast along the row; the quotient. Only the two operands differ, and those are the chain's. -/
theorem W10_agg1 (c : Dev nD) (h : Cert.Chain.IdxOk (argsK m c)) :
    W10 m ρ c (Proc.devRef .tc main_v30) = Cert.Chain.agg1 (argsK m c) := by
  have e13 : W9 m ρ c (Proc.devRef .tc main_v13) = Cert.Chain.dst (argsK m c) :=
    (v13_at9 m ρ c).trans (W5_dst m ρ c)
  have e19 : W9 m ρ c (Proc.devRef .tc main_v19) = Cert.Chain.msg1 (argsK m c) := W9_msg1 m ρ c h
  dsimp only [W10]
  after_results_simp
  rw [e13, e19]
  rfl

/-- The receivers' embedded rows, written by the second launch, are untouched up to the node update. -/
private theorem v9_at10 (c : Dev nD) :
    W10 m ρ c (Proc.devRef .tc main_v9) = W4 m ρ c (Proc.devRef .tc main_v9) :=
  calc W10 m ρ c (Proc.devRef .tc main_v9)
    _ = W9 m ρ c (Proc.devRef .tc main_v9) := by foldC_keeps hostOps3
    _ = W8 m ρ c (Proc.devRef .tc main_v9) := W9_of_ne m ρ c main_v9 (by decide)
    _ = W7 m ρ c (Proc.devRef .tc main_v9) := by foldC_keeps hostOps2_3
    _ = W6 m ρ c (Proc.devRef .tc main_v9) := by foldC_keeps hostOps2_2
    _ = W5 m ρ c (Proc.devRef .tc main_v9) := by foldC_keeps hostOps2_1
    _ = W4 m ρ c (Proc.devRef .tc main_v9) := by foldC_keeps hostOps2

/-- The scale of the aggregate, a one-entry argument laid as a 1 × 1 array. -/
private theorem v31_at10 (c : Dev nD) :
    (W10 m ρ c (Proc.devRef .tc main_v31) : S1x1.Idx → EReal) (ix2 0 0) = (argsK m c).a21 (ix1 0) := by
  dsimp only [W10]
  after_results_simp
  refine (shapeCast_a_1a_apply (W9 m ρ c (Proc.devRef .tc main_arg21) : S1.Idx → EReal) shapeCasts_S1_S1x1 0 0).trans ?_
  exact congrFun (Back.arg21_at9 m ρ c) (ix1 0)

/-- The first bias of the node update, an argument vector laid as one row. -/
private theorem v32_at10 (c : Dev nD) (q : Fin 128) :
    (W10 m ρ c (Proc.devRef .tc main_v32) : S1x128.Idx → EReal) (ix2 0 q) = (argsK m c).a23 (ix1 q) := by
  dsimp only [W10]
  after_results_simp
  refine (shapeCast_a_1a_apply (W9 m ρ c (Proc.devRef .tc main_arg23) : S128.Idx → EReal) shapeCasts_S128_S1x128 0 q).trans ?_
  exact congrFun (Back.arg23_at9 m ρ c) (ix1 q)

/-- The second bias of the node update, likewise. -/
private theorem v33_at10 (c : Dev nD) (q : Fin 128) :
    (W10 m ρ c (Proc.devRef .tc main_v33) : S1x128.Idx → EReal) (ix2 0 q) = (argsK m c).a25 (ix1 q) := by
  dsimp only [W10]
  after_results_simp
  refine (shapeCast_a_1a_apply (W9 m ρ c (Proc.devRef .tc main_arg25) : S128.Idx → EReal) shapeCasts_S128_S1x128 0 q).trans ?_
  exact congrFun (Back.arg25_at9 m ρ c) (ix1 q)

/- The node-update launch writes, in row `i`, the update of node `i` from row `i` of the aggregate and row `i` of
   the node's own embedding; every operand it finds at entry is the chain's. -/
theorem W11_ch1 (c : Dev nD) (h : Cert.Chain.IdxOk (argsK m c)) :
    W11 m ρ c (Proc.devRef .tc main_v34) = Cert.Chain.ch1 (argsK m c) := by
  have e30 : (V10 m ρ c main_v30 : S100000x128.Idx → EReal) = Cert.Chain.agg1 (argsK m c) := W10_agg1 m ρ c h
  have e9 : (V10 m ρ c main_v9 : S100000x128.Idx → EReal) = Cert.Chain.ch0 (argsK m c) :=
    (v9_at10 m ρ c).trans (W4_ch0 m ρ c)
  have e31 : (V10 m ρ c main_v31 : S1x1.Idx → EReal) (ix2 0 0) = (argsK m c).a21 (ix1 0) := v31_at10 m ρ c
  have e22 : (V10 m ρ c main_arg22 : S256x128.Idx → EReal) = (argsK m c).a22 := Back.arg22_at10 m ρ c
  have e32 : ∀ q : Fin 128, (V10 m ρ c main_v32 : S1x128.Idx → EReal) (ix2 0 q) = (argsK m c).a23 (ix1 q) :=
    v32_at10 m ρ c
  have e24 : (V10 m ρ c main_arg24 : S128x128.Idx → EReal) = (argsK m c).a24 := Back.arg24_at10 m ρ c
  have e33 : ∀ q : Fin 128, (V10 m ρ c main_v33 : S1x128.Idx → EReal) (ix2 0 q) = (argsK m c).a25 (ix1 q) :=
    v33_at10 m ρ c
  refine (W11_arr m ρ c 7).trans ?_
  funext j
  obtain ⟨i, q, rfl⟩ : ∃ (i : Fin 100000) (q : Fin 128), j = ix2 i q := ⟨j 0, j 1, eq_ix2 j⟩
  refine (Reg.region3_row (V10 m ρ) c i q).trans ?_
  simp only [e30, e9, e31, e22, e32, e24, e33]
  rfl

end Cert.KernelIdeal.Fold

end
-- ==== Proof.FoldD.lean ====
import proofs.«412352_j55765855371830_1_alg».proof.Proof.Gen.KernelIdeal.Frame
import proofs.«412352_j55765855371830_1_alg».proof.Proof.KArgs
import proofs.«412352_j55765855371830_1_alg».proof.Proof.Back
import proofs.«412352_j55765855371830_1_alg».proof.Proof.Reg4
import proofs.«412352_j55765855371830_1_alg».proof.Proof.FoldC
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

/-! Second round, the edges, with the two sides exchanged: rows of the updated table by receiver, rows of the first table by sender, then the message launch. -/

noncomputable section

namespace Cert.KernelIdeal.Fold

open Idealize.ShloMosaic Idealize.ShloMosaic.TcCoe Idealize.ShloMosaic.ValueIdx Idealize.SL.Sem
open Cert.KernelIdeal Cert.KernelIdeal.Gen

/-- A buffer the host stretch does not write keeps its contents. -/
local macro "host_keeps " ops:ident : tactic =>
  `(tactic| (refine StableHlo.after_of_forall_not_mem _ _ (List.forall_iff_forall_mem.mp ?_)
             simp only [$ops:ident, List.flatten_cons, List.flatten_nil, List.append_nil, List.cons_append, List.nil_append, List.Forall,
               StableHlo.nullary_writes, StableHlo.unary_writes, StableHlo.binary_writes, StableHlo.ternary_writes,
               StableHlo.quaternary_writes, StableHlo.reshape_writes, StableHlo.binaryIndexed_writes, Finset.mem_singleton]
             repeat' apply And.intro
             all_goals exact StableHlo.devRef_ne_of_ne (by decide)))

variable (m : (ℓ : Loc nD τ sig) → Buf (Elt Ideal) ℓ) (ρ : Dev nD → PrngReg)

/-! ## What the first round left untouched

The two index rows and the first embedded table are written before the first round's row reads; no later host stretch
and no later launch writes them, so at the second round's row reads they still hold the chain's arrays. -/

private theorem W11_src (c : Dev nD) : W11 m ρ c (Proc.devRef .tc main_v11) = Cert.Chain.src (argsK m c) :=
    calc W11 m ρ c (Proc.devRef .tc main_v11)
      _ = W10 m ρ c (Proc.devRef .tc main_v11) := W11_of_ne m ρ c main_v11 (by decide)
      _ = W9 m ρ c (Proc.devRef .tc main_v11) := by host_keeps hostOps3
      _ = W8 m ρ c (Proc.devRef .tc main_v11) := W9_of_ne m ρ c main_v11 (by decide)
      _ = W7 m ρ c (Proc.devRef .tc main_v11) := by host_keeps hostOps2_3
      _ = W6 m ρ c (Proc.devRef .tc main_v11) := by host_keeps hostOps2_2
      _ = W5 m ρ c (Proc.devRef .tc main_v11) := by host_keeps hostOps2_1
      _ = Cert.Chain.src (argsK m c) := W5_src m ρ c

private theorem W11_dst (c : Dev nD) : W11 m ρ c (Proc.devRef .tc main_v13) = Cert.Chain.dst (argsK m c) :=
    calc W11 m ρ c (Proc.devRef .tc main_v13)
      _ = W10 m ρ c (Proc.devRef .tc main_v13) := W11_of_ne m ρ c main_v13 (by decide)
      _ = W9 m ρ c (Proc.devRef .tc main_v13) := by host_keeps hostOps3
      _ = W8 m ρ c (Proc.devRef .tc main_v13) := W9_of_ne m ρ c main_v13 (by decide)
      _ = W7 m ρ c (Proc.devRef .tc main_v13) := by host_keeps hostOps2_3
      _ = W6 m ρ c (Proc.devRef .tc main_v13) := by host_keeps hostOps2_2
      _ = W5 m ρ c (Proc.devRef .tc main_v13) := by host_keeps hostOps2_1
      _ = Cert.Chain.dst (argsK m c) := W5_dst m ρ c

private theorem W11_pv0 (c : Dev nD) : W11 m ρ c (Proc.devRef .tc main_v4) = Cert.Chain.pv0 (argsK m c) :=
    calc W11 m ρ c (Proc.devRef .tc main_v4)
      _ = W10 m ρ c (Proc.devRef .tc main_v4) := W11_of_ne m ρ c main_v4 (by decide)
      _ = W9 m ρ c (Proc.devRef .tc main_v4) := by host_keeps hostOps3
      _ = W8 m ρ c (Proc.devRef .tc main_v4) := W9_of_ne m ρ c main_v4 (by decide)
      _ = W7 m ρ c (Proc.devRef .tc main_v4) := by host_keeps hostOps2_3
      _ = W6 m ρ c (Proc.devRef .tc main_v4) := by host_keeps hostOps2_2
      _ = W5 m ρ c (Proc.devRef .tc main_v4) := by host_keeps hostOps2_1
      _ = W4 m ρ c (Proc.devRef .tc main_v4) := by host_keeps hostOps2
      _ = W3 m ρ c (Proc.devRef .tc main_v4) := W4_of_ne m ρ c main_v4 (by decide)
      _ = W2 m ρ c (Proc.devRef .tc main_v4) := by host_keeps hostOps1
      _ = Cert.Chain.pv0 (argsK m c) := W2_pv0 m ρ c

/-! ## The two row reads of the second round -/

/-- The third row read's result buffer after its stretch, over any contents before it: the masked row read of the table buffer at the index buffer. -/
private theorem take2_after (Wv : Valuation τ sig (Elt Ideal)) :
    StableHlo.after hostOps4 Wv (Proc.devRef .tc main_v35)
      = (select (broadcastInDim S600000x128 ![0] bcast_S600000_S600000x128_0
            (Host.reduce IntOp.andi
              (andi (cmpi .sge (Cert.Chain.wrap 100000#32 (Wv (Proc.devRef .tc main_v13))) (broadcastInDim S600000x1 ![] bcast_S_S600000x1 (constantI S_ 32 0#32)))
                (cmpi .sle (Cert.Chain.wrap 100000#32 (Wv (Proc.devRef .tc main_v13))) (broadcastInDim S600000x1 ![0, 1] bcast_S1x1_S600000x1_0_1
                  (broadcastInDim S1x1 ![1] bcast_S1_S1x1_1 (constantI S1 32 99999#32)))))
              (constantI S_ 1 1#1) reducesTo_S600000x1_S600000_d1 h_S_))
          (Host.gather gather_S100000x128_S600000x1_S600000x128_1_0_n_n_0_1_1128 (Wv (Proc.devRef .tc main_v34) : FVec Ideal S100000x128 .f32)
            (Cert.Chain.wrap 100000#32 (Wv (Proc.devRef .tc main_v13))))
          (broadcastInDim S600000x128 ![] bcast_S_S600000x128 (constant (F := Ideal) S_ .f32 0x7FC00000#32)) : FVec Ideal S600000x128 .f32) := by
  after_results_simp
  simp only [StableHlo.TRef.ofBuf, StableHlo.TRef.toBuf, cast_eq]
  rfl

/-- The fourth row read's result buffer after its stretch, likewise. -/
private theorem take3_after (Wv : Valuation τ sig (Elt Ideal)) :
    StableHlo.after hostOps4_1 Wv (Proc.devRef .tc main_v36)
      = (select (broadcastInDim S600000x128 ![0] bcast_S600000_S600000x128_0
            (Host.reduce IntOp.andi
              (andi (cmpi .sge (Cert.Chain.wrap 50000#32 (Wv (Proc.devRef .tc main_v11))) (broadcastInDim S600000x1 ![] bcast_S_S600000x1 (constantI S_ 32 0#32)))
                (cmpi .sle (Cert.Chain.wrap 50000#32 (Wv (Proc.devRef .tc main_v11))) (broadcastInDim S600000x1 ![0, 1] bcast_S1x1_S600000x1_0_1
                  (broadcastInDim S1x1 ![1] bcast_S1_S1x1_1 (constantI S1 32 49999#32)))))
              (constantI S_ 1 1#1) reducesTo_S600000x1_S600000_d1 h_S_))
          (Host.gather gather_S50000x128_S600000x1_S600000x128_1_0_n_n_0_1_1128 (Wv (Proc.devRef .tc main_v4) : FVec Ideal S50000x128 .f32)
            (Cert.Chain.wrap 50000#32 (Wv (Proc.devRef .tc main_v11))))
          (broadcastInDim S600000x128 ![] bcast_S_S600000x128 (constant (F := Ideal) S_ .f32 0x7FC00000#32)) : FVec Ideal S600000x128 .f32) := by
  after_results_simp
  simp only [StableHlo.TRef.ofBuf, StableHlo.TRef.toBuf, cast_eq]
  rfl

theorem W12_lg2 (c : Dev nD) (h : Cert.Chain.IdxOk (argsK m c)) :
    W12 m ρ c (Proc.devRef .tc main_v35) = Cert.Chain.lg2 (argsK m c) := by
  refine (take2_after (W11 m ρ c)).trans ?_
  rw [W11_dst m ρ c, W11_ch1 m ρ c h]
  exact take_eq_gather _ 100000#32 99999#32 (by decide) _ _ (fun e => (h e).2)

theorem W13_rg2 (c : Dev nD) (h : Cert.Chain.IdxOk (argsK m c)) :
    W13 m ρ c (Proc.devRef .tc main_v36) = Cert.Chain.rg2 (argsK m c) := by
  -- neither the table nor the index row is written by the third row read
  have hpv0 : W12 m ρ c (Proc.devRef .tc main_v4) = Cert.Chain.pv0 (argsK m c) :=
    calc W12 m ρ c (Proc.devRef .tc main_v4)
      _ = W11 m ρ c (Proc.devRef .tc main_v4) := by host_keeps hostOps4
      _ = Cert.Chain.pv0 (argsK m c) := W11_pv0 m ρ c
  have hsrc : W12 m ρ c (Proc.devRef .tc main_v11) = Cert.Chain.src (argsK m c) :=
    calc W12 m ρ c (Proc.devRef .tc main_v11)
      _ = W11 m ρ c (Proc.devRef .tc main_v11) := by host_keeps hostOps4
      _ = Cert.Chain.src (argsK m c) := W11_src m ρ c
  refine (take3_after (W12 m ρ c)).trans ?_
  rw [hsrc, hpv0]
  exact take_eq_gather _ 50000#32 49999#32 (by decide) _ _ (fun e => (h e).1)

/-! ## The message launch of the second round -/

/-- The first bias as one row, read at an entry: the reshape of the argument vector (over any contents before the stretch). -/
private theorem v37_after (Wv : Valuation τ sig (Elt Ideal)) (q : Fin 128) :
    (StableHlo.after hostOps4_2 Wv (Proc.devRef .tc main_v37) : S1x128.Idx → EReal) (ix2 (0 : Fin 1) q)
      = (Wv (Proc.devRef .tc main_arg27) : S128.Idx → EReal) (ix1 q) := by
  after_results
  exact shapeCast_a_1a_apply _ _ 0 q

/-- The last bias as one row, likewise. -/
private theorem v38_after (Wv : Valuation τ sig (Elt Ideal)) (q : Fin 128) :
    (StableHlo.after hostOps4_2 Wv (Proc.devRef .tc main_v38) : S1x128.Idx → EReal) (ix2 (0 : Fin 1) q)
      = (Wv (Proc.devRef .tc main_arg31) : S128.Idx → EReal) (ix1 q) := by
  after_results
  exact shapeCast_a_1a_apply _ _ 0 q

/-- The scale as a one-by-one array, likewise. -/
private theorem v39_after (Wv : Valuation τ sig (Elt Ideal)) (q : Fin 1) :
    (StableHlo.after hostOps4_2 Wv (Proc.devRef .tc main_v39) : S1x1.Idx → EReal) (ix2 (0 : Fin 1) q)
      = (Wv (Proc.devRef .tc main_arg29) : S1.Idx → EReal) (ix1 q) := by
  after_results
  exact shapeCast_a_1a_apply _ _ 0 q

theorem W15_msg2 (c : Dev nD) (h : Cert.Chain.IdxOk (argsK m c)) :
    W15 m ρ c (Proc.devRef .tc main_v40) = Cert.Chain.msg2 (argsK m c) := by
  -- the two gathered arrays at the launch's entry
  have el : V14 m ρ c main_v35 = Cert.Chain.lg2 (argsK m c) :=
    calc W14 m ρ c (Proc.devRef .tc main_v35)
      _ = W13 m ρ c (Proc.devRef .tc main_v35) := by host_keeps hostOps4_2
      _ = W12 m ρ c (Proc.devRef .tc main_v35) := by host_keeps hostOps4_1
      _ = Cert.Chain.lg2 (argsK m c) := W12_lg2 m ρ c h
  have er : V14 m ρ c main_v36 = Cert.Chain.rg2 (argsK m c) :=
    calc W14 m ρ c (Proc.devRef .tc main_v36)
      _ = W13 m ρ c (Proc.devRef .tc main_v36) := by host_keeps hostOps4_2
      _ = Cert.Chain.rg2 (argsK m c) := W13_rg2 m ρ c h
  -- the weights
  have ewl : V14 m ρ c main_arg26 = (argsK m c).a26 := Back.arg26_at14 m ρ c
  have ewr : V14 m ρ c main_arg28 = (argsK m c).a28 := Back.arg28_at14 m ρ c
  have ewf : V14 m ρ c main_arg30 = (argsK m c).a30 := Back.arg30_at14 m ρ c
  -- the reshaped biases and the scale
  have ebl : ∀ q : Fin 128, (V14 m ρ c main_v37 : S1x128.Idx → EReal) (ix2 0 q) = (argsK m c).a27 (ix1 q) := fun q =>
    (v37_after (W13 m ρ c) q).trans (by rw [Back.arg27_at13 m ρ c]; rfl)
  have ebf : ∀ q : Fin 128, (V14 m ρ c main_v38 : S1x128.Idx → EReal) (ix2 0 q) = (argsK m c).a31 (ix1 q) := fun q =>
    (v38_after (W13 m ρ c) q).trans (by rw [Back.arg31_at13 m ρ c]; rfl)
  have esf : (V14 m ρ c main_v39 : S1x1.Idx → EReal) (ix2 0 0) = (argsK m c).a29 (ix1 0) :=
    (v39_after (W13 m ρ c) 0).trans (by rw [Back.arg29_at13 m ρ c]; rfl)
  -- one row of the launch's output against the same row of the chain's array
  have hrow : ∀ (i : Fin 600000) (q : Fin 128),
      ((dat4 (V14 m ρ) c).arrAt 8 cfg4.N : S600000x128.Idx → EReal) (ix2 i q) = Cert.Chain.msg2 (argsK m c) (ix2 i q) := fun i q => by
    refine (Cert.KernelIdeal.Reg.region4_row (V14 m ρ) c i q).trans ?_
    rw [el, er, ewl, ewr, ewf, esf]
    simp only [ebl, ebf]
    -- the chain's array read at this row is the row function of the chain's rows, by definition
    show _ = Cert.Spec.msgRow (Cert.Chain.row2 (Cert.Chain.lg2 (argsK m c)) i) (Cert.Chain.row2 (Cert.Chain.rg2 (argsK m c)) i)
      (Cert.Chain.mat (argsK m c).a26) (Cert.Chain.vec1 (argsK m c).a27) (Cert.Chain.mat (argsK m c).a28)
      ((argsK m c).a29 (ix1 0)) (Cert.Chain.mat (argsK m c).a30) (Cert.Chain.vec1 (argsK m c).a31) q
    rfl
  refine @Eq.trans (S600000x128.Idx → EReal) _ _ _ (W15_arr m ρ c 8) ?_
  funext j
  obtain ⟨i, q, rfl⟩ : ∃ (i : Fin 600000) (q : Fin 128), j = ix2 i q := ⟨j 0, j 1, eq_ix2 j⟩
  exact hrow i q

end Cert.KernelIdeal.Fold

end
-- ==== Proof.FoldE.lean ====
import proofs.«412352_j55765855371830_1_alg».proof.Proof.Gen.KernelIdeal.Frame
import proofs.«412352_j55765855371830_1_alg».proof.Proof.KArgs
import proofs.«412352_j55765855371830_1_alg».proof.Proof.Back
import proofs.«412352_j55765855371830_1_alg».proof.Proof.Reg5
import proofs.«412352_j55765855371830_1_alg».proof.Proof.Reg6
import proofs.«412352_j55765855371830_1_alg».proof.Proof.FoldD
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

/-! Second round, the sending nodes, and the output head: the aggregate per sender, the node-update launch, the output launch; the result buffer at the last boundary. -/

noncomputable section

namespace Cert.KernelIdeal.Fold

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- A host stretch leaves a buffer none of its operations writes as it found it. -/
local macro "foldE_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-- The senders' index row is written once, before the first gather, and nothing later touches it. -/
private theorem v11_at15 (c : Dev nD) :
    W15 m ρ c (Proc.devRef .tc main_v11) = W5 m ρ c (Proc.devRef .tc main_v11) :=
  calc W15 m ρ c (Proc.devRef .tc main_v11)
    _ = W14 m ρ c (Proc.devRef .tc main_v11) := W15_of_ne m ρ c main_v11 (by decide)
    _ = W13 m ρ c (Proc.devRef .tc main_v11) := by foldE_keeps hostOps4_2
    _ = W12 m ρ c (Proc.devRef .tc main_v11) := by foldE_keeps hostOps4_1
    _ = W11 m ρ c (Proc.devRef .tc main_v11) := by foldE_keeps hostOps4
    _ = W10 m ρ c (Proc.devRef .tc main_v11) := W11_of_ne m ρ c main_v11 (by decide)
    _ = W9 m ρ c (Proc.devRef .tc main_v11) := by foldE_keeps hostOps3
    _ = W8 m ρ c (Proc.devRef .tc main_v11) := W9_of_ne m ρ c main_v11 (by decide)
    _ = W7 m ρ c (Proc.devRef .tc main_v11) := by foldE_keeps hostOps2_3
    _ = W6 m ρ c (Proc.devRef .tc main_v11) := by foldE_keeps hostOps2_2
    _ = W5 m ρ c (Proc.devRef .tc main_v11) := by foldE_keeps hostOps2_1

/- The scatter-mean of the second round is the same host term in both spellings: zeros, the index row as a
   column, the scatter-sum of the messages; the scatter-sum of ones for the counts, clamped below by one and
   broadcast along the row; the quotient. Only the two operands differ, and those are the chain's. -/
theorem W16_agg2 (c : Dev nD) (h : Cert.Chain.IdxOk (argsK m c)) :
    W16 m ρ c (Proc.devRef .tc main_v51) = Cert.Chain.agg2 (argsK m c) := by
  have e11 : W15 m ρ c (Proc.devRef .tc main_v11) = Cert.Chain.src (argsK m c) :=
    (v11_at15 m ρ c).trans (W5_src m ρ c)
  have e40 : W15 m ρ c (Proc.devRef .tc main_v40) = Cert.Chain.msg2 (argsK m c) := W15_msg2 m ρ c h
  dsimp only [W16]
  after_results_simp
  rw [e11, e40]
  rfl

/-- The senders' embedded rows, written by the first launch, are untouched up to the second node update. -/
private theorem v4_at16 (c : Dev nD) :
    W16 m ρ c (Proc.devRef .tc main_v4) = W2 m ρ c (Proc.devRef .tc main_v4) :=
  calc W16 m ρ c (Proc.devRef .tc main_v4)
    _ = W15 m ρ c (Proc.devRef .tc main_v4) := by foldE_keeps hostOps5
    _ = W14 m ρ c (Proc.devRef .tc main_v4) := W15_of_ne m ρ c main_v4 (by decide)
    _ = W13 m ρ c (Proc.devRef .tc main_v4) := by foldE_keeps hostOps4_2
    _ = W12 m ρ c (Proc.devRef .tc main_v4) := by foldE_keeps hostOps4_1
    _ = W11 m ρ c (Proc.devRef .tc main_v4) := by foldE_keeps hostOps4
    _ = W10 m ρ c (Proc.devRef .tc main_v4) := W11_of_ne m ρ c main_v4 (by decide)
    _ = W9 m ρ c (Proc.devRef .tc main_v4) := by foldE_keeps hostOps3
    _ = W8 m ρ c (Proc.devRef .tc main_v4) := W9_of_ne m ρ c main_v4 (by decide)
    _ = W7 m ρ c (Proc.devRef .tc main_v4) := by foldE_keeps hostOps2_3
    _ = W6 m ρ c (Proc.devRef .tc main_v4) := by foldE_keeps hostOps2_2
    _ = W5 m ρ c (Proc.devRef .tc main_v4) := by foldE_keeps hostOps2_1
    _ = W4 m ρ c (Proc.devRef .tc main_v4) := by foldE_keeps hostOps2
    _ = W3 m ρ c (Proc.devRef .tc main_v4) := W4_of_ne m ρ c main_v4 (by decide)
    _ = W2 m ρ c (Proc.devRef .tc main_v4) := by foldE_keeps hostOps1

/-- The scale of the aggregate, a one-entry argument laid as a 1 × 1 array. -/
private theorem v52_at16 (c : Dev nD) :
    (W16 m ρ c (Proc.devRef .tc main_v52) : S1x1.Idx → EReal) (ix2 0 0) = (argsK m c).a32 (ix1 0) := by
  dsimp only [W16]
  after_results_simp
  refine (shapeCast_a_1a_apply (W15 m ρ c (Proc.devRef .tc main_arg32) : S1.Idx → EReal) shapeCasts_S1_S1x1 0 0).trans ?_
  exact congrFun (Back.arg32_at15 m ρ c) (ix1 0)

/-- The first bias of the node update, an argument vector laid as one row. -/
private theorem v53_at16 (c : Dev nD) (q : Fin 128) :
    (W16 m ρ c (Proc.devRef .tc main_v53) : S1x128.Idx → EReal) (ix2 0 q) = (argsK m c).a34 (ix1 q) := by
  dsimp only [W16]
  after_results_simp
  refine (shapeCast_a_1a_apply (W15 m ρ c (Proc.devRef .tc main_arg34) : S128.Idx → EReal) shapeCasts_S128_S1x128 0 q).trans ?_
  exact congrFun (Back.arg34_at15 m ρ c) (ix1 q)

/-- The second bias of the node update, likewise. -/
private theorem v54_at16 (c : Dev nD) (q : Fin 128) :
    (W16 m ρ c (Proc.devRef .tc main_v54) : S1x128.Idx → EReal) (ix2 0 q) = (argsK m c).a36 (ix1 q) := by
  dsimp only [W16]
  after_results_simp
  refine (shapeCast_a_1a_apply (W15 m ρ c (Proc.devRef .tc main_arg36) : S128.Idx → EReal) shapeCasts_S128_S1x128 0 q).trans ?_
  exact congrFun (Back.arg36_at15 m ρ c) (ix1 q)

/- The second node-update launch writes, in row `i`, the update of sender `i` from row `i` of the aggregate and
   row `i` of the sender's own embedding; every operand it finds at entry is the chain's. -/
theorem W17_pv1 (c : Dev nD) (h : Cert.Chain.IdxOk (argsK m c)) :
    W17 m ρ c (Proc.devRef .tc main_v55) = Cert.Chain.pv1 (argsK m c) := by
  have e51 : (V16 m ρ c main_v51 : S50000x128.Idx → EReal) = Cert.Chain.agg2 (argsK m c) := W16_agg2 m ρ c h
  have e4 : (V16 m ρ c main_v4 : S50000x128.Idx → EReal) = Cert.Chain.pv0 (argsK m c) :=
    (v4_at16 m ρ c).trans (W2_pv0 m ρ c)
  have e52 : (V16 m ρ c main_v52 : S1x1.Idx → EReal) (ix2 0 0) = (argsK m c).a32 (ix1 0) := v52_at16 m ρ c
  have e33 : (V16 m ρ c main_arg33 : S256x128.Idx → EReal) = (argsK m c).a33 := Back.arg33_at16 m ρ c
  have e53 : ∀ q : Fin 128, (V16 m ρ c main_v53 : S1x128.Idx → EReal) (ix2 0 q) = (argsK m c).a34 (ix1 q) :=
    v53_at16 m ρ c
  have e35 : (V16 m ρ c main_arg35 : S128x128.Idx → EReal) = (argsK m c).a35 := Back.arg35_at16 m ρ c
  have e54 : ∀ q : Fin 128, (V16 m ρ c main_v54 : S1x128.Idx → EReal) (ix2 0 q) = (argsK m c).a36 (ix1 q) :=
    v54_at16 m ρ c
  refine (W17_arr m ρ c 7).trans ?_
  funext j
  obtain ⟨i, q, rfl⟩ : ∃ (i : Fin 50000) (q : Fin 128), j = ix2 i q := ⟨j 0, j 1, eq_ix2 j⟩
  refine (Reg.region5_row (V16 m ρ) c i q).trans ?_
  simp only [e51, e4, e52, e33, e53, e35, e54]
  rfl

/-- The first bias of the output head, an argument vector laid as one row. -/
private theorem v56_at18 (c : Dev nD) (q : Fin 128) :
    (W18 m ρ c (Proc.devRef .tc main_v56) : S1x128.Idx → EReal) (ix2 0 q) = (argsK m c).a38 (ix1 q) := by
  dsimp only [W18]
  after_results_simp
  refine (shapeCast_a_1a_apply (W17 m ρ c (Proc.devRef .tc main_arg38) : S128.Idx → EReal) shapeCasts_S128_S1x128 0 q).trans ?_
  exact congrFun (Back.arg38_at17 m ρ c) (ix1 q)

/-- The second bias of the output head, two entries laid as one row. -/
private theorem v57_at18 (c : Dev nD) (q : Fin 2) :
    (W18 m ρ c (Proc.devRef .tc main_v57) : S1x2.Idx → EReal) (ix2 0 q) = (argsK m c).a40 (ix1 q) := by
  dsimp only [W18]
  after_results_simp
  refine (shapeCast_a_1a_apply (W17 m ρ c (Proc.devRef .tc main_arg40) : S2.Idx → EReal) shapeCasts_S2_S1x2 0 q).trans ?_
  exact congrFun (Back.arg40_at17 m ρ c) (ix1 q)

/- The output launch writes, in row `i`, the head applied to row `i` of the updated senders; the two reshapes
   before it do not touch that array. -/
theorem W19_out (c : Dev nD) (h : Cert.Chain.IdxOk (argsK m c)) :
    W19 m ρ c (Proc.devRef .tc main_v58) = Cert.Chain.out (argsK m c) := by
  have e55 : (V18 m ρ c main_v55 : S50000x128.Idx → EReal) = Cert.Chain.pv1 (argsK m c) :=
    (show W18 m ρ c (Proc.devRef .tc main_v55) = W17 m ρ c (Proc.devRef .tc main_v55) by
      foldE_keeps hostOps6).trans (W17_pv1 m ρ c h)
  have e37 : (V18 m ρ c main_arg37 : S128x128.Idx → EReal) = (argsK m c).a37 := Back.arg37_at18 m ρ c
  have e56 : ∀ q : Fin 128, (V18 m ρ c main_v56 : S1x128.Idx → EReal) (ix2 0 q) = (argsK m c).a38 (ix1 q) :=
    v56_at18 m ρ c
  have e39 : (V18 m ρ c main_arg39 : S128x2.Idx → EReal) = (argsK m c).a39 := Back.arg39_at18 m ρ c
  have e57 : ∀ q : Fin 2, (V18 m ρ c main_v57 : S1x2.Idx → EReal) (ix2 0 q) = (argsK m c).a40 (ix1 q) :=
    v57_at18 m ρ c
  refine (W19_arr m ρ c 5).trans ?_
  funext j
  obtain ⟨i, q, rfl⟩ : ∃ (i : Fin 50000) (q : Fin 2), j = ix2 i q := ⟨j 0, j 1, eq_ix2 j⟩
  refine (Reg.region6_row (V18 m ρ) c i q).trans ?_
  simp only [e55, e37, e56, e39, e57]
  rfl

end Cert.KernelIdeal.Fold

end
-- ==== Proof.PreIdx.lean ====
import proofs.«412352_j55765855371830_1_alg».proof.Defs
import proofs.«412352_j55765855371830_1_alg».proof.Proof.Gen.Pre_finite_inputs
import proofs.«412352_j55765855371830_1_alg».proof.Proof.KArgs
import Idealize.ShloMosaic.Lib.ValueIdx
import Idealize.ShloMosaic.Lib.ReduceAll
import Idealize.ShloMosaic.Lib.StableHlo.Predicate

/-! The precondition's last two conjuncts, decoded: every entry of the first row of the edge list lies in `[0, 50000)`
and every entry of the second in `[0, 100000)`, as signed words.

The precondition is one long conjunction `(X ∧ R₁) ∧ R₂` of `i1` scalars, where `X` gathers the finiteness tests of the
float arguments and `Rₖ` is "all entries of row `k` of the edge list satisfy `0 ≤ x ∧ x < nₖ`". Only the outer two
conjunctions are opened; `X` is never looked into. -/

noncomputable section

namespace Cert.PreIdx

open Idealize.ShloMosaic Idealize.ShloMosaic.TcCoe Idealize.ShloMosaic.ValueIdx Idealize.SL.Sem

section Decode

open Cert.Pre_finite_inputs Cert.Pre_finite_inputs.Facts

/-- The shape with no axes has exactly one index. -/
private instance : Subsingleton S_.Idx := ⟨fun a b => funext fun d => d.elim0⟩

/-- A scalar spread along the edge axis reads that scalar at every edge. -/
private theorem bcast_const (n : BitVec 32) (e : S600000.Idx) :
    broadcastInDim S600000 ![] bcast_S_S600000 (constantI S_ 32 n) e = n :=
  StableHlo.Predicate.bcast_scalar bcast_S_S600000 h_S_ (constantI S_ 32 n) e

/-- A comparison of a vector against a spread scalar, read at one edge, compares that edge's word with the scalar. -/
private theorem cmpi_bcast (p : CmpIPredicate) (x : IVec S600000 32) (n : BitVec 32) (e : S600000.Idx)
    (h : cmpi p x (broadcastInDim S600000 ![] bcast_S_S600000 (constantI S_ 32 n)) e = 1#1) :
    IntOp.cmpi p (x e) n = 1#1 := by
  rw [← bcast_const n e]; exact h

/-- If the conjunction over all edges of `0 ≤ x ∧ x < hi` is 1, then every entry of `x` passes both tests: a fold by
`and` that ends at 1 met only 1s, and a 1 of the pointwise `and` is a 1 of each side. -/
private theorem all_range (x : IVec S600000 32) (hi : BitVec 32) (j : S_.Idx)
    (h : Host.reduce IntOp.andi
        (andi (cmpi .sge x (broadcastInDim S600000 ![] bcast_S_S600000 (constantI S_ 32 0#32)))
          (cmpi .slt x (broadcastInDim S600000 ![] bcast_S_S600000 (constantI S_ 32 hi))))
        (constantI S_ 1 1#1) reducesTo_S600000_S_d0 h_S_ j = 1#1) (e : S600000.Idx) :
    IntOp.cmpi .sge (x e) 0#32 = 1#1 ∧ IntOp.cmpi .slt (x e) hi = 1#1 := by
  have he := Host.reduce_andi_all _ _ _ _ _ h e
  obtain ⟨u, v⟩ := IntOp.andi_eq_one.1 he
  exact ⟨cmpi_bcast _ _ _ _ u, cmpi_bcast _ _ _ _ v⟩

/-- The last two parts of the precondition compute `((v183 ∧ v187 ∧ …) ∧ R₁) ∧ R₂`; when that scalar is 1, so are `R₁`
and `R₂`, which bound every entry of the two rows of the edge list. Whatever the first operand of the outer
conjunctions is plays no part. -/
private theorem part11_one (a2 : IVec S2x600000 32) (a39 : FVec Ideal S128x2 .f32) (a40 : FVec Ideal S2 .f32)
    (v183 v187 : IVec S_ 1)
    (h : fn_part11 (F := Ideal) a2 a39 a40 v183 v187 = fun _ => 1#1) (e : S600000.Idx) :
    (IntOp.cmpi .sge (shapeCast S600000 (extractStridedSlice S1x600000 ![0, 0] a2 slices_S2x600000_S1x600000_0_0) shapeCasts_S1x600000_S600000 e) 0#32 = 1#1
      ∧ IntOp.cmpi .slt (shapeCast S600000 (extractStridedSlice S1x600000 ![0, 0] a2 slices_S2x600000_S1x600000_0_0) shapeCasts_S1x600000_S600000 e) 50000#32 = 1#1)
    ∧ (IntOp.cmpi .sge (shapeCast S600000 (extractStridedSlice S1x600000 ![1, 0] a2 slices_S2x600000_S1x600000_1_0) shapeCasts_S1x600000_S600000 e) 0#32 = 1#1
      ∧ IntOp.cmpi .slt (shapeCast S600000 (extractStridedSlice S1x600000 ![1, 0] a2 slices_S2x600000_S1x600000_1_0) shapeCasts_S1x600000_S600000 e) 100000#32 = 1#1) := by
  have e0 := congrFun h ix0
  unfold fn_part11 fn_part12 at e0
  obtain ⟨h1, hR2⟩ := IntOp.andi_eq_one.1 e0
  obtain ⟨_, hR1⟩ := IntOp.andi_eq_one.1 h1
  exact ⟨all_range _ _ _ hR1 e, all_range _ _ _ hR2 e⟩

end Decode

open Cert.KernelIdeal

theorem idxOk_of_pre (m : (ℓ : Loc nD τ sig) → Buf (Elt Ideal) ℓ) (h : Cert.Pre_KernelIdeal m) (c : Dev nD) :
    Cert.Chain.IdxOk (argsK m c) := by
  have e := h c
  -- the precondition, as a chain of parts each ending in the call of the next, is its eleventh part at the values the
  -- first ten compute; those values are left unnamed
  change Cert.Pre_finite_inputs.fn_part11 (F := Ideal) _ _ _ _ _ = _ at e
  intro j
  -- the two rows of the edge list are the same slices of the same argument array in both spellings
  exact part11_one _ _ _ _ _ e j

end Cert.PreIdx

end
-- ==== Proof.RefA.lean ====
import proofs.«412352_j55765855371830_1_alg».proof.Proof.Gen.ReferenceIdeal.Read
import proofs.«412352_j55765855371830_1_alg».proof.Proof.Chain

import Idealize.ShloMosaic.Lib.ValueIdx
import Idealize.ShloMosaic.Lib.ValueLayout
import Idealize.ShloMosaic.Lib.Pipeline.Value
import Idealize.ShloMosaic.PureOps.Ideal.Laws

/-! The reference's first round, stage by stage, is the chain of arrays: the two embedded tables row by row, the two row gathers, the messages row by row, the aggregate. -/

noncomputable section

namespace Cert.ReferenceIdeal.RefChain

open Idealize.ShloMosaic Idealize.ShloMosaic.TcCoe Idealize.ShloMosaic.ValueIdx Idealize.SL.Sem
open Cert.ReferenceIdeal Cert.ReferenceIdeal.Read

/-! ## Where each operation reads its operands

An inner product at entry `(i, q)` reads row `i` of its left operand and column `q` of its right operand; a bias or a
shift laid along the rows is read at the column alone; a scalar laid over the whole array is read at its one entry. -/

section FirstTable
variable (i : Fin 50000) (q k : Fin 128) (f : Fin 69)
private theorem ix_l11 : lidx_main_v11 (ix2 i q) k = ix2 i k := funext fun a => Fin.ext (by match a with | ⟨0, _⟩ => rfl | ⟨1, _⟩ => rfl)
private theorem ix_r11 : ridx_main_v11 (ix2 i q) k = ix2 k q := funext fun a => Fin.ext (by match a with | ⟨0, _⟩ => rfl | ⟨1, _⟩ => rfl)
private theorem ix_l6 : lidx_main_v6 (ix2 i k) f = ix2 i f := funext fun a => Fin.ext (by match a with | ⟨0, _⟩ => rfl | ⟨1, _⟩ => rfl)
private theorem ix_r6 : ridx_main_v6 (ix2 i k) f = ix2 f k := funext fun a => Fin.ext (by match a with | ⟨0, _⟩ => rfl | ⟨1, _⟩ => rfl)
private theorem ix_v0 : idx_main_v0 (idx_main_v1 (ix2 i f)) = ix1 f := funext fun a => Fin.ext (by match a with | ⟨0, _⟩ => rfl)
private theorem ix_v3 : idx_main_v3 (idx_main_v4 (ix2 i f)) = ix1 f := funext fun a => Fin.ext (by match a with | ⟨0, _⟩ => rfl)
private theorem ix_v7 : idx_main_v7 (idx_main_v8 (ix2 i k)) = ix1 k := funext fun a => Fin.ext (by match a with | ⟨0, _⟩ => rfl)
private theorem ix_v12 : idx_main_v12 (idx_main_v13 (ix2 i q)) = ix1 q := funext fun a => Fin.ext (by match a with | ⟨0, _⟩ => rfl)
end FirstTable

section SecondTable
variable (i : Fin 100000) (q k : Fin 128) (f : Fin 69)
private theorem ix_l27 : lidx_main_v27 (ix2 i q) k = ix2 i k := funext fun a => Fin.ext (by match a with | ⟨0, _⟩ => rfl | ⟨1, _⟩ => rfl)
private theorem ix_r27 : ridx_main_v27 (ix2 i q) k = ix2 k q := funext fun a => Fin.ext (by match a with | ⟨0, _⟩ => rfl | ⟨1, _⟩ => rfl)
private theorem ix_l22 : lidx_main_v22 (ix2 i k) f = ix2 i f := funext fun a => Fin.ext (by match a with | ⟨0, _⟩ => rfl | ⟨1, _⟩ => rfl)
private theorem ix_r22 : ridx_main_v22 (ix2 i k) f = ix2 f k := funext fun a => Fin.ext (by match a with | ⟨0, _⟩ => rfl | ⟨1, _⟩ => rfl)
private theorem ix_v16 : idx_main_v16 (idx_main_v17 (ix2 i f)) = ix1 f := funext fun a => Fin.ext (by match a with | ⟨0, _⟩ => rfl)
private theorem ix_v19 : idx_main_v19 (idx_main_v20 (ix2 i f)) = ix1 f := funext fun a => Fin.ext (by match a with | ⟨0, _⟩ => rfl)
private theorem ix_v23 : idx_main_v23 (idx_main_v24 (ix2 i k)) = ix1 k := funext fun a => Fin.ext (by match a with | ⟨0, _⟩ => rfl)
private theorem ix_v28 : idx_main_v28 (idx_main_v29 (ix2 i q)) = ix1 q := funext fun a => Fin.ext (by match a with | ⟨0, _⟩ => rfl)
end SecondTable

section Edges
variable (e : Fin 600000) (q k j : Fin 128)
private theorem ix_l60 : lidx_main_v60 (ix2 e q) k = ix2 e k := funext fun a => Fin.ext (by match a with | ⟨0, _⟩ => rfl | ⟨1, _⟩ => rfl)
private theorem ix_r60 : ridx_main_v60 (ix2 e q) k = ix2 k q := funext fun a => Fin.ext (by match a with | ⟨0, _⟩ => rfl | ⟨1, _⟩ => rfl)
private theorem ix_l43 : lidx_main_v43 (ix2 e k) j = ix2 e j := funext fun a => Fin.ext (by match a with | ⟨0, _⟩ => rfl | ⟨1, _⟩ => rfl)
private theorem ix_r43 : ridx_main_v43 (ix2 e k) j = ix2 j k := funext fun a => Fin.ext (by match a with | ⟨0, _⟩ => rfl | ⟨1, _⟩ => rfl)
private theorem ix_l54 : lidx_main_v54 (ix2 e k) j = ix2 e j := funext fun a => Fin.ext (by match a with | ⟨0, _⟩ => rfl | ⟨1, _⟩ => rfl)
private theorem ix_r54 : ridx_main_v54 (ix2 e k) j = ix2 j k := funext fun a => Fin.ext (by match a with | ⟨0, _⟩ => rfl | ⟨1, _⟩ => rfl)
private theorem ix_v44 : idx_main_v44 (idx_main_v45 (ix2 e k)) = ix1 k := funext fun a => Fin.ext (by match a with | ⟨0, _⟩ => rfl)
private theorem ix_v56 : idx_main_v56 (idx_main_v57 (ix2 e k)) = ix1 (0 : Fin 1) := funext fun a => Fin.ext (by match a with | ⟨0, _⟩ => rfl)
private theorem ix_v61 : idx_main_v61 (idx_main_v62 (ix2 e q)) = ix1 q := funext fun a => Fin.ext (by match a with | ⟨0, _⟩ => rfl)
end Edges

/-! ## The two embedded tables, row by row -/

theorem ref_pv0 (a : Cert.Chain.Args) :
    val_main_v15 (F := Ideal) a.a0 a.a3 a.a4 a.a5 a.a6 a.a7 a.a8 = Cert.Chain.pv0 a := by
  funext j
  obtain ⟨i, q, rfl⟩ : ∃ (i : Fin 50000) (q : Fin 128), j = ix2 i q := ⟨j 0, j 1, eq_ix2 j⟩
  show val_main_v15 (F := Ideal) a.a0 a.a3 a.a4 a.a5 a.a6 a.a7 a.a8 (ix2 i q)
    = Cert.Spec.embedRow (Cert.Chain.row2 a.a0 i) (Cert.Chain.vec1 a.a3) (Cert.Chain.vec1 a.a4) (Cert.Chain.mat a.a5)
        (Cert.Chain.vec1 a.a6) (Cert.Chain.mat a.a7) (Cert.Chain.vec1 a.a8) q
  rw [val_main_v15_apply, val_main_v14_apply, val_main_v11_apply, val_main_v13_apply, val_main_v12_apply,
    val_main_call1_v0_apply, val_main_call1_cst_apply]
  simp only [val_main_v10_apply, val_main_v9_apply, val_main_v6_apply, val_main_v8_apply, val_main_v7_apply,
    val_main_call0_v0_apply, val_main_call0_cst_apply, val_main_v5_apply, val_main_v2_apply, val_main_v1_apply,
    val_main_v0_apply, val_main_v4_apply, val_main_v3_apply,
    ix_l11, ix_r11, ix_l6, ix_r6, ix_v0, ix_v3, ix_v7, ix_v12,
    Cert.Spec.embedRow, Cert.Spec.lin, Cert.Chain.row2, Cert.Chain.vec1, Cert.Chain.mat,
    Ideal.maximumf_def, Ideal.addf_def, Ideal.mulf_def, Ideal.ofBits_def, Ideal.ofBits_zero_f32]

theorem ref_ch0 (a : Cert.Chain.Args) :
    val_main_v31 (F := Ideal) a.a1 a.a9 a.a10 a.a11 a.a12 a.a13 a.a14 = Cert.Chain.ch0 a := by
  funext j
  obtain ⟨i, q, rfl⟩ : ∃ (i : Fin 100000) (q : Fin 128), j = ix2 i q := ⟨j 0, j 1, eq_ix2 j⟩
  show val_main_v31 (F := Ideal) a.a1 a.a9 a.a10 a.a11 a.a12 a.a13 a.a14 (ix2 i q)
    = Cert.Spec.embedRow (Cert.Chain.row2 a.a1 i) (Cert.Chain.vec1 a.a9) (Cert.Chain.vec1 a.a10) (Cert.Chain.mat a.a11)
        (Cert.Chain.vec1 a.a12) (Cert.Chain.mat a.a13) (Cert.Chain.vec1 a.a14) q
  rw [val_main_v31_apply, val_main_v30_apply, val_main_v27_apply, val_main_v29_apply, val_main_v28_apply,
    val_main_call3_v0_apply, val_main_call3_cst_apply]
  simp only [val_main_v26_apply, val_main_v25_apply, val_main_v22_apply, val_main_v24_apply, val_main_v23_apply,
    val_main_call2_v0_apply, val_main_call2_cst_apply, val_main_v21_apply, val_main_v18_apply, val_main_v17_apply,
    val_main_v16_apply, val_main_v20_apply, val_main_v19_apply,
    ix_l27, ix_r27, ix_l22, ix_r22, ix_v16, ix_v19, ix_v23, ix_v28,
    Cert.Spec.embedRow, Cert.Spec.lin, Cert.Chain.row2, Cert.Chain.vec1, Cert.Chain.mat,
    Ideal.maximumf_def, Ideal.addf_def, Ideal.mulf_def, Ideal.ofBits_def, Ideal.ofBits_zero_f32]

/-! ## The two row gathers

The reference gathers rows of the same tables at the same wrapped edge indices, so once the table is the chain's the
gathered arrays are the same term. -/

/-- The senders' start indices: negative ones counted from the end of the 50000 rows. -/
private theorem src_column (a : Cert.Chain.Args) :
    val_main_v52 (F := Ideal) a.a2 = Cert.Chain.wrap 50000#32 (Cert.Chain.src a) := rfl

/-- The receivers' start indices: negative ones counted from the end of the 100000 rows. -/
private theorem dst_column (a : Cert.Chain.Args) :
    val_main_v41 (F := Ideal) a.a2 = Cert.Chain.wrap 100000#32 (Cert.Chain.dst a) := rfl

theorem ref_lg1 (a : Cert.Chain.Args) :
    val_main_v53 (F := Ideal) a.a0 a.a2 a.a3 a.a4 a.a5 a.a6 a.a7 a.a8 = Cert.Chain.lg1 a := by
  unfold val_main_v53
  rw [ref_pv0 a, src_column a]
  rfl

theorem ref_rg1 (a : Cert.Chain.Args) :
    val_main_v42 (F := Ideal) a.a1 a.a2 a.a9 a.a10 a.a11 a.a12 a.a13 a.a14 = Cert.Chain.rg1 a := by
  unfold val_main_v42
  rw [ref_ch0 a, dst_column a]
  rfl

/-! ## The messages, row by row -/

theorem ref_msg1 (a : Cert.Chain.Args) :
    val_main_v63 (F := Ideal) a.a0 a.a1 a.a2 a.a3 a.a4 a.a5 a.a6 a.a7 a.a8 a.a9 a.a10 a.a11 a.a12 a.a13 a.a14 a.a15 a.a16 a.a17 a.a18 a.a19 a.a20 = Cert.Chain.msg1 a := by
  funext j
  obtain ⟨e, q, rfl⟩ : ∃ (e : Fin 600000) (q : Fin 128), j = ix2 e q := ⟨j 0, j 1, eq_ix2 j⟩
  show val_main_v63 (F := Ideal) a.a0 a.a1 a.a2 a.a3 a.a4 a.a5 a.a6 a.a7 a.a8 a.a9 a.a10 a.a11 a.a12 a.a13 a.a14 a.a15 a.a16 a.a17 a.a18 a.a19 a.a20 (ix2 e q)
    = Cert.Spec.msgRow (Cert.Chain.row2 (Cert.Chain.lg1 a) e) (Cert.Chain.row2 (Cert.Chain.rg1 a) e) (Cert.Chain.mat a.a15)
        (Cert.Chain.vec1 a.a16) (Cert.Chain.mat a.a17) (a.a18 (ix1 0)) (Cert.Chain.mat a.a19) (Cert.Chain.vec1 a.a20) q
  rw [val_main_v63_apply, val_main_v60_apply, val_main_v62_apply, val_main_v61_apply]
  simp only [val_main_v59_apply, val_main_call4_v0_apply, val_main_call4_cst_apply, val_main_v58_apply,
    val_main_v57_apply, val_main_v56_apply, val_main_v55_apply, val_main_v46_apply, val_main_v43_apply,
    val_main_v45_apply, val_main_v44_apply, val_main_v54_apply, ref_lg1 a, ref_rg1 a,
    ix_l60, ix_r60, ix_l43, ix_r43, ix_l54, ix_r54, ix_v44, ix_v56, ix_v61,
    Cert.Spec.msgRow, Cert.Spec.lin, Cert.Chain.row2, Cert.Chain.vec1, Cert.Chain.mat,
    Ideal.maximumf_def, Ideal.addf_def, Ideal.mulf_def, Ideal.ofBits_def, Ideal.ofBits_zero_f32]

/-! ## The aggregate

Both sides sum the messages per receiver and divide by the receiver's edge count clamped below at one; with the
messages equal the two are one term. -/

theorem ref_agg1 (a : Cert.Chain.Args) :
    val_main_v74 (F := Ideal) a.a0 a.a1 a.a2 a.a3 a.a4 a.a5 a.a6 a.a7 a.a8 a.a9 a.a10 a.a11 a.a12 a.a13 a.a14 a.a15 a.a16 a.a17 a.a18 a.a19 a.a20 = Cert.Chain.agg1 a := by
  unfold val_main_v74 val_main_v66
  rw [ref_msg1 a]
  rfl

end Cert.ReferenceIdeal.RefChain

end
-- ==== Proof.RefB.lean ====
import proofs.«412352_j55765855371830_1_alg».proof.Proof.Gen.ReferenceIdeal.Read
import proofs.«412352_j55765855371830_1_alg».proof.Proof.Chain
import proofs.«412352_j55765855371830_1_alg».proof.Proof.RefA
import Idealize.ShloMosaic.Lib.ValueIdx
import Idealize.ShloMosaic.Lib.ValueLayout
import Idealize.ShloMosaic.Lib.Pipeline.Value
import Idealize.ShloMosaic.PureOps.Ideal.Laws

/-! The reference's node update, its second round and its output head are the chain of arrays. -/

noncomputable section

namespace Cert.ReferenceIdeal.RefChain

open Idealize.ShloMosaic Idealize.ShloMosaic.TcCoe Idealize.ShloMosaic.ValueIdx Idealize.SL.Sem
open Cert.ReferenceIdeal Cert.ReferenceIdeal.Read

/-! ### The node update of the receiving side -/

private theorem rb_b76 (i : Fin 100000) (q : Fin 128) : idx_main_v75 (idx_main_v76 (ix2 i q)) = ix1 (0 : Fin 1) :=
  funext fun d => Fin.ext (by match d with | ⟨0, _⟩ => rfl)

/-- Row `i` of the array the update multiplies: the scaled aggregate, then the node's own row. -/
private theorem rb_cat1 (a : Cert.Chain.Args) (i : Fin 100000) (m : Fin 256) :
    val_main_v78 (F := Ideal) a.a0 a.a1 a.a2 a.a3 a.a4 a.a5 a.a6 a.a7 a.a8 a.a9 a.a10 a.a11 a.a12 a.a13 a.a14 a.a15 a.a16 a.a17 a.a18 a.a19 a.a20 a.a21 (ix2 i m)
      = Cert.Spec.sideBySide (Cert.Chain.row2 (Cert.Chain.agg1 a) i) (Cert.Chain.row2 (Cert.Chain.ch0 a) i) (a.a21 (ix1 0)) m := by
  unfold val_main_v78
  by_cases h : m.val < 128
  · refine (concatenate_pair_apply_left (1 : Fin S100000x256.rank) _ _ Facts₀.concatenates_S100000x128_S100000x128_S100000x256_d1
      (ix2 i m) rfl (ix2 i (⟨m.val, h⟩ : Fin 128)) (fun b => by match b with | ⟨0, _⟩ => rfl | ⟨1, _⟩ => rfl)).trans ?_
    refine Eq.trans ?_ (dif_pos h).symm
    rw [val_main_v77_apply, val_main_v76_apply, val_main_v75_apply, ref_agg1 a, rb_b76, Ideal.mulf_def]
    rfl
  · have h' : m.val - 128 < 128 := by have := m.isLt; omega
    refine (concatenate_pair_apply_right (1 : Fin S100000x256.rank) _ _ Facts₀.concatenates_S100000x128_S100000x128_S100000x256_d1
      (ix2 i m) rfl rfl (ix2 i (⟨m.val - 128, h'⟩ : Fin 128))
      (fun b => by match b with | ⟨0, _⟩ => exact fun _ => rfl | ⟨1, _⟩ => exact fun hne => (hne (Fin.ext rfl)).elim)
      (by show (m.val - 128) + 128 = m.val; omega)).trans ?_
    refine Eq.trans ?_ (dif_neg h).symm
    rw [ref_ch0 a]
    rfl

private theorem rb_l84 (i : Fin 100000) (q k : Fin 128) : lidx_main_v84 (ix2 i q) k = ix2 i k :=
  funext fun d => Fin.ext (by match d with | ⟨0, _⟩ => rfl | ⟨1, _⟩ => rfl)
private theorem rb_r84 (i : Fin 100000) (q k : Fin 128) : ridx_main_v84 (ix2 i q) k = ix2 k q :=
  funext fun d => Fin.ext (by match d with | ⟨0, _⟩ => rfl | ⟨1, _⟩ => rfl)
private theorem rb_l79 (i : Fin 100000) (q : Fin 128) (k : Fin 256) : lidx_main_v79 (ix2 i q) k = ix2 i k :=
  funext fun d => Fin.ext (by match d with | ⟨0, _⟩ => rfl | ⟨1, _⟩ => rfl)
private theorem rb_r79 (i : Fin 100000) (q : Fin 128) (k : Fin 256) : ridx_main_v79 (ix2 i q) k = ix2 k q :=
  funext fun d => Fin.ext (by match d with | ⟨0, _⟩ => rfl | ⟨1, _⟩ => rfl)
private theorem rb_b81 (i : Fin 100000) (q : Fin 128) : idx_main_v80 (idx_main_v81 (ix2 i q)) = ix1 q :=
  funext fun d => Fin.ext (by match d with | ⟨0, _⟩ => rfl)
private theorem rb_b86 (i : Fin 100000) (q : Fin 128) : idx_main_v85 (idx_main_v86 (ix2 i q)) = ix1 q :=
  funext fun d => Fin.ext (by match d with | ⟨0, _⟩ => rfl)

theorem ref_ch1 (a : Cert.Chain.Args) :
    val_main_v87 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 = Cert.Chain.ch1 a := by
  funext j
  obtain ⟨i, q, rfl⟩ : ∃ (i : Fin 100000) (q : Fin 128), j = ix2 i q := ⟨j 0, j 1, eq_ix2 j⟩
  -- the outer affine map: a sum over the 128 hidden entries, plus the bias
  rw [val_main_v87_apply, val_main_v84_apply, val_main_v86_apply, val_main_v85_apply, rb_b86]
  show _ = (∑ k : Fin 128, max ((∑ m : Fin 256, Cert.Spec.sideBySide (Cert.Chain.row2 (Cert.Chain.agg1 a) i)
      (Cert.Chain.row2 (Cert.Chain.ch0 a) i) (a.a21 (ix1 0)) m * a.a22 (ix2 m k)) + a.a23 (ix1 k)) 0 * a.a24 (ix2 k q)) + a.a25 (ix1 q)
  rw [Ideal.addf_def]
  refine congrArg (· + a.a25 (ix1 q)) (Finset.sum_congr rfl fun k _ => ?_)
  -- a hidden entry: the clamp at zero of the inner affine map of the 256 laid-out entries
  rw [rb_l84, rb_r84, val_main_v83_apply, val_main_v82_apply, val_main_v79_apply, val_main_v81_apply, val_main_v80_apply,
    val_main_call5_v0_apply, val_main_call5_cst_apply, rb_b81, Ideal.maximumf_def, Ideal.addf_def, Ideal.ofBits_def,
    Ideal.ofBits_zero_f32]
  refine congrArg (fun s => max (s + a.a23 (ix1 k)) 0 * a.a24 (ix2 k q)) (Finset.sum_congr rfl fun m _ => ?_)
  rw [rb_l79, rb_r79, rb_cat1]

/-! ### The second round's two row gathers -/

-- Both sides gather rows of the same table by the same column of start indices (negative indices counted from the end).
theorem ref_lg2 (a : Cert.Chain.Args) :
    val_main_v105 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 = Cert.Chain.lg2 a := by
  unfold val_main_v105
  rw [ref_ch1 a]
  rfl

theorem ref_rg2 (a : Cert.Chain.Args) :
    val_main_v94 (F := Ideal) a.a0 a.a2 a.a3 a.a4 a.a5 a.a6 a.a7 a.a8 = Cert.Chain.rg2 a := by
  unfold val_main_v94
  rw [ref_pv0 a]
  rfl

/-! ### The second round's messages -/

private theorem rb_l112 (i : Fin 600000) (q : Fin 128) (k : Fin 128) : lidx_main_v112 (ix2 i q) k = ix2 i k :=
  funext fun d => Fin.ext (by match d with | ⟨0, _⟩ => rfl | ⟨1, _⟩ => rfl)
private theorem rb_r112 (i : Fin 600000) (q : Fin 128) (k : Fin 128) : ridx_main_v112 (ix2 i q) k = ix2 k q :=
  funext fun d => Fin.ext (by match d with | ⟨0, _⟩ => rfl | ⟨1, _⟩ => rfl)
private theorem rb_l95 (i : Fin 600000) (q : Fin 128) (k : Fin 128) : lidx_main_v95 (ix2 i q) k = ix2 i k :=
  funext fun d => Fin.ext (by match d with | ⟨0, _⟩ => rfl | ⟨1, _⟩ => rfl)
private theorem rb_r95 (i : Fin 600000) (q : Fin 128) (k : Fin 128) : ridx_main_v95 (ix2 i q) k = ix2 k q :=
  funext fun d => Fin.ext (by match d with | ⟨0, _⟩ => rfl | ⟨1, _⟩ => rfl)
private theorem rb_l106 (i : Fin 600000) (q : Fin 128) (k : Fin 128) : lidx_main_v106 (ix2 i q) k = ix2 i k :=
  funext fun d => Fin.ext (by match d with | ⟨0, _⟩ => rfl | ⟨1, _⟩ => rfl)
private theorem rb_r106 (i : Fin 600000) (q : Fin 128) (k : Fin 128) : ridx_main_v106 (ix2 i q) k = ix2 k q :=
  funext fun d => Fin.ext (by match d with | ⟨0, _⟩ => rfl | ⟨1, _⟩ => rfl)
private theorem rb_b114 (i : Fin 600000) (q : Fin 128) : idx_main_v113 (idx_main_v114 (ix2 i q)) = ix1 q :=
  funext fun d => Fin.ext (by match d with | ⟨0, _⟩ => rfl)
private theorem rb_b97 (i : Fin 600000) (q : Fin 128) : idx_main_v96 (idx_main_v97 (ix2 i q)) = ix1 q :=
  funext fun d => Fin.ext (by match d with | ⟨0, _⟩ => rfl)
private theorem rb_b109 (i : Fin 600000) (q : Fin 128) : idx_main_v108 (idx_main_v109 (ix2 i q)) = ix1 (0 : Fin 1) :=
  funext fun d => Fin.ext (by match d with | ⟨0, _⟩ => rfl)

theorem ref_msg2 (a : Cert.Chain.Args) :
    val_main_v115 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 a.a26 a.a27 a.a28 a.a29 a.a30 a.a31 = Cert.Chain.msg2 a := by
  funext j
  obtain ⟨e, q, rfl⟩ : ∃ (e : Fin 600000) (q : Fin 128), j = ix2 e q := ⟨j 0, j 1, eq_ix2 j⟩
  -- the outer affine map of the clamped, scaled sum of the two inner products
  rw [val_main_v115_apply, val_main_v112_apply, val_main_v114_apply, val_main_v113_apply, rb_b114]
  show _ = (∑ k : Fin 128, max ((((∑ m : Fin 128, Cert.Chain.rg2 a (ix2 e m) * a.a26 (ix2 m k)) + a.a27 (ix1 k))
      + ∑ m : Fin 128, Cert.Chain.lg2 a (ix2 e m) * a.a28 (ix2 m k)) * a.a29 (ix1 0)) 0 * a.a30 (ix2 k q)) + a.a31 (ix1 q)
  rw [Ideal.addf_def]
  refine congrArg (· + a.a31 (ix1 q)) (Finset.sum_congr rfl fun k _ => ?_)
  rw [rb_l112, rb_r112, val_main_v111_apply, val_main_v110_apply, val_main_v107_apply, val_main_v98_apply, val_main_v95_apply,
    val_main_v97_apply, val_main_v96_apply, val_main_v106_apply, val_main_v109_apply, val_main_v108_apply,
    val_main_call6_v0_apply, val_main_call6_cst_apply, rb_b97, rb_b109, ref_rg2 a, ref_lg2 a]
  simp only [Ideal.maximumf_def, Ideal.mulf_def, Ideal.addf_def, Ideal.ofBits_def, Ideal.ofBits_zero_f32]
  refine congrArg₂ (fun s t => max (((s + a.a27 (ix1 k)) + t) * a.a29 (ix1 0)) 0 * a.a30 (ix2 k q))
    (Finset.sum_congr rfl fun m _ => ?_) (Finset.sum_congr rfl fun m _ => ?_)
  · rw [rb_l95, rb_r95]
  · rw [rb_l106, rb_r106]

/-! ### The second aggregate: the same scatter-sums and quotient, of the second round's messages -/

theorem ref_agg2 (a : Cert.Chain.Args) :
    val_main_v126 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 a.a26 a.a27 a.a28 a.a29 a.a30 a.a31 = Cert.Chain.agg2 a := by
  unfold val_main_v126 val_main_v118
  rw [ref_msg2 a]
  rfl

/-! ### The node update of the sending side -/

private theorem rb_b128 (i : Fin 50000) (q : Fin 128) : idx_main_v127 (idx_main_v128 (ix2 i q)) = ix1 (0 : Fin 1) :=
  funext fun d => Fin.ext (by match d with | ⟨0, _⟩ => rfl)

/-- Row `i` of the array the second update multiplies: the scaled second aggregate, then the node's own row. -/
private theorem rb_cat2 (a : Cert.Chain.Args) (i : Fin 50000) (m : Fin 256) :
    val_main_v130 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 a.a26 a.a27 a.a28 a.a29 a.a30 a.a31 a.a32 (ix2 i m)
      = Cert.Spec.sideBySide (Cert.Chain.row2 (Cert.Chain.agg2 a) i) (Cert.Chain.row2 (Cert.Chain.pv0 a) i) (a.a32 (ix1 0)) m := by
  unfold val_main_v130
  by_cases h : m.val < 128
  · refine (concatenate_pair_apply_left (1 : Fin S50000x256.rank) _ _ Facts₀.concatenates_S50000x128_S50000x128_S50000x256_d1
      (ix2 i m) rfl (ix2 i (⟨m.val, h⟩ : Fin 128)) (fun b => by match b with | ⟨0, _⟩ => rfl | ⟨1, _⟩ => rfl)).trans ?_
    refine Eq.trans ?_ (dif_pos h).symm
    rw [val_main_v129_apply, val_main_v128_apply, val_main_v127_apply, ref_agg2 a, rb_b128, Ideal.mulf_def]
    rfl
  · have h' : m.val - 128 < 128 := by have := m.isLt; omega
    refine (concatenate_pair_apply_right (1 : Fin S50000x256.rank) _ _ Facts₀.concatenates_S50000x128_S50000x128_S50000x256_d1
      (ix2 i m) rfl rfl (ix2 i (⟨m.val - 128, h'⟩ : Fin 128))
      (fun b => by match b with | ⟨0, _⟩ => exact fun _ => rfl | ⟨1, _⟩ => exact fun hne => (hne (Fin.ext rfl)).elim)
      (by show (m.val - 128) + 128 = m.val; omega)).trans ?_
    refine Eq.trans ?_ (dif_neg h).symm
    rw [ref_pv0 a]
    rfl

private theorem rb_l136 (i : Fin 50000) (q : Fin 128) (k : Fin 128) : lidx_main_v136 (ix2 i q) k = ix2 i k :=
  funext fun d => Fin.ext (by match d with | ⟨0, _⟩ => rfl | ⟨1, _⟩ => rfl)
private theorem rb_r136 (i : Fin 50000) (q : Fin 128) (k : Fin 128) : ridx_main_v136 (ix2 i q) k = ix2 k q :=
  funext fun d => Fin.ext (by match d with | ⟨0, _⟩ => rfl | ⟨1, _⟩ => rfl)
private theorem rb_l131 (i : Fin 50000) (q : Fin 128) (k : Fin 256) : lidx_main_v131 (ix2 i q) k = ix2 i k :=
  funext fun d => Fin.ext (by match d with | ⟨0, _⟩ => rfl | ⟨1, _⟩ => rfl)
private theorem rb_r131 (i : Fin 50000) (q : Fin 128) (k : Fin 256) : ridx_main_v131 (ix2 i q) k = ix2 k q :=
  funext fun d => Fin.ext (by match d with | ⟨0, _⟩ => rfl | ⟨1, _⟩ => rfl)
private theorem rb_b133 (i : Fin 50000) (q : Fin 128) : idx_main_v132 (idx_main_v133 (ix2 i q)) = ix1 q :=
  funext fun d => Fin.ext (by match d with | ⟨0, _⟩ => rfl)
private theorem rb_b138 (i : Fin 50000) (q : Fin 128) : idx_main_v137 (idx_main_v138 (ix2 i q)) = ix1 q :=
  funext fun d => Fin.ext (by match d with | ⟨0, _⟩ => rfl)

theorem ref_pv1 (a : Cert.Chain.Args) :
    val_main_v139 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 a.a26 a.a27 a.a28 a.a29 a.a30 a.a31 a.a32 a.a33 a.a34 a.a35 a.a36 = Cert.Chain.pv1 a := by
  funext j
  obtain ⟨i, q, rfl⟩ : ∃ (i : Fin 50000) (q : Fin 128), j = ix2 i q := ⟨j 0, j 1, eq_ix2 j⟩
  -- the outer affine map: a sum over the 128 hidden entries, plus the bias
  rw [val_main_v139_apply, val_main_v136_apply, val_main_v138_apply, val_main_v137_apply, rb_b138]
  show _ = (∑ k : Fin 128, max ((∑ m : Fin 256, Cert.Spec.sideBySide (Cert.Chain.row2 (Cert.Chain.agg2 a) i)
      (Cert.Chain.row2 (Cert.Chain.pv0 a) i) (a.a32 (ix1 0)) m * a.a33 (ix2 m k)) + a.a34 (ix1 k)) 0 * a.a35 (ix2 k q)) + a.a36 (ix1 q)
  rw [Ideal.addf_def]
  refine congrArg (· + a.a36 (ix1 q)) (Finset.sum_congr rfl fun k _ => ?_)
  rw [rb_l136, rb_r136, val_main_v135_apply, val_main_v134_apply, val_main_v131_apply, val_main_v133_apply, val_main_v132_apply,
    val_main_call7_v0_apply, val_main_call7_cst_apply, rb_b133, Ideal.maximumf_def, Ideal.addf_def, Ideal.ofBits_def,
    Ideal.ofBits_zero_f32]
  refine congrArg (fun s => max (s + a.a34 (ix1 k)) 0 * a.a35 (ix2 k q)) (Finset.sum_congr rfl fun m _ => ?_)
  rw [rb_l131, rb_r131, rb_cat2]

/-! ### The output head -/

private theorem rb_l145 (i : Fin 50000) (q : Fin 2) (k : Fin 128) : lidx_main_v145 (ix2 i q) k = ix2 i k :=
  funext fun d => Fin.ext (by match d with | ⟨0, _⟩ => rfl | ⟨1, _⟩ => rfl)
private theorem rb_r145 (i : Fin 50000) (q : Fin 2) (k : Fin 128) : ridx_main_v145 (ix2 i q) k = ix2 k q :=
  funext fun d => Fin.ext (by match d with | ⟨0, _⟩ => rfl | ⟨1, _⟩ => rfl)
private theorem rb_l140 (i : Fin 50000) (q : Fin 128) (k : Fin 128) : lidx_main_v140 (ix2 i q) k = ix2 i k :=
  funext fun d => Fin.ext (by match d with | ⟨0, _⟩ => rfl | ⟨1, _⟩ => rfl)
private theorem rb_r140 (i : Fin 50000) (q : Fin 128) (k : Fin 128) : ridx_main_v140 (ix2 i q) k = ix2 k q :=
  funext fun d => Fin.ext (by match d with | ⟨0, _⟩ => rfl | ⟨1, _⟩ => rfl)
private theorem rb_b142 (i : Fin 50000) (q : Fin 128) : idx_main_v141 (idx_main_v142 (ix2 i q)) = ix1 q :=
  funext fun d => Fin.ext (by match d with | ⟨0, _⟩ => rfl)
private theorem rb_b147 (i : Fin 50000) (q : Fin 2) : idx_main_v146 (idx_main_v147 (ix2 i q)) = ix1 q :=
  funext fun d => Fin.ext (by match d with | ⟨0, _⟩ => rfl)

/-- The reference's constant `1.0` is the extended real `1`. -/
private theorem rb_one_f32 : Ideal.ofBits .f32 0x3F800000#32 = 1 := IdealRules.sign_bit.ideal_onePat .f32

theorem ref_out (a : Cert.Chain.Args) :
    val_main_v154 (F := Ideal) a.a0 a.a1 a.a2 a.a3 a.a4 a.a5 a.a6 a.a7 a.a8 a.a9 a.a10 a.a11 a.a12 a.a13 a.a14 a.a15 a.a16 a.a17 a.a18 a.a19 a.a20 a.a21 a.a22 a.a23 a.a24 a.a25 a.a26 a.a27 a.a28 a.a29 a.a30 a.a31 a.a32 a.a33 a.a34 a.a35 a.a36 a.a37 a.a38 a.a39 a.a40 = Cert.Chain.out a := by
  funext j
  obtain ⟨i, c, rfl⟩ : ∃ (i : Fin 50000) (c : Fin 2), j = ix2 i c := ⟨j 0, j 1, eq_ix2 j⟩
  -- the quotient 1 / (1 + exp (-x)) of the two-entry affine map x of the clamped hidden row
  rw [val_main_v154_apply, val_main_v153_apply, val_main_cst_15_apply, val_main_v152_apply, val_main_v151_apply,
    val_main_cst_14_apply, val_main_v150_apply, val_main_v149_apply, val_main_v148_apply, val_main_v145_apply,
    val_main_v147_apply, val_main_v146_apply, rb_b147]
  show _ = Ideal.div 1 (1 + Ideal.exp (-((∑ k : Fin 128, max ((∑ m : Fin 128, Cert.Chain.pv1 a (ix2 i m) * a.a37 (ix2 m k))
      + a.a38 (ix1 k)) 0 * a.a39 (ix2 k c)) + a.a40 (ix1 c))))
  simp only [Ideal.hostDivf_def, Ideal.addf_def, Ideal.hostUnary_exp_def, Ideal.hostNegf_def, Ideal.negf_def, Ideal.ofBits_def,
    rb_one_f32]
  refine congrArg (fun s => Ideal.div 1 (1 + Ideal.exp (-(s + a.a40 (ix1 c))))) (Finset.sum_congr rfl fun k _ => ?_)
  rw [rb_l145, rb_r145, val_main_v144_apply, val_main_v143_apply, val_main_v140_apply, val_main_v142_apply, val_main_v141_apply,
    val_main_call8_v0_apply, val_main_call8_cst_apply, rb_b142, Ideal.maximumf_def, Ideal.addf_def, Ideal.ofBits_def,
    Ideal.ofBits_zero_f32]
  refine congrArg (fun s => max (s + a.a38 (ix1 k)) 0 * a.a39 (ix2 k c)) (Finset.sum_congr rfl fun m _ => ?_)
  rw [rb_l140, rb_r140, ref_pv1 a]

end Cert.ReferenceIdeal.RefChain

end
-- ==== Proof.lean ====
import proofs.«412352_j55765855371830_1_alg».proof.Defs
import proofs.«412352_j55765855371830_1_alg».proof.Proof.Gen.Kernel
import proofs.«412352_j55765855371830_1_alg».proof.Proof.Gen.Kernel.Frame
import proofs.«412352_j55765855371830_1_alg».proof.Proof.Gen.KernelIdeal
import proofs.«412352_j55765855371830_1_alg».proof.Proof.Gen.KernelIdeal.Frame
import proofs.«412352_j55765855371830_1_alg».proof.Proof.Gen.ReferenceIdeal
import proofs.«412352_j55765855371830_1_alg».proof.Proof.Gen.ReferenceIdeal.Run
import proofs.«412352_j55765855371830_1_alg».proof.Proof.Gen.ReferenceIdeal.Read
import proofs.«412352_j55765855371830_1_alg».proof.Proof.Gen.Pre_finite_inputs
import proofs.«412352_j55765855371830_1_alg».proof.Proof.RunValue
import proofs.«412352_j55765855371830_1_alg».proof.Proof.FoldE
import proofs.«412352_j55765855371830_1_alg».proof.Proof.PreIdx
import proofs.«412352_j55765855371830_1_alg».proof.Proof.RefB
import Idealize.ShloMosaic.Adequacy
import Idealize.ShloMosaic.Init

/-!
# A two-round bipartite graph network in seven launches against its jnp reference

The network embeds the rows of two node tables (50000 and 100000 rows of 69 features) into 128 entries, then twice
sends a message along each of 600000 edges (an affine map of the two end rows, a scale, a clamp at zero, an affine map),
averages the messages per receiving node, and updates that node from the average and its own row; the second round runs
the edges backwards. A last head maps each row of the smaller table to two logistic outputs.

The kernel program runs every row-wise layer as a launch over blocks of 5000 rows and leaves the row gathers and the
scatter-sums to the host; the reference runs everything on the host. Over the extended reals each layer is a function of
one row (Spec), so a block of rows and a whole array are read against the same formula, and the two programs compute
one chain of arrays (Chain). The one place they differ is the row gather: the kernel program replaces a row whose index is
out of range by a fill value, the reference clamps the index. The statement therefore carries, besides finiteness, that
every edge names a row of each table (the reference indexes out of range otherwise); under it the fill is never taken.

* the frames of the two kernel programs are the generated ones; the reference's is its generated run with the result dropped;
* nothing was rewritten between the kernel program and its idealization, so that conjunct is trivial;
* the value: the kernel program's result buffer ends at the last boundary's contents of the fold through its segments,
  which is the chain's last array of the launch arguments (FoldA … FoldE); the reference's result is its composed term,
  which is the same array (RefA, RefB); the arguments agree.
-/

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the chain's last array of the kernel program's launch arguments. -/
theorem algebraic : Cert.algebraic_KernelIdeal_ReferenceIdeal := by
  intro m ρ m' ρ' hpre hagree
  refine ⟨fun c => Cert.Chain.out (Cert.KernelIdeal.argsK m c), ?_, ?_⟩
  · exact (θ_run Cert.KernelIdeal.defs _ _).mono
      (fun r h c => ⟨(h c).1.trans (Cert.KernelIdeal.Fold.W19_out m ρ c (Cert.PreIdx.idxOk_of_pre m hpre c)), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40⟩ := hagree c
    rw [Cert.ReferenceIdeal.Read.val_main_v154_eq, h0, h1, h2, h3, h4, h5, h6, h7, h8, h9, h10, h11, h12, h13, h14, h15, h16, h17, h18, h19, h20, h21, h22, h23, h24, h25, h26, h27, h28, h29, h30, h31, h32, h33, h34, h35, h36, h37, h38, h39, h40]
    exact Cert.ReferenceIdeal.RefChain.ref_out (Cert.KernelIdeal.argsK m c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
